-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v6_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S128x128 : Shape := ⟨2, ![128, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg7 : IVec S800000 32) (main_arg8 : IVec S800000 32) (main_v33 : IVec S_ 1) : IVec S_ 1 :=
  let main_c_12 : IVec S_ 32 := constantI S_ 32 0#32
  let main_v34 : IVec S800000 32 := broadcastInDim S800000 ![] bcast_S_S800000 main_c_12
  let main_v35 : IVec S800000 1 := cmpi .sge main_arg7 main_v34
  let main_c_13 : IVec S_ 32 := constantI S_ 32 50000#32
  let main_v36 : IVec S800000 32 := broadcastInDim S800000 ![] bcast_S_S800000 main_c_13
  let main_v37 : IVec S800000 1 := cmpi .slt main_arg7 main_v36
  let main_v38 : IVec S800000 1 := andi main_v35 main_v37
  let main_c_14 : IVec S_ 1 := constantI S_ 1 1#1
  let main_v39 : IVec S_ 1 := (fun x v => Host.reduce IntOp.andi x v reducesTo_S800000_S_d0 h_S_) main_v38 main_c_14
  let main_v40 : IVec S_ 1 := andi main_v33 main_v39
  let main_c_15 : IVec S_ 32 := constantI S_ 32 0#32
  let main_v41 : IVec S800000 32 := broadcastInDim S800000 ![] bcast_S_S800000 main_c_15
  let main_v42 : IVec S800000 1 := cmpi .sge main_arg8 main_v41
  let main_c_16 : IVec S_ 32 := constantI S_ 32 50000#32
  let main_v43 : IVec S800000 32 := broadcastInDim S800000 ![] bcast_S_S800000 main_c_16
  let main_v44 : IVec S800000 1 := cmpi .slt main_arg8 main_v43
  let main_v45 : IVec S800000 1 := andi main_v42 main_v44
  let main_c_17 : IVec S_ 1 := constantI S_ 1 1#1
  let main_v46 : IVec S_ 1 := (fun x v => Host.reduce IntOp.andi x v reducesTo_S800000_S_d0 h_S_) main_v45 main_c_17
  let main_v47 : IVec S_ 1 := andi main_v40 main_v46
  main_v47

def fn_part1 {F : FTy → Type} [FloatOps F] (main_arg4 : FVec F S128x128 .f32) (main_arg5 : FVec F S128x128 .f32) (main_arg6 : FVec F S128x128 .f32) (main_arg7 : IVec S800000 32) (main_arg8 : IVec S800000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S800000x128 .f32) (main_arg2 : FVec F S50000x128 .f32) (main_arg3 : FVec F S128x128 .f32) (main_arg4 : FVec F S128x128 .f32) (main_arg5 : FVec F S128x128 .f32) (main_arg6 : FVec F S128x128 .f32) (main_arg7 : IVec S800000 32) (main_arg8 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S800000x128 : Shape := ⟨2, ![800000, 128]⟩
abbrev S128x128 : Shape := ⟨2, ![128, 128]⟩
abbrev S800000 : Shape := ⟨1, ![800000]⟩
abbrev S128x8 : Shape := ⟨2, ![128, 8]⟩
abbrev S8x128 : Shape := ⟨2, ![8, 128]⟩
abbrev S128x256 : Shape := ⟨2, ![128, 256]⟩
abbrev S5000x128 : Shape := ⟨2, ![5000, 128]⟩
abbrev S5000x256 : Shape := ⟨2, ![5000, 256]⟩
abbrev S50000x256 : Shape := ⟨2, ![50000, 256]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x256 : Shape := ⟨2, ![800000, 256]⟩
abbrev S800000x8 : Shape := ⟨2, ![800000, 8]⟩
abbrev S4000x256 : Shape := ⟨2, ![4000, 256]⟩
abbrev S4000x128 : Shape := ⟨2, ![4000, 128]⟩
abbrev S4000x8 : Shape := ⟨2, ![4000, 8]⟩
abbrev S50000x8 : Shape := ⟨2, ![50000, 8]⟩
abbrev S5000x8 : Shape := ⟨2, ![5000, 8]⟩
abbrev S50000x8x16 : Shape := ⟨3, ![50000, 8, 16]⟩

abbrev nBuf : Space → Nat
  | .hbm => 75
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S50000x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S800000, .i32⟩
  | .hbm, ⟨8, _⟩ => ⟨S800000, .i32⟩
  | .hbm, ⟨9, _⟩ => ⟨S128x8, .f32⟩
  | .hbm, ⟨10, _⟩ => ⟨S8x128, .f32⟩
  | .hbm, ⟨11, _⟩ => ⟨S128x256, .f32⟩
  | .hbm, ⟨12, _⟩ => ⟨S50000x128, .f32⟩
  | .hbm, ⟨13, _⟩ => ⟨S50000x128, .f32⟩
  | .hbm, ⟨14, _⟩ => ⟨S50000x128, .f32⟩
  | .hbm, ⟨15, _⟩ => ⟨S50000x256, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S1, .i32⟩
  | .hbm, ⟨25, _⟩ => ⟨S_, .i32⟩
  | .hbm, ⟨26, _⟩ => ⟨S800000x1, .i32⟩
  | .hbm, ⟨27, _⟩ => ⟨S800000x1, .i1⟩
  | .hbm, ⟨28, _⟩ => ⟨S1x1, .i32⟩
  | .hbm, ⟨29, _⟩ => ⟨S800000x1, .i32⟩
  | .hbm, ⟨30, _⟩ => ⟨S800000x1, .i1⟩
  | .hbm, ⟨31, _⟩ => ⟨S800000x1, .i1⟩
  | .hbm, ⟨32, _⟩ => ⟨S_, .i1⟩
  | .hbm, ⟨33, _⟩ => ⟨S800000, .i1⟩
  | .hbm, ⟨34, _⟩ => ⟨S800000x256, .f32⟩
  | .hbm, ⟨35, _⟩ => ⟨S800000x256, .i1⟩
  | .hbm, ⟨36, _⟩ => ⟨S_, .f32⟩
  | .hbm, ⟨37, _⟩ => ⟨S800000x256, .f32⟩
  | .hbm, ⟨38, _⟩ => ⟨S800000x256, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S1, .i32⟩
  | .hbm, ⟨48, _⟩ => ⟨S_, .i32⟩
  | .hbm, ⟨49, _⟩ => ⟨S800000x1, .i32⟩
  | .hbm, ⟨50, _⟩ => ⟨S800000x1, .i1⟩
  | .hbm, ⟨51, _⟩ => ⟨S1x1, .i32⟩
  | .hbm, ⟨52, _⟩ => ⟨S800000x1, .i32⟩
  | .hbm, ⟨53, _⟩ => ⟨S800000x1, .i1⟩
  | .hbm, ⟨54, _⟩ => ⟨S800000x1, .i1⟩
  | .hbm, ⟨55, _⟩ => ⟨S_, .i1⟩
  | .hbm, ⟨56, _⟩ => ⟨S800000, .i1⟩
  | .hbm, ⟨57, _⟩ => ⟨S800000x128, .f32⟩
  | .hbm, ⟨58, _⟩ => ⟨S800000x128, .i1⟩
  | .hbm, ⟨59, _⟩ => ⟨S_, .f32⟩
  | .hbm, ⟨60, _⟩ => ⟨S800000x128, .f32⟩
  | .hbm, ⟨61, _⟩ => ⟨S800000x128, .f32⟩
  | .hbm, ⟨62, _⟩ => ⟨S800000x128, .f32⟩
  | .hbm, ⟨63, _⟩ => ⟨S800000x8, .f32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S_, .f32⟩
  | .hbm, ⟨70, _⟩ => ⟨S50000x8, .f32⟩
  | .hbm, ⟨71, _⟩ => ⟨S800000x1, .i32⟩
  | .hbm, ⟨72, _⟩ => ⟨S50000x8, .f32⟩
  | .hbm, ⟨73, _⟩ => ⟨S50000x128, .f32⟩
  | .hbm, ⟨74, _⟩ => ⟨S50000x8x16, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S5000x128, .f32⟩
  | .local _ .vmem, ⟨11, _⟩ => ⟨S5000x128, .f32⟩
  | .local _ .vmem, ⟨12, _⟩ => ⟨S4000x256, .f32⟩
  | .local _ .vmem, ⟨13, _⟩ => ⟨S4000x256, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S128x128, .f32⟩
  | .local _ .vmem, ⟨19, _⟩ => ⟨S128x8, .f32⟩
  | .local _ .vmem, ⟨20, _⟩ => ⟨S8x128, .f32⟩
  | .local _ .vmem, ⟨21, _⟩ => ⟨S4000x128, .f32⟩
  | .local _ .vmem, ⟨22, _⟩ => ⟨S4000x128, .f32⟩
  | .local _ .vmem, ⟨23, _⟩ => ⟨S4000x8, .f32⟩
  | .local _ .vmem, ⟨24, _⟩ => ⟨S4000x8, .f32⟩
  | .local _ .vmem, ⟨25, _⟩ => ⟨S4000x128, .f32⟩
  | .local _ .vmem, ⟨26, _⟩ => ⟨S4000x128, .f32⟩
  | .local _ .vmem, ⟨27, _⟩ => ⟨S5000x128, .f32⟩
  | .local _ .vmem, ⟨28, _⟩ => ⟨S5000x128, .f32⟩
  | .local _ .vmem, ⟨29, _⟩ => ⟨S5000x8, .f32⟩
  | .local _ .vmem, ⟨30, _⟩ => ⟨S5000x8, .f32⟩
  | .local _ .vmem, ⟨31, _⟩ => ⟨S8x128, .f32⟩
  | .local _ .vmem, ⟨32, _⟩ => ⟨S5000x128, .f32⟩
  | .local _ .vmem, ⟨33, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v5 : Ref sig .tc := ⟨.hbm, 61, rfl⟩
abbrev main_v6_0 : Ref sig .tc := ⟨.hbm, 62, rfl⟩
abbrev main_v6_1 : Ref sig .tc := ⟨.hbm, 63, rfl⟩
abbrev main_v6_2 : Ref sig .tc := ⟨.hbm, 64, rfl⟩
abbrev main_cst_1 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_cst_2 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc2_stg7_0 : Ref sig .tc := ⟨.vmem, 23, rfl⟩
abbrev cc2_stg7_1 : Ref sig .tc := ⟨.vmem, 24, rfl⟩
abbrev cc2_stg8_0 : Ref sig .tc := ⟨.vmem, 25, rfl⟩
abbrev cc2_stg8_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc2_sem7_0 : DmaSem sig := 23
abbrev cc2_sem7_1 : DmaSem sig := 24
abbrev cc2_sem8_0 : DmaSem sig := 25
abbrev cc2_sem8_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S4000x8 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S4000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x8 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S8x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  concatenates_S128x128_S128x128_S128x256_d1 : Shape.Concatenates [S128x128, S128x128] S128x256 1
  inb_S5000x128_S5000x128_0_0 : ∀ a, (![0, 0] : Fin 2 → Nat) a + S5000x128.size a ≤ S5000x128.size a
  h_S5000x128 : 0 < S5000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S5000x256_o0_0_S5000x128 : S5000x256.Slices ![0, 0] S5000x128
  slices_S5000x256_o0_128_S5000x128 : S5000x256.Slices ![0, 128] S5000x128
  inb_S128x128_S128x128_0_0 : ∀ a, (![0, 0] : Fin 2 → Nat) a + S128x128.size a ≤ S128x128.size a
  h_S128x128 : 0 < S128x128.numel
  concatenates_S50000x128_S50000x128_S50000x256_d1 : Shape.Concatenates [S50000x128, S50000x128] S50000x256 1
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S800000_S800000x128_0 : S800000.BroadcastsInDim S800000x128 (![0] : Fin 1 → Fin S800000x128.rank)
  bcast_S_S800000x128 : S_.BroadcastsInDim S800000x128 (![] : Fin 0 → Fin S800000x128.rank)
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  slices_S4000x256_o0_0_S4000x128 : S4000x256.Slices ![0, 0] S4000x128
  slices_S4000x256_o0_128_S4000x128 : S4000x256.Slices ![0, 128] S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x8_S128x8_0_0 : ∀ a, (![0, 0] : Fin 2 → Nat) a + S128x8.size a ≤ S128x8.size a
  h_S128x8 : 0 < S128x8.numel
  inb_S4000x8_S4000x8_0_0 : ∀ a, (![0, 0] : Fin 2 → Nat) a + S4000x8.size a ≤ S4000x8.size a
  h_S4000x8 : 0 < S4000x8.numel
  inb_S8x128_S8x128_0_0 : ∀ a, (![0, 0] : Fin 2 → Nat) a + S8x128.size a ≤ S8x128.size a
  h_S8x128 : 0 < S8x128.numel
  bcast_S_S50000x128 : S_.BroadcastsInDim S50000x128 (![] : Fin 0 → Fin S50000x128.rank)
  bcast_S_S50000x8 : S_.BroadcastsInDim S50000x8 (![] : Fin 0 → Fin S50000x8.rank)
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  shapeCasts_S5000x128_S5000x128 : S5000x128.ShapeCasts S5000x128
  shapeCasts_S50000x128_S50000x8x16 : S50000x128.ShapeCasts S50000x8x16
  dot_S5000x128_S128x256_S5000x256_1_0_0_1_n_n_wf : DotDims.WF S5000x128 S128x256 S5000x256 [1] [0] [0] [1] [] []
  dot_S5000x128_S128x128_S5000x128_1_0_0_1_n_n_wf : DotDims.WF S5000x128 S128x128 S5000x128 [1] [0] [0] [1] [] []
  gather_S50000x256_S800000x1_S800000x256_1_0_n_n_0_1_1256_wf : GatherDims.WF S50000x256 S800000x1 S800000x256 [1] [0] [] [0] [] 1 ![1, 256]
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  dot_S4000x128_S128x8_S4000x8_1_0_0_1_n_n_wf : DotDims.WF S4000x128 S128x8 S4000x8 [1] [0] [0] [1] [] []
  dot_S4000x8_S8x128_S4000x128_1_0_0_1_n_n_wf : DotDims.WF S4000x8 S8x128 S4000x128 [1] [0] [0] [1] [] []
  scatter_S50000x128_S800000x1_S800000x128_1_0_0_1_wf : ScatterDims.WF S50000x128 S800000x1 S800000x128 [1] [0] [0] 1
  scatter_S50000x8_S800000x1_S800000x8_1_0_0_1_wf : ScatterDims.WF S50000x8 S800000x1 S800000x8 [1] [0] [0] 1
  dot_S5000x8_S8x128_S5000x128_1_0_0_1_n_n_wf : DotDims.WF S5000x8 S8x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S800000x256.size a
  hwx2_0 : ∀ i : grid2.Coords, EltTy.bits .f32 = 32 ∨ (Rect.block (s := S800000x256) S4000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S800000x128.size a
  hwx2_1 : ∀ i : grid2.Coords, EltTy.bits .f32 = 32 ∨ (Rect.block (s := S800000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S800000x128.size a
  hwx2_2 : ∀ i : grid2.Coords, EltTy.bits .f32 = 32 ∨ (Rect.block (s := S800000x128) S4000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x8.size a ≤ S128x8.size a
  hwx2_4 : ∀ i : grid2.Coords, EltTy.bits .f32 = 32 ∨ (Rect.block (s := S128x8) S128x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x128.size a ≤ S8x128.size a
  hwx2_5 : ∀ i : grid2.Coords, EltTy.bits .f32 = 32 ∨ (Rect.block (s := S8x128) S8x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S800000x128.size a
  hwx2_6 : ∀ i : grid2.Coords, EltTy.bits .f32 = 32 ∨ (Rect.block (s := S800000x128) S4000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x8.size a ≤ S800000x8.size a
  hwx2_7 : ∀ i : grid2.Coords, EltTy.bits .f32 = 32 ∨ (Rect.block (s := S800000x8) S4000x8.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x128.size a ≤ S800000x128.size a
  hwx2_8 : ∀ i : grid2.Coords, EltTy.bits .f32 = 32 ∨ (Rect.block (s := S800000x128) S4000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x8.size a ≤ S50000x8.size a
  hwx3_1 : ∀ i : grid3.Coords, EltTy.bits .f32 = 32 ∨ (Rect.block (s := S50000x8) S5000x8.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S8x128.size a ≤ S8x128.size a
  hwx3_2 : ∀ i : grid3.Coords, EltTy.bits .f32 = 32 ∨ (Rect.block (s := S8x128) S8x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x8_S4000x8_1_0_0_1_n_n : DotDims S4000x128 S128x8 S4000x8 where
  lhsContracting := [1]
  rhsContracting := [0]
  lhsNonContracting := [0]
  rhsNonContracting := [1]
  lhsBatch := []
  rhsBatch := []
  wf := dot_S4000x128_S128x8_S4000x8_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf
def dot_S5000x8_S8x128_S5000x128_1_0_0_1_n_n : DotDims S5000x8 S8x128 S5000x128 where
  lhsContracting := [1]
  rhsContracting := [0]
  lhsNonContracting := [0]
  rhsNonContracting := [1]
  lhsBatch := []
  rhsBatch := []
  wf := dot_S5000x8_S8x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S5000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_cst) S128x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_cst_0) S8x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v6_0) S4000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v6_1) S4000x8.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v6_2) S4000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v9) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x8.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_cst_0) S8x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v13) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S128x128 : Shape := ⟨2, ![128, 128]⟩
abbrev S800000 : Shape := ⟨1, ![800000]⟩
abbrev S50000x8x16 : Shape := ⟨3, ![50000, 8, 16]⟩
abbrev S800000x8x16 : Shape := ⟨3, ![800000, 8, 16]⟩
abbrev S_ : Shape := ⟨0, ![]⟩
abbrev S800000x1 : Shape := ⟨2, ![800000, 1]⟩
abbrev S800000x8 : Shape := ⟨2, ![800000, 8]⟩
abbrev S800000x8x1 : Shape := ⟨3, ![800000, 8, 1]⟩
abbrev S50000x8x1 : Shape := ⟨3, ![50000, 8, 1]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S50000x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S800000, .i32⟩
  | .hbm, ⟨8, _⟩ => ⟨S800000, .i32⟩
  | .hbm, ⟨9, _⟩ => ⟨S50000x128, .f32⟩
  | .hbm, ⟨10, _⟩ => ⟨S50000x8x16, .f32⟩
  | .hbm, ⟨11, _⟩ => ⟨S50000x128, .f32⟩
  | .hbm, ⟨12, _⟩ => ⟨S50000x8x16, .f32⟩
  | .hbm, ⟨13, _⟩ => ⟨S50000x128, .f32⟩
  | .hbm, ⟨14, _⟩ => ⟨S50000x8x16, .f32⟩
  | .hbm, ⟨15, _⟩ => ⟨S800000x128, .f32⟩
  | .hbm, ⟨16, _⟩ => ⟨S800000x8x16, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x8x16, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x8x16, .f32⟩
  | .hbm, ⟨35, _⟩ => ⟨S800000x8x16, .f32⟩
  | .hbm, ⟨36, _⟩ => ⟨S_, .f32⟩
  | .hbm, ⟨37, _⟩ => ⟨S800000x8x16, .f32⟩
  | .hbm, ⟨38, _⟩ => ⟨S800000x8x16, .f32⟩
  | .hbm, ⟨39, _⟩ => ⟨S800000x8x16, .f32⟩
  | .hbm, ⟨40, _⟩ => ⟨S_, .f32⟩
  | .hbm, ⟨41, _⟩ => ⟨S800000x8, .f32⟩
  | .hbm, ⟨42, _⟩ => ⟨S800000x8x1, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S800000x8x1, .f32⟩
  | .hbm, ⟨47, _⟩ => ⟨S800000x8x1, .f32⟩
  | .hbm, ⟨48, _⟩ => ⟨S_, .f32⟩
  | .hbm, ⟨49, _⟩ => ⟨S800000x8x1, .f32⟩
  | .hbm, ⟨50, _⟩ => ⟨S800000x8x1, .f32⟩
  | .hbm, ⟨51, _⟩ => ⟨S800000x8x1, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x8x16, .f32⟩
  | .hbm, ⟨61, _⟩ => ⟨S800000x8x16, .f32⟩
  | .hbm, ⟨62, _⟩ => ⟨S800000x8x16, .f32⟩
  | .hbm, ⟨63, _⟩ => ⟨S_, .f32⟩
  | .hbm, ⟨64, _⟩ => ⟨S50000x8x16, .f32⟩
  | .hbm, ⟨65, _⟩ => ⟨S800000x1, .i32⟩
  | .hbm, ⟨66, _⟩ => ⟨S50000x8x16, .f32⟩
  | .hbm, ⟨67, _⟩ => ⟨S_, .f32⟩
  | .hbm, ⟨68, _⟩ => ⟨S50000x8x1, .f32⟩
  | .hbm, ⟨69, _⟩ => ⟨S800000x1, .i32⟩
  | .hbm, ⟨70, _⟩ => ⟨S50000x8x1, .f32⟩
  | .hbm, ⟨71, _⟩ => ⟨S_, .f32⟩
  | .hbm, ⟨72, _⟩ => ⟨S50000x8x1, .f32⟩
  | .hbm, ⟨73, _⟩ => ⟨S50000x8x1, .f32⟩
  | .hbm, ⟨74, _⟩ => ⟨S50000x8x16, .f32⟩
  | .hbm, ⟨75, _⟩ => ⟨S50000x8x16, .f32⟩
  | .hbm, ⟨76, _⟩ => ⟨S800000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩

abbrev nD : Nat := 1
abbrev τ : Topo := Topo.v7x

variable {F : FTy → Type} [FloatOps F]

class Facts₀ : Prop where
  shapeCasts_S50000x128_S50000x8x16 : S50000x128.ShapeCasts S50000x8x16
  shapeCasts_S800000x128_S800000x8x16 : S800000x128.ShapeCasts S800000x8x16
  bcast_S_S800000 : S_.BroadcastsInDim S800000 (![] : Fin 0 → Fin S800000.rank)
  bcast_S800000_S800000x1_0 : S800000.BroadcastsInDim S800000x1 (![0] : Fin 1 → Fin S800000x1.rank)
  bcast_S_S800000x8x16 : S_.BroadcastsInDim S800000x8x16 (![] : Fin 0 → Fin S800000x8x16.rank)
  reducesTo_S800000x8x16_S800000x8_d2 : S800000x8x16.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S800000x8x16_S800000x128 : S800000x8x16.ShapeCasts S800000x128
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1
  scatter_S50000x8x1_S800000x1_S800000x8x1_12_0_0_1_wf : ScatterDims.WF S50000x8x1 S800000x1 S800000x8x1 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf

class Facts : Prop extends Facts₀ where

variable [Facts]
-- ==== Proof.Spec.lean ====
/-
  The attention aggregation both programs compute, as one function of the argument arrays over the extended reals.

  Nodes n < 50000 carry feature rows h[n] and h_in[n] of length 128; edges e < 800000 carry a feature row e[e], a source
  node and a destination node.  Put q = h·Wq, k = h·Wk, v = h_in·Wv and p = e·We, every entry a sum of 128 products.  The
  128 feature columns fall into 8 heads of 16 consecutive columns.  Per edge and column the score is
  ((k[src e] · q[dst e]) · 1/4) · p[e]; per edge and head the 16 scores of the head are summed, the sum is clipped to
  [-5, 5] and exponentiated: the edge's weight for that head.  The edge's message is v[src e] times the weight of the
  column's head.  Messages and weights are summed over the edges that share a destination node, and the first result
  divides a node's summed message by its summed weight plus a small constant.  The second result is p itself.
-/
import Idealize.ShloMosaic.PureOps.Ideal
import Idealize.ShloMosaic.Lib.ValueIdx

noncomputable section

open scoped BigOperators

namespace Cert.Spec

open Idealize.ShloMosaic Idealize.ShloMosaic.ValueIdx

/-- Column 16·h + d: the d-th column of head h. -/
def col (h : Fin 8) (d : Fin 16) : Fin 128 := ⟨16 * h.val + d.val, by omega⟩

/-- The head a column belongs to. -/
def head (j : Fin 128) : Fin 8 := ⟨j.val / 16, by omega⟩

theorem head_col (h : Fin 8) (d : Fin 16) : head (col h d) = h := by
  apply Fin.ext; show (16 * h.val + d.val) / 16 = h.val; omega

/-- Entry (r, j) of the product of an R × 128 matrix with a 128 × 128 matrix. -/
def proj {R : ℕ} (x : FVec Ideal ⟨2, ![R, 128]⟩ .f32) (w : FVec Ideal ⟨2, ![128, 128]⟩ .f32) (r : Fin R) (j : Fin 128) : EReal :=
  ∑ t : Fin 128, x (ix2 r t) * w (ix2 t j)

/-- The node an index entry names: the entry read signed and clamped into the node range. -/
def node (s : IVec ⟨1, ![800000]⟩ 32) (e : Fin 800000) : Fin 50000 :=
  ⟨min (s (ix1 e)).toInt.toNat 49999, by omega⟩

/-- The edges whose destination entry, read signed, is node n. -/
def lands (dst : IVec ⟨1, ![800000]⟩ 32) (n : Fin 50000) : Finset (Fin 800000) :=
  Finset.univ.filter fun e => (dst (ix1 e)).toInt = (n.val : ℤ)

/-- The scale 1/4 of a score, the two clipping bounds -5 and 5, and the constant added to a summed weight. -/
def quarter : EReal := Ideal.ofBits .f32 0x3E800000#32
def lo : EReal := Ideal.ofBits .f32 0xC0A00000#32
def hi : EReal := Ideal.ofBits .f32 0x40A00000#32
def eps : EReal := Ideal.ofBits .f32 0x358637BD#32

section

variable (hN hIn : FVec Ideal ⟨2, ![50000, 128]⟩ .f32) (eF : FVec Ideal ⟨2, ![800000, 128]⟩ .f32)
  (Wq Wk Wv We : FVec Ideal ⟨2, ![128, 128]⟩ .f32) (src dst : IVec ⟨1, ![800000]⟩ 32)

/-- An edge's score in one column. -/
def score (e : Fin 800000) (j : Fin 128) : EReal :=
  ((proj hN Wk (node src e) j * proj hN Wq (node dst e) j) * quarter) * proj eF We e j

/-- An edge's weight for one head. -/
def weight (e : Fin 800000) (h : Fin 8) : EReal :=
  Ideal.exp (min hi (max lo (∑ d : Fin 16, score hN eF Wq Wk We src dst e (col h d))))

/-- An edge's message in one column. -/
def msg (e : Fin 800000) (j : Fin 128) : EReal :=
  proj hIn Wv (node src e) j * weight hN eF Wq Wk We src dst e (head j)

/-- A node's summed message in one column, and its summed weight for one head. -/
def aggMsg (n : Fin 50000) (j : Fin 128) : EReal := ∑ e ∈ lands dst n, msg hN hIn eF Wq Wk Wv We src dst e j
def aggWeight (n : Fin 50000) (h : Fin 8) : EReal := ∑ e ∈ lands dst n, weight hN eF Wq Wk We src dst e h

/-- The first result, by node, head and column of the head. -/
def hOut : FVec Ideal ⟨3, ![50000, 8, 16]⟩ .f32 := fun i =>
  Ideal.div (aggMsg hN hIn eF Wq Wk Wv We src dst (i 0) (col (i 1) (i 2))) (aggWeight hN eF Wq Wk We src dst (i 0) (i 1) + eps)

/-- The second result: the edge features projected. -/
def eOut : FVec Ideal ⟨2, ![800000, 128]⟩ .f32 := fun i => proj eF We (i 0) (i 1)

end

end Cert.Spec

end
-- ==== Proof.PreDecode.lean ====
/-
  The index vectors of an admitted input lie in the node range, and what that range gives: the wrap of a negative
  index is the identity, the out-of-range mask of a take is all ones, and the clamp into the node range is the identity.
-/
import proofs.«409143_j74148315398272_3_alg».proof.Pre_finite_inputs
import proofs.«409143_j74148315398272_3_alg».proof.Proof.Spec
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx Idealize.ShloMosaic.StableHlo.Predicate

/-- The scalar shape has one index. -/
instance : Subsingleton Cert.Pre_finite_inputs.S_.Idx := ⟨fun a b => funext fun d => d.elim0⟩

/-! ## Signed comparisons of 32-bit words, read as comparisons of their signed values -/

theorem cmpi_sge_iff (a b : BitVec 32) : IntOp.cmpi .sge a b = 1#1 ↔ b.toInt ≤ a.toInt := by
  simp only [IntOp.cmpi, BitVec.sle, ofBool_eq_one_iff, decide_eq_true_eq]

theorem cmpi_sle_iff (a b : BitVec 32) : IntOp.cmpi .sle a b = 1#1 ↔ a.toInt ≤ b.toInt := by
  simp only [IntOp.cmpi, BitVec.sle, ofBool_eq_one_iff, decide_eq_true_eq]

theorem cmpi_slt_iff (a b : BitVec 32) : IntOp.cmpi .slt a b = 1#1 ↔ a.toInt < b.toInt := by
  simp only [IntOp.cmpi, BitVec.slt, ofBool_eq_one_iff, decide_eq_true_eq]

theorem toInt_zero : (0#32 : BitVec 32).toInt = 0 := by decide
theorem toInt_50000 : (50000#32 : BitVec 32).toInt = 50000 := by decide
theorem toInt_49999 : (49999#32 : BitVec 32).toInt = 49999 := by decide

/-- One entry of an index vector passes the printed range test exactly when its signed value is in [0, 50000). -/
theorem range_bit (w : BitVec 32) (h : IntOp.andi (IntOp.cmpi .sge w 0#32) (IntOp.cmpi .slt w 50000#32) = 1#1) :
    0 ≤ w.toInt ∧ w.toInt < 50000 := by
  obtain ⟨hge, hlt⟩ := IntOp.andi_eq_one.1 h
  rw [cmpi_sge_iff, toInt_zero] at hge
  rw [cmpi_slt_iff, toInt_50000] at hlt
  exact ⟨hge, hlt⟩

/-- A left fold by `and` from 1 over 1s is 1. -/
theorem foldl_andi_of_all {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_of_all f l fun n hn => h n (List.mem_cons_of_mem _ hn)

/-! ## The precondition's last two conjuncts -/

/-- The tail of the printed precondition: if it is 1, both range tests, reduced by `and`, are 1. -/
theorem part2_split [Cert.Pre_finite_inputs.Facts] (src dst : IVec ⟨1, ![800000]⟩ 32) (v33 : IVec ⟨0, ![]⟩ 1)
    (h : Cert.Pre_finite_inputs.fn_part2 (F := Ideal) src dst v33 ix0 = 1#1) :
    (∀ e : Fin 800000, 0 ≤ (src (ix1 e)).toInt ∧ (src (ix1 e)).toInt < 50000)
      ∧ (∀ e : Fin 800000, 0 ≤ (dst (ix1 e)).toInt ∧ (dst (ix1 e)).toInt < 50000) := by
  unfold Cert.Pre_finite_inputs.fn_part2 at h
  dsimp only at h
  obtain ⟨h40, h46⟩ := IntOp.andi_eq_one.1 h
  obtain ⟨_, h39⟩ := IntOp.andi_eq_one.1 h40
  exact ⟨fun e => range_bit _ (Host.reduce_andi_all _ _ _ _ _ h39 (ix1 e)),
    fun e => range_bit _ (Host.reduce_andi_all _ _ _ _ _ h46 (ix1 e))⟩

/-- An admitted input's two index vectors hold node numbers: every entry, read signed, is in [0, 50000). -/
theorem ranges_of_pre [Cert.Pre_finite_inputs.Facts] (a0 : FVec Ideal ⟨2, ![50000,128]⟩ .f32) (a1 : FVec Ideal ⟨2, ![800000,128]⟩ .f32)
    (a2 : FVec Ideal ⟨2, ![50000,128]⟩ .f32) (a3 a4 a5 a6 : FVec Ideal ⟨2, ![128,128]⟩ .f32) (src dst : IVec ⟨1, ![800000]⟩ 32)
    (h : Cert.Pre_finite_inputs.fn (F := Ideal) a0 a1 a2 a3 a4 a5 a6 src dst = fun _ => 1#1) :
    (∀ e : Fin 800000, 0 ≤ (src (ix1 e)).toInt ∧ (src (ix1 e)).toInt < 50000)
      ∧ (∀ e : Fin 800000, 0 ≤ (dst (ix1 e)).toInt ∧ (dst (ix1 e)).toInt < 50000) := by
  have h' := congrFun h ix0
  unfold Cert.Pre_finite_inputs.fn Cert.Pre_finite_inputs.fn_part1 at h'
  exact part2_split src dst _ h'

/-! ## In range, the wrap, the mask and the clamp do nothing -/

/-- The wrap of a negative index (add the node count where the entry is negative) keeps a non-negative entry. -/
theorem wrap_apply (hb : (⟨0, ![]⟩ : Shape).BroadcastsInDim ⟨1, ![800000]⟩ ![]) (s : IVec ⟨1, ![800000]⟩ 32) (e : Fin 800000)
    (h0 : 0 ≤ (s (ix1 e)).toInt) :
    select (cmpi .slt s (broadcastInDim ⟨1, ![800000]⟩ ![] hb (constantI ⟨0, ![]⟩ 32 0#32)))
      (addi s (broadcastInDim ⟨1, ![800000]⟩ ![] hb (constantI ⟨0, ![]⟩ 32 50000#32))) s (ix1 e) = s (ix1 e) := by
  have hc : IntOp.cmpi .slt (s (ix1 e)) 0#32 = 0#1 :=
    eq_zero_of_ne_one fun h1 => by rw [cmpi_slt_iff, toInt_zero] at h1; omega
  show Scalar.select (IntOp.cmpi .slt (s (ix1 e)) 0#32) _ _ = _
  rw [hc, select_zero]

/-- The take's out-of-range mask (0 ≤ entry ≤ 49999, reduced along the column's one-entry axis) is 1 at an entry in range. -/
theorem mask_apply (h1 : (⟨0, ![]⟩ : Shape).BroadcastsInDim ⟨2, ![800000, 1]⟩ ![])
    (h2 : (⟨1, ![1]⟩ : Shape).BroadcastsInDim ⟨2, ![1, 1]⟩ ![1])
    (h3 : (⟨2, ![1, 1]⟩ : Shape).BroadcastsInDim ⟨2, ![800000, 1]⟩ ![0, 1])
    (hred : (⟨2, ![800000, 1]⟩ : Shape).ReducesTo [1] ⟨1, ![800000]⟩) (hpos : 0 < (⟨0, ![]⟩ : Shape).numel)
    (col : IVec ⟨2, ![800000, 1]⟩ 32) (e : Fin 800000)
    (h0 : 0 ≤ (col (ixP e)).toInt) (hlt : (col (ixP e)).toInt < 50000) :
    Host.reduce IntOp.andi
      (andi (cmpi .sge col (broadcastInDim ⟨2, ![800000, 1]⟩ ![] h1 (constantI ⟨0, ![]⟩ 32 0#32)))
        (cmpi .sle col (broadcastInDim ⟨2, ![800000, 1]⟩ ![0, 1] h3
          (broadcastInDim ⟨2, ![1, 1]⟩ ![1] h2 (constantI ⟨1, ![1]⟩ 32 49999#32)))))
      (constantI ⟨0, ![]⟩ 1 1#1) hred hpos (ix1 e) = 1#1 := by
  rw [Host.reduce_eq_foldl]
  refine foldl_andi_of_all _ _ fun i hi => ?_
  -- the only index of the column that drops to e is (e, 0)
  have hd : hred.drop i = ix1 e := by simpa using (List.mem_filter.1 hi).2
  have hi0 : i 0 = e := Fin.ext (by rw [← hred.drop_apply_val_of_eq i 0 0, hd])
  have hi' : i = ixP e := by
    funext b
    match b with
    | ⟨0, _⟩ => exact hi0
    | ⟨1, _⟩ => exact Subsingleton.elim (α := Fin 1) _ _
  subst hi'
  show IntOp.andi (IntOp.cmpi .sge (col (ixP e)) 0#32) (IntOp.cmpi .sle (col (ixP e)) 49999#32) = 1#1
  rw [(cmpi_sge_iff _ _).2 (by rw [toInt_zero]; exact h0), (cmpi_sle_iff _ _).2 (by rw [toInt_49999]; omega)]
  decide

/-- The clamp into the node range keeps an entry in range: the node an entry names is the entry. -/
theorem node_val (s : IVec ⟨1, ![800000]⟩ 32) (e : Fin 800000) (h0 : 0 ≤ (s (ix1 e)).toInt) (h1 : (s (ix1 e)).toInt < 50000) :
    ((Cert.Spec.node s e).val : ℤ) = (s (ix1 e)).toInt := by
  show ((min (s (ix1 e)).toInt.toNat 49999 : ℕ) : ℤ) = (s (ix1 e)).toInt
  omega

end Cert.PreDecode

end
-- ==== Proof.KCarry.lean ====
/-
  Buffers that a later segment of the kernel program reads, followed back through the segments that leave them alone: a
  stretch of host operations leaves a buffer none of its operations writes as it found it, a region leaves every buffer
  that is not one of its arrays as it found it, and it leaves an array it only reads as it found it.
-/
import proofs.«409143_j74148315398272_3_alg».proof.Proof.Gen.KernelIdeal.Frame

set_option maxRecDepth 16384

noncomputable section

namespace Cert.KernelIdeal.Carry

open Idealize.ShloMosaic Idealize.ShloMosaic.TcCoe Idealize.SL.Sem
open Cert.KernelIdeal Cert.KernelIdeal.Gen

/-- None of the named stretch's operations writes the buffer of the goal. -/
macro "host_keep " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable {F : FTy → Type} [FloatOps F]
variable (m : (ℓ : Loc nD τ sig) → Buf (Elt F) ℓ) (ρ : Dev nD → PrngReg) (c : Dev nD)

/-! ## Through the first stretch: the arguments -/

theorem W1_arg0 : W1 m ρ c (Proc.devRef .tc main_arg0) = m ((c : Thread nD τ).loc main_arg0) :=
  (show W1 m ρ c (Proc.devRef .tc main_arg0) = W0 m ρ c (Proc.devRef .tc main_arg0) by host_keep hostOps0).trans rfl
theorem W1_arg1 : W1 m ρ c (Proc.devRef .tc main_arg1) = m ((c : Thread nD τ).loc main_arg1) :=
  (show W1 m ρ c (Proc.devRef .tc main_arg1) = W0 m ρ c (Proc.devRef .tc main_arg1) by host_keep hostOps0).trans rfl
theorem W1_arg2 : W1 m ρ c (Proc.devRef .tc main_arg2) = m ((c : Thread nD τ).loc main_arg2) :=
  (show W1 m ρ c (Proc.devRef .tc main_arg2) = W0 m ρ c (Proc.devRef .tc main_arg2) by host_keep hostOps0).trans rfl
theorem W1_arg5 : W1 m ρ c (Proc.devRef .tc main_arg5) = m ((c : Thread nD τ).loc main_arg5) :=
  (show W1 m ρ c (Proc.devRef .tc main_arg5) = W0 m ρ c (Proc.devRef .tc main_arg5) by host_keep hostOps0).trans rfl
theorem W1_arg6 : W1 m ρ c (Proc.devRef .tc main_arg6) = m ((c : Thread nD τ).loc main_arg6) :=
  (show W1 m ρ c (Proc.devRef .tc main_arg6) = W0 m ρ c (Proc.devRef .tc main_arg6) by host_keep hostOps0).trans rfl
theorem W1_arg7 : W1 m ρ c (Proc.devRef .tc main_arg7) = m ((c : Thread nD τ).loc main_arg7) :=
  (show W1 m ρ c (Proc.devRef .tc main_arg7) = W0 m ρ c (Proc.devRef .tc main_arg7) by host_keep hostOps0).trans rfl
theorem W1_arg8 : W1 m ρ c (Proc.devRef .tc main_arg8) = m ((c : Thread nD τ).loc main_arg8) :=
  (show W1 m ρ c (Proc.devRef .tc main_arg8) = W0 m ρ c (Proc.devRef .tc main_arg8) by host_keep hostOps0).trans rfl

/-! ## What the second region finds of the arguments -/

theorem W2_arg2 : W2 m ρ c (Proc.devRef .tc main_arg2) = m ((c : Thread nD τ).loc main_arg2) :=
  (W2_of_ne m ρ c main_arg2 (by decide)).trans (W1_arg2 m ρ c)
theorem W2_arg5 : W2 m ρ c (Proc.devRef .tc main_arg5) = m ((c : Thread nD τ).loc main_arg5) :=
  (W2_of_ne m ρ c main_arg5 (by decide)).trans (W1_arg5 m ρ c)

/-! ## An argument or a table followed to the third region's entry -/

/-- A buffer that neither of the first two regions has among its arrays and that none of the three stretches before the
    third region writes is, at the third region's entry, what the first stretch left. -/
theorem W6_of (b : Ref sig .tc) (h0 : ∀ w, Pipeline.arrRef spec0 w ≠ b) (h1 : ∀ w, Pipeline.arrRef spec1 w ≠ b)
    (k2 : W4 m ρ c (Proc.devRef .tc b) = W3 m ρ c (Proc.devRef .tc b))
    (k21 : W5 m ρ c (Proc.devRef .tc b) = W4 m ρ c (Proc.devRef .tc b))
    (k22 : W6 m ρ c (Proc.devRef .tc b) = W5 m ρ c (Proc.devRef .tc b)) :
    W6 m ρ c (Proc.devRef .tc b) = W1 m ρ c (Proc.devRef .tc b) :=
  k22.trans (k21.trans (k2.trans ((W3_of_ne m ρ c b h1).trans (W2_of_ne m ρ c b h0))))

theorem W6_arg1 : W6 m ρ c (Proc.devRef .tc main_arg1) = m ((c : Thread nD τ).loc main_arg1) :=
  (W6_of m ρ c main_arg1 (by decide) (by decide) (by host_keep hostOps2) (by host_keep hostOps2_1) (by host_keep hostOps2_2)).trans (W1_arg1 m ρ c)
theorem W6_arg6 : W6 m ρ c (Proc.devRef .tc main_arg6) = m ((c : Thread nD τ).loc main_arg6) :=
  (W6_of m ρ c main_arg6 (by decide) (by decide) (by host_keep hostOps2) (by host_keep hostOps2_1) (by host_keep hostOps2_2)).trans (W1_arg6 m ρ c)
theorem W6_cst : W6 m ρ c (Proc.devRef .tc main_cst) = W1 m ρ c (Proc.devRef .tc main_cst) :=
  W6_of m ρ c main_cst (by decide) (by decide) (by host_keep hostOps2) (by host_keep hostOps2_1) (by host_keep hostOps2_2)
theorem W6_cst_0 : W6 m ρ c (Proc.devRef .tc main_cst_0) = W1 m ρ c (Proc.devRef .tc main_cst_0) :=
  W6_of m ρ c main_cst_0 (by decide) (by decide) (by host_keep hostOps2) (by host_keep hostOps2_1) (by host_keep hostOps2_2)

/-! ## The two index vectors where the takes and the scatters read them -/

theorem W4_arg7 : W4 m ρ c (Proc.devRef .tc main_arg7) = m ((c : Thread nD τ).loc main_arg7) :=
  (show W4 m ρ c (Proc.devRef .tc main_arg7) = W3 m ρ c (Proc.devRef .tc main_arg7) by host_keep hostOps2).trans
    ((W3_of_ne m ρ c main_arg7 (by decide)).trans ((W2_of_ne m ρ c main_arg7 (by decide)).trans (W1_arg7 m ρ c)))
theorem W5_arg8 : W5 m ρ c (Proc.devRef .tc main_arg8) = m ((c : Thread nD τ).loc main_arg8) :=
  (show W5 m ρ c (Proc.devRef .tc main_arg8) = W4 m ρ c (Proc.devRef .tc main_arg8) by host_keep hostOps2_1).trans
    ((show W4 m ρ c (Proc.devRef .tc main_arg8) = W3 m ρ c (Proc.devRef .tc main_arg8) by host_keep hostOps2).trans
      ((W3_of_ne m ρ c main_arg8 (by decide)).trans ((W2_of_ne m ρ c main_arg8 (by decide)).trans (W1_arg8 m ρ c))))
theorem W7_arg8 : W7 m ρ c (Proc.devRef .tc main_arg8) = m ((c : Thread nD τ).loc main_arg8) :=
  (W7_of_ne m ρ c main_arg8 (by decide)).trans
    ((show W6 m ρ c (Proc.devRef .tc main_arg8) = W5 m ρ c (Proc.devRef .tc main_arg8) by host_keep hostOps2_2).trans (W5_arg8 m ρ c))

/-! ## The projections where the concatenation and the takes read them -/

theorem W3_v1_1 : W3 m ρ c (Proc.devRef .tc main_v1_1) = W2 m ρ c (Proc.devRef .tc main_v1_1) :=
  W3_of_ne m ρ c main_v1_1 (by decide)
theorem W5_v1_0 : W5 m ρ c (Proc.devRef .tc main_v1_0) = W2 m ρ c (Proc.devRef .tc main_v1_0) :=
  (show W5 m ρ c (Proc.devRef .tc main_v1_0) = W4 m ρ c (Proc.devRef .tc main_v1_0) by host_keep hostOps2_1).trans
    ((show W4 m ρ c (Proc.devRef .tc main_v1_0) = W3 m ρ c (Proc.devRef .tc main_v1_0) by host_keep hostOps2).trans
      (W3_of_ne m ρ c main_v1_0 (by decide)))
theorem W6_v4 : W6 m ρ c (Proc.devRef .tc main_v4) = W5 m ρ c (Proc.devRef .tc main_v4) := by host_keep hostOps2_2

/-! ## After the third region -/

/-- The second selector table is an array the third region only reads. -/
theorem W7_cst_0 : W7 m ρ c (Proc.devRef .tc main_cst_0) = W6 m ρ c (Proc.devRef .tc main_cst_0) :=
  (W7_arr m ρ c 5).trans (((dat2 (V6 m ρ) c).arrAt_in 5 rfl _).trans (A_eq2 (V6 m ρ) c 5))
theorem W8_cst_0 : W8 m ρ c (Proc.devRef .tc main_cst_0) = W1 m ρ c (Proc.devRef .tc main_cst_0) :=
  (show W8 m ρ c (Proc.devRef .tc main_cst_0) = W7 m ρ c (Proc.devRef .tc main_cst_0) by host_keep hostOps3).trans
    ((W7_cst_0 m ρ c).trans (W6_cst_0 m ρ c))
/-- The second result is written by the third region and by nothing after it. -/
theorem W10_v6_2 : W10 m ρ c (Proc.devRef .tc main_v6_2) = W7 m ρ c (Proc.devRef .tc main_v6_2) :=
  (show W10 m ρ c (Proc.devRef .tc main_v6_2) = W9 m ρ c (Proc.devRef .tc main_v6_2) by host_keep hostOps4).trans
    ((W9_of_ne m ρ c main_v6_2 (by decide)).trans
      (show W8 m ρ c (Proc.devRef .tc main_v6_2) = W7 m ρ c (Proc.devRef .tc main_v6_2) by host_keep hostOps3))

end Cert.KernelIdeal.Carry

end
-- ==== Proof.KRegion01.lean ====
/-
  Regions 0 and 1 of the kernel program are tiled matrix products.  The node range 0..49999 is cut into 10 blocks of
  5000 rows.  At a block, region 0 multiplies the block's 5000 rows of h by the 128 x 256 matrix [Wq | Wk] and stores
  the left 128 columns of the product to q's block and the right 128 columns to k's block; region 1 multiplies the
  block's rows of h_in by Wv and stores the product to v's block.  Row r lies in block r / 5000, every block is written
  back, so after the region each output array holds, entry by entry, the 128-term sum of products of the row of the
  left factor with the column of the right factor.
-/
import proofs.«409143_j74148315398272_3_alg».proof.Proof.Gen.KernelIdeal.Frame
import proofs.«409143_j74148315398272_3_alg».proof.Proof.Spec
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Val01

open Idealize.ShloMosaic Idealize.ShloMosaic.TcCoe Idealize.ShloMosaic.ValueIdx
open Idealize.SL Idealize.SL.Sem
open Idealize.ShloMosaic.Pipeline (Dat Cfg Window)

/-- Entry (r, j) of the product of an R × 128 matrix with the LEFT 128 columns of a 128 × 256 matrix: column j. -/
def projLeft {R : ℕ} (x : FVec Ideal ⟨2, ![R, 128]⟩ .f32) (w : FVec Ideal ⟨2, ![128, 256]⟩ .f32) (r : Fin R) (j : Fin 128) : EReal :=
  ∑ t : Fin 128, x (ix2 r t) * w (ix2 t (⟨j.val, by omega⟩ : Fin 256))

/-- Entry (r, j) of the product of an R × 128 matrix with the RIGHT 128 columns of a 128 × 256 matrix: column 128 + j. -/
def projRight {R : ℕ} (x : FVec Ideal ⟨2, ![R, 128]⟩ .f32) (w : FVec Ideal ⟨2, ![128, 256]⟩ .f32) (r : Fin R) (j : Fin 128) : EReal :=
  ∑ t : Fin 128, x (ix2 r t) * w (ix2 t (⟨128 + j.val, by omega⟩ : Fin 256))

/-- The zero offsets of a whole-block access, spelt as a constant function. -/
theorem hz : (![0, 0] : Fin 2 → Nat) = fun _ => 0 := funext fun a => by fin_cases a <;> rfl

/-! ## Region 1: v = h_in · Wv -/

/-! The matrix product of region 1 contracts axis 1 of its left factor with axis 0 of its right factor: at output index
    (p, q) and contraction index k the left factor is read at (p, k) and the right factor at (k, q). -/

theorem lhs1_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs1_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs1_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's product at entry (p, q) of the block: the 128-term sum of row p of the left block times column q of the
    right matrix (the accumulator the product starts from is zero). -/
theorem pay1_apply (x0 : Vec Ideal S5000x128 .f32) (x1 : Vec Ideal S128x128 .f32) (p : Fin 5000) (q : Fin 128) :
    Gen.k1_pay1 (F := Ideal) x0 x1 (ix2 p q) = ∑ k : Fin 128, x0 (ix2 p k) * x1 (ix2 k q) := by
  unfold Gen.k1_pay1
  refine (Ideal.matmul_constant_zero_apply dot_S5000x128_S128x128_S5000x128_1_0_0_1_n_n none x0 x1 (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs1_0 _ _
    | ⟨1, _⟩ => exact (lhs1_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs1_0 _ _).trans hk
    | ⟨1, _⟩ => exact rhs1_1 _ _)
  rw [el, er]

/-- The index maps of region 1, decided over its 10 points: at point t the left factor's window and the output's
    window are at row block t, column block 0; the right factor's window is the whole matrix. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An entry of the body's product, block against array: if row (y 0) of the left block is row (i 0) of the array A
    and column (y 1) of the right block is column (i 1) of the matrix B, the block's entry y is entry i of A · B. -/
theorem block1_entry (x0 : Vec Ideal S5000x128 .f32) (x1 : Vec Ideal S128x128 .f32)
    (A : FVec Ideal S50000x128 .f32) (B : FVec Ideal S128x128 .f32) (y : S5000x128.Idx) (i : S50000x128.Idx)
    (h0 : ∀ k : Fin 128, x0 (ix2 (y 0) k) = A (ix2 (i 0) k))
    (h1 : ∀ k : Fin 128, x1 (ix2 k (y 1)) = B (ix2 k (i 1))) :
    Gen.k1_pay1 (F := Ideal) x0 x1 y = Cert.Spec.proj A B (i 0) (i 1) := by
  obtain ⟨p, q, rfl⟩ : ∃ (p : Fin 5000) (q : Fin 128), y = ix2 p q := ⟨y 0, y 1, eq_ix2 y⟩
  rw [pay1_apply]
  unfold Cert.Spec.proj
  exact Finset.sum_congr rfl fun k _ => congrArg₂ (· * ·) (h0 k) (h1 k)

variable (V : (c : Dev nD) → (b : Ref sig .tc) → Buf (Elt Ideal) ((c : Thread nD τ).loc b))

/-- What region 1 leaves in v, as one function of the arrays it found. -/
abbrev G1 (c : Dev nD) : S50000x128.Idx → EReal :=
  fun i => Cert.Spec.proj (V c main_arg2) (V c main_arg5) (i 0) (i 1)

/-- What point t writes back to v is block t of h_in · Wv: entry (p, q) of the block is the product's entry
    (5000 t + p, q), whose row of h_in is row p of the left window's block and whose column of Wv is column q of the
    right window's (whole) block. -/
theorem flushed1_eq (c : Dev nD) (t : Fin cfg1.N) :
    (Gen.dat1 (F := Ideal) V c).flushed 2 t = ((cfg1.win 2).blk t).view.read (Elt Ideal) (G1 V c) := by
  show (cfg1.win 2).cut (grid1.coords t) ((Gen.dat1 (F := Ideal) V c).after 2 t) = _
  rw [Gen.after1_2]
  unfold Gen.out1_2
  rw [View.canon_unit_zero hz]
  simp only [View.ld_unit_zero (S := S5000x128) hz, View.ld_unit_zero (S := S128x128) hz]
  obtain ⟨e0, e1, e2, e3, e4, e5⟩ := idx_facts1 t
  funext j
  refine block1_entry (Gen.iblk1 V c 0 t) (Gen.iblk1 V c 1 t) (V c main_arg2) (V c main_arg5) j
    (((cfg1.win 2).blk t).view.emb j) (fun k => ?_) (fun k => ?_)
  · show V c main_arg2 (((cfg1.win 0).blk t).view.emb (ix2 (j 0) k))
      = V c main_arg2 (ix2 ((((cfg1.win 2).blk t).view.emb j) 0) k)
    refine congrArg (V c main_arg2) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c main_arg5 (((cfg1.win 1).blk t).view.emb (ix2 k (j 1)))
      = V c main_arg5 (ix2 k ((((cfg1.win 2).blk t).view.emb j) 1))
    refine congrArg (V c main_arg5) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

/-- An index of v lies in point t's block iff on each axis its coordinate lies in the block's range. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v2).slice (win1_2.rect t)).set ↔ _
  rw [View.set_slice_whole, Rect.mem_set_unit]
  exact Iff.rfl

/-- Every entry of v is written back: row r lies in the block of point r / 5000, which is below 10 since r < 50000,
    and every point writes its block back. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := Gen.N_1
  obtain ⟨t, ht⟩ : ∃ t : Fin cfg1.N, t.val = (i 0).val / 5000 := ⟨⟨(i 0).val / 5000, by rw [hN]; omega⟩, rfl⟩
  obtain ⟨e0, e1, e2, e3, e4, e5⟩ := idx_facts1 t
  refine ⟨t, Gen.flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- After region 1 the array v holds h_in · Wv. -/
theorem final1_2 (c : Dev nD) :
    (Gen.dat1 (F := Ideal) V c).arrAt 2 cfg1.N
      = fun i => Cert.Spec.proj (V c main_arg2) (V c main_arg5) (i 0) (i 1) :=
  (Gen.dat1 (F := Ideal) V c).arrAt_eq_of_cover 2 (G1 V c) (fun t _ => flushed1_eq V c t) cover1

/-! ## Region 0: q = h · (left half of [Wq | Wk]), k = h · (right half) -/

/-! The matrix product of region 0, [5000,128] · [128,256], contracts axis 1 of its left factor with axis 0 of its right
    factor, like region 1's. -/

theorem lhs0_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs0_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs0_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs0_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The body's 256-column product at entry (p, q): the 128-term sum of row p of the left block times column q of the
    128 × 256 matrix (the shape cast of the matrix to its own shape changes nothing, the accumulator is zero). -/
theorem pay01_apply (x0 : Vec Ideal S5000x128 .f32) (x1 : Vec Ideal S128x256 .f32) (p : Fin 5000) (q : Fin 256) :
    Gen.k0_pay1 (F := Ideal) x0 x1 (ix2 p q) = ∑ k : Fin 128, x0 (ix2 p k) * x1 (ix2 k q) := by
  unfold Gen.k0_pay1
  refine (Ideal.matmul_constant_zero_apply dot_S5000x128_S128x256_S5000x256_1_0_0_1_n_n none x0
    (shapeCast S128x256 x1 Gen.shapeCasts_S128x256_S128x256) (ix2 p q)).trans ?_
  rw [shapeCast_self, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun a => Fin.ext (by
    match a with
    | ⟨0, _⟩ => exact lhs0_0 _ _
    | ⟨1, _⟩ => exact (lhs0_1 _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun a => Fin.ext (by
    match a with
    | ⟨0, _⟩ => exact (rhs0_0 _ _).trans hk
    | ⟨1, _⟩ => exact rhs0_1 _ _)
  rw [el, er]

/-- The slice stored to q's block is columns 0..127 of the product: its entry (p, q) is the product's entry (p, q). -/
theorem pay02_apply (x0 : Vec Ideal S5000x128 .f32) (x1 : Vec Ideal S128x256 .f32) (p : Fin 5000) (q : Fin 128) :
    Gen.k0_pay2 (F := Ideal) x0 x1 (ix2 p q) = ∑ k : Fin 128, x0 (ix2 p k) * x1 (ix2 k (⟨q.val, by omega⟩ : Fin 256)) := by
  have hs : Gen.k0_pay2 (F := Ideal) x0 x1 (ix2 p q) = Gen.k0_pay1 (F := Ideal) x0 x1 (ix2 p (⟨q.val, by omega⟩ : Fin 256)) := by
    unfold Gen.k0_pay2 extractStridedSlice
    refine congrArg (Gen.k0_pay1 (F := Ideal) x0 x1) (funext fun a => Fin.ext ?_)
    match a with
    | ⟨0, _⟩ => show 0 + p.val = p.val; omega
    | ⟨1, _⟩ => show 0 + q.val = q.val; omega
  exact hs.trans (pay01_apply x0 x1 p _)

/-- The slice stored to k's block is columns 128..255 of the product: its entry (p, q) is the product's entry
    (p, 128 + q). -/
theorem pay03_apply (x0 : Vec Ideal S5000x128 .f32) (x1 : Vec Ideal S128x256 .f32) (p : Fin 5000) (q : Fin 128) :
    Gen.k0_pay3 (F := Ideal) x0 x1 (ix2 p q) = ∑ k : Fin 128, x0 (ix2 p k) * x1 (ix2 k (⟨128 + q.val, by omega⟩ : Fin 256)) := by
  have hs : Gen.k0_pay3 (F := Ideal) x0 x1 (ix2 p q) = Gen.k0_pay1 (F := Ideal) x0 x1 (ix2 p (⟨128 + q.val, by omega⟩ : Fin 256)) := by
    unfold Gen.k0_pay3 extractStridedSlice
    refine congrArg (Gen.k0_pay1 (F := Ideal) x0 x1) (funext fun a => Fin.ext ?_)
    match a with
    | ⟨0, _⟩ => show 0 + p.val = p.val; omega
    | ⟨1, _⟩ => show 128 + q.val = 128 + q.val; rfl
  exact hs.trans (pay01_apply x0 x1 p _)

/-- An entry of q's block against the arrays: if row (y 0) of the left block is row (i 0) of the array A, the right
    block is the whole matrix B, and y and i name the same column, the block's entry y is entry i of A · (left half of B). -/
theorem block0_entry_left (x0 : Vec Ideal S5000x128 .f32) (x1 : Vec Ideal S128x256 .f32)
    (A : FVec Ideal S50000x128 .f32) (B : FVec Ideal S128x256 .f32) (y : S5000x128.Idx) (i : S50000x128.Idx)
    (h0 : ∀ k : Fin 128, x0 (ix2 (y 0) k) = A (ix2 (i 0) k))
    (h1 : ∀ (k : Fin 128) (q : Fin 256), x1 (ix2 k q) = B (ix2 k q))
    (hq : (y 1).val = (i 1).val) :
    Gen.k0_pay2 (F := Ideal) x0 x1 y = projLeft A B (i 0) (i 1) := by
  obtain ⟨p, q, rfl⟩ : ∃ (p : Fin 5000) (q : Fin 128), y = ix2 p q := ⟨y 0, y 1, eq_ix2 y⟩
  rw [pay02_apply]
  unfold projLeft
  refine Finset.sum_congr rfl fun k _ => ?_
  have hcol : (⟨q.val, by omega⟩ : Fin 256) = ⟨(i 1).val, by have := idx2_lt1 i; omega⟩ := Fin.ext hq
  exact (congrArg₂ (· * ·) (h0 k) (h1 k _)).trans (by rw [hcol])

/-- The same for k's block and the right half of B: column 128 + (the common column). -/
theorem block0_entry_right (x0 : Vec Ideal S5000x128 .f32) (x1 : Vec Ideal S128x256 .f32)
    (A : FVec Ideal S50000x128 .f32) (B : FVec Ideal S128x256 .f32) (y : S5000x128.Idx) (i : S50000x128.Idx)
    (h0 : ∀ k : Fin 128, x0 (ix2 (y 0) k) = A (ix2 (i 0) k))
    (h1 : ∀ (k : Fin 128) (q : Fin 256), x1 (ix2 k q) = B (ix2 k q))
    (hq : (y 1).val = (i 1).val) :
    Gen.k0_pay3 (F := Ideal) x0 x1 y = projRight A B (i 0) (i 1) := by
  obtain ⟨p, q, rfl⟩ : ∃ (p : Fin 5000) (q : Fin 128), y = ix2 p q := ⟨y 0, y 1, eq_ix2 y⟩
  rw [pay03_apply]
  unfold projRight
  refine Finset.sum_congr rfl fun k _ => ?_
  have hcol : (⟨128 + q.val, by omega⟩ : Fin 256) = ⟨128 + (i 1).val, by have := idx2_lt1 i; omega⟩ :=
    Fin.ext (congrArg (128 + ·) hq)
  exact (congrArg₂ (· * ·) (h0 k) (h1 k _)).trans (by rw [hcol])

/-- The index maps of region 0, decided over its 10 points: at point t the left factor's window and both output
    windows are at row block t, column block 0; the right factor's window is the whole 128 × 256 matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What region 0 leaves in q and in k, each as one function of the arrays it found. -/
abbrev Gq (c : Dev nD) : S50000x128.Idx → EReal :=
  fun i => projLeft (V c main_arg0) (V c main_v0) (i 0) (i 1)
abbrev Gk (c : Dev nD) : S50000x128.Idx → EReal :=
  fun i => projRight (V c main_arg0) (V c main_v0) (i 0) (i 1)

/-- What point t writes back to q is block t of h · (left half): entry (p, q) of the block is the product's entry
    (5000 t + p, q). -/
theorem flushed0_2_eq (c : Dev nD) (t : Fin cfg0.N) :
    (Gen.dat0 (F := Ideal) V c).flushed 2 t = ((cfg0.win 2).blk t).view.read (Elt Ideal) (Gq V c) := by
  show (cfg0.win 2).cut (grid0.coords t) ((Gen.dat0 (F := Ideal) V c).after 2 t) = _
  rw [Gen.after0_2]
  unfold Gen.out0_2
  rw [View.canon_unit_zero hz]
  simp only [View.ld_unit_zero (S := S5000x128) hz, View.ld_unit_zero (S := S128x256) hz]
  obtain ⟨e0, e1, e2, e3, e4, e5, e6, e7⟩ := idx_facts0 t
  funext j
  refine block0_entry_left (Gen.iblk0 V c 0 t) (Gen.iblk0 V c 1 t) (V c main_arg0) (V c main_v0) j
    (((cfg0.win 2).blk t).view.emb j) (fun k => ?_) (fun k q => ?_) ?_
  · show V c main_arg0 (((cfg0.win 0).blk t).view.emb (ix2 (j 0) k))
      = V c main_arg0 (ix2 ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_v0 (((cfg0.win 1).blk t).view.emb (ix2 k q)) = V c main_v0 (ix2 k q)
    refine congrArg (V c main_v0) (funext fun a => Fin.ext ?_)
    match a with
    | ⟨0, _⟩ => show win0_1.index t (0 : Fin 2) * 128 + 1 * k.val = k.val; omega
    | ⟨1, _⟩ => show win0_1.index t (1 : Fin 2) * 256 + 1 * q.val = q.val; omega
  · show (j 1).val = win0_2.index t (1 : Fin 2) * 128 + 1 * (j 1).val
    omega

/-- What point t writes back to k is block t of h · (right half). -/
theorem flushed0_3_eq (c : Dev nD) (t : Fin cfg0.N) :
    (Gen.dat0 (F := Ideal) V c).flushed 3 t = ((cfg0.win 3).blk t).view.read (Elt Ideal) (Gk V c) := by
  show (cfg0.win 3).cut (grid0.coords t) ((Gen.dat0 (F := Ideal) V c).after 3 t) = _
  rw [Gen.after0_3]
  unfold Gen.out0_3
  rw [View.canon_unit_zero hz]
  simp only [View.ld_unit_zero (S := S5000x128) hz, View.ld_unit_zero (S := S128x256) hz]
  obtain ⟨e0, e1, e2, e3, e4, e5, e6, e7⟩ := idx_facts0 t
  funext j
  refine block0_entry_right (Gen.iblk0 V c 0 t) (Gen.iblk0 V c 1 t) (V c main_arg0) (V c main_v0) j
    (((cfg0.win 3).blk t).view.emb j) (fun k => ?_) (fun k q => ?_) ?_
  · show V c main_arg0 (((cfg0.win 0).blk t).view.emb (ix2 (j 0) k))
      = V c main_arg0 (ix2 ((((cfg0.win 3).blk t).view.emb j) 0) k)
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · show V c main_v0 (((cfg0.win 1).blk t).view.emb (ix2 k q)) = V c main_v0 (ix2 k q)
    refine congrArg (V c main_v0) (funext fun a => Fin.ext ?_)
    match a with
    | ⟨0, _⟩ => show win0_1.index t (0 : Fin 2) * 128 + 1 * k.val = k.val; omega
    | ⟨1, _⟩ => show win0_1.index t (1 : Fin 2) * 256 + 1 * q.val = q.val; omega
  · show (j 1).val = win0_3.index t (1 : Fin 2) * 128 + 1 * (j 1).val
    omega

/-- An index of q (of k) lies in point t's block iff on each axis its coordinate lies in the block's range. -/
theorem mem_blk0_2 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v1_0).slice (win0_2.rect t)).set ↔ _
  rw [View.set_slice_whole, Rect.mem_set_unit]
  exact Iff.rfl
theorem mem_blk0_3 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1_1).slice (win0_3.rect t)).set ↔ _
  rw [View.set_slice_whole, Rect.mem_set_unit]
  exact Iff.rfl

/-- Every entry of q, and every entry of k, is written back: row r lies in the block of point r / 5000. -/
theorem covered0_2 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := Gen.N_0
  obtain ⟨t, ht⟩ : ∃ t : Fin cfg0.N, t.val = (i 0).val / 5000 := ⟨⟨(i 0).val / 5000, by rw [hN]; omega⟩, rfl⟩
  obtain ⟨e0, e1, e2, e3, e4, e5, e6, e7⟩ := idx_facts0 t
  refine ⟨t, Gen.flush0_2 t, ?_⟩
  rw [mem_blk0_2]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega
theorem covered0_3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := Gen.N_0
  obtain ⟨t, ht⟩ : ∃ t : Fin cfg0.N, t.val = (i 0).val / 5000 := ⟨⟨(i 0).val / 5000, by rw [hN]; omega⟩, rfl⟩
  obtain ⟨e0, e1, e2, e3, e4, e5, e6, e7⟩ := idx_facts0 t
  refine ⟨t, Gen.flush0_3 t, ?_⟩
  rw [mem_blk0_3]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- After region 0 the array q holds h · (the left 128 columns of [Wq | Wk]). -/
theorem final0_2 (c : Dev nD) :
    (Gen.dat0 (F := Ideal) V c).arrAt 2 cfg0.N
      = fun i => projLeft (V c main_arg0) (V c main_v0) (i 0) (i 1) :=
  (Gen.dat0 (F := Ideal) V c).arrAt_eq_of_cover 2 (Gq V c) (fun t _ => flushed0_2_eq V c t) covered0_2

/-- After region 0 the array k holds h · (the right 128 columns of [Wq | Wk]). -/
theorem final0_3 (c : Dev nD) :
    (Gen.dat0 (F := Ideal) V c).arrAt 3 cfg0.N
      = fun i => projRight (V c main_arg0) (V c main_v0) (i 0) (i 1) :=
  (Gen.dat0 (F := Ideal) V c).arrAt_eq_of_cover 3 (Gk V c) (fun t _ => flushed0_3_eq V c t) covered0_3

end Cert.KernelIdeal.Val01

end
-- ==== Proof.KRegion2.lean ====
/-
  Region 2 of the kernel program: the fused per-edge computation, 200 row blocks of 4000 edges.

  The region finds six arrays: KV (800000 × 256: columns 0..127 the key row of the edge's source node, columns 128..255
  its value row), Q (800000 × 128: the query row of the edge's destination node), E (the edge features), We (128 × 128),
  PR (128 × 8) and PB (8 × 128).  It leaves three arrays.  The third is p = E·We, every entry a sum of 128 products.  The
  second is the weight of edge r for head g: the 128 scores ((KV[r, t] · Q[r, t]) · 1/4) · p[r, t], each times PR[t, g],
  summed over t, clipped to [-5, 5] and exponentiated.  The first is the message: KV[r, 128 + j] times the sum over the 8
  heads g of weight(r, g) · PB[g, j].

  Each grid point computes these for its own 4000 rows from its own blocks of KV, Q and E and the whole of We, PR and PB;
  the blocks tile the rows (row r lies in the block of point r / 4000), so each output array is one function of the
  arrays the region found.
-/
import proofs.«409143_j74148315398272_3_alg».proof.Proof.Gen.KernelIdeal.Frame
import proofs.«409143_j74148315398272_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Val2

open Cert.KernelIdeal Cert.KernelIdeal.Gen Idealize.ShloMosaic Idealize.ShloMosaic.TcCoe Idealize.SL.Sem
open Idealize.ShloMosaic.ValueIdx
open Idealize.ShloMosaic.Pipeline (Dat)

/-- The weight of edge r for head g, from the arrays the region finds. -/
def wgt (KV : FVec Ideal ⟨2, ![800000, 256]⟩ .f32) (Q E : FVec Ideal ⟨2, ![800000, 128]⟩ .f32)
    (We : FVec Ideal ⟨2, ![128, 128]⟩ .f32) (PR : FVec Ideal ⟨2, ![128, 8]⟩ .f32) (r : Fin 800000) (g : Fin 8) : EReal :=
  Ideal.exp (min Cert.Spec.hi (max Cert.Spec.lo (∑ t : Fin 128,
    (((KV (ix2 r (⟨t.val, by omega⟩ : Fin 256)) * Q (ix2 r t)) * Cert.Spec.quarter) * Cert.Spec.proj E We r t) * PR (ix2 t g))))

/-- The message of edge r in column j, from the arrays the region finds: the value entry times the weights of the 8 heads
    spread over the columns by PB. -/
def msg (KV : FVec Ideal ⟨2, ![800000, 256]⟩ .f32) (Q E : FVec Ideal ⟨2, ![800000, 128]⟩ .f32)
    (We : FVec Ideal ⟨2, ![128, 128]⟩ .f32) (PR : FVec Ideal ⟨2, ![128, 8]⟩ .f32) (PB : FVec Ideal ⟨2, ![8, 128]⟩ .f32)
    (r : Fin 800000) (j : Fin 128) : EReal :=
  KV (ix2 r (⟨128 + j.val, by omega⟩ : Fin 256)) * ∑ g : Fin 8, wgt KV Q E We PR r g * PB (ix2 g j)

variable (V : (c : Dev nD) → (b : Ref sig .tc) → Buf (Elt Ideal) ((c : Thread nD τ).loc b))

/-! ## The three contractions read at an index

Each is a plain rows × contraction times contraction × columns product: at output index (p, q) and contraction index t the
operands are read at (p, t) and (t, q). -/

theorem lhs_we_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_we_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_we_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_we_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The edge-feature block times We: entry (p, q) is the sum over the 128 contraction indices. -/
theorem mm_we (l : FVec Ideal S4000x128 .f32) (r : FVec Ideal S128x128 .f32) (p : Fin 4000) (q : Fin 128) :
    matmul dot_S4000x128_S128x128_S4000x128_1_0_0_1_n_n none l r (constant (F := Ideal) S4000x128 .f32 0x00000000#32) (ix2 p q)
      = ∑ t : Fin 128, l (ix2 p t) * r (ix2 t q) := by
  show FloatOps.matmul dot_S4000x128_S128x128_S4000x128_1_0_0_1_n_n none l r (constant S4000x128 .f32 0x00000000#32) (ix2 p q) = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_we_0 _ _
    | ⟨1, _⟩ => exact (lhs_we_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_we_0 _ _).trans hk
    | ⟨1, _⟩ => exact rhs_we_1 _ _)
  rw [el, er]

theorem lhs_pr_0 (i : S4000x8.Idx) (q : dot_S4000x128_S128x8_S4000x8_1_0_0_1_n_n.contr.Idx) :
    (dot_S4000x128_S128x8_S4000x8_1_0_0_1_n_n.lhsIdx i q 0).val = (i 0).val := by
  unfold DotDims.lhsIdx
  rw [dif_neg (show ¬(0 : Fin S4000x128.rank) ∈ dot_S4000x128_S128x8_S4000x8_1_0_0_1_n_n.lhsBatch by decide), dif_pos (show (0 : Fin S4000x128.rank) ∈ dot_S4000x128_S128x8_S4000x8_1_0_0_1_n_n.lhsNonContracting by decide)]
  rfl
theorem lhs_pr_1 (i : S4000x8.Idx) (q : dot_S4000x128_S128x8_S4000x8_1_0_0_1_n_n.contr.Idx) :
    (dot_S4000x128_S128x8_S4000x8_1_0_0_1_n_n.lhsIdx i q 1).val = (q ⟨0, by decide⟩).val :=
  dot_S4000x128_S128x8_S4000x8_1_0_0_1_n_n.lhsIdx_val_of_single rfl i q
theorem rhs_pr_0 (i : S4000x8.Idx) (q : dot_S4000x128_S128x8_S4000x8_1_0_0_1_n_n.contr.Idx) :
    (dot_S4000x128_S128x8_S4000x8_1_0_0_1_n_n.rhsIdx i q 0).val = (q ⟨0, by decide⟩).val :=
  dot_S4000x128_S128x8_S4000x8_1_0_0_1_n_n.rhsIdx_val_of_single rfl i q
theorem rhs_pr_1 (i : S4000x8.Idx) (q : dot_S4000x128_S128x8_S4000x8_1_0_0_1_n_n.contr.Idx) :
    (dot_S4000x128_S128x8_S4000x8_1_0_0_1_n_n.rhsIdx i q 1).val = (i 1).val := by
  unfold DotDims.rhsIdx
  rw [dif_neg (show ¬(1 : Fin S128x8.rank) ∈ dot_S4000x128_S128x8_S4000x8_1_0_0_1_n_n.rhsBatch by decide), dif_pos (show (1 : Fin S128x8.rank) ∈ dot_S4000x128_S128x8_S4000x8_1_0_0_1_n_n.rhsNonContracting by decide)]
  rfl

/-- A score block times PR: entry (p, g) is the sum over the 128 columns. -/
theorem mm_pr (l : FVec Ideal S4000x128 .f32) (r : FVec Ideal S128x8 .f32) (p : Fin 4000) (q : Fin 8) :
    matmul dot_S4000x128_S128x8_S4000x8_1_0_0_1_n_n (some .fp32) l r (constant (F := Ideal) S4000x8 .f32 0x00000000#32) (ix2 p q)
      = ∑ t : Fin 128, l (ix2 p t) * r (ix2 t q) := by
  show FloatOps.matmul dot_S4000x128_S128x8_S4000x8_1_0_0_1_n_n (some .fp32) l r (constant S4000x8 .f32 0x00000000#32) (ix2 p q) = _
  rw [Ideal.matmul_constant_zero_apply, ← Equiv.sum_comp (contrEquiv1 dot_S4000x128_S128x8_S4000x8_1_0_0_1_n_n 128 rfl rfl).symm]
  refine Finset.sum_congr rfl fun k _ => ?_
  have hk := contrEquiv1_symm_val dot_S4000x128_S128x8_S4000x8_1_0_0_1_n_n 128 rfl rfl k
  have el : dot_S4000x128_S128x8_S4000x8_1_0_0_1_n_n.lhsIdx (ix2 p q) ((contrEquiv1 dot_S4000x128_S128x8_S4000x8_1_0_0_1_n_n 128 rfl rfl).symm k) = ix2 p k := funext fun a => Fin.ext (by
    match a with
    | ⟨0, _⟩ => exact lhs_pr_0 _ _
    | ⟨1, _⟩ => exact (lhs_pr_1 _ _).trans hk)
  have er : dot_S4000x128_S128x8_S4000x8_1_0_0_1_n_n.rhsIdx (ix2 p q) ((contrEquiv1 dot_S4000x128_S128x8_S4000x8_1_0_0_1_n_n 128 rfl rfl).symm k) = ix2 k q := funext fun a => Fin.ext (by
    match a with
    | ⟨0, _⟩ => exact (rhs_pr_0 _ _).trans hk
    | ⟨1, _⟩ => exact rhs_pr_1 _ _)
  rw [el, er]

theorem lhs_pb_0 (i : S4000x128.Idx) (q : dot_S4000x8_S8x128_S4000x128_1_0_0_1_n_n.contr.Idx) :
    (dot_S4000x8_S8x128_S4000x128_1_0_0_1_n_n.lhsIdx i q 0).val = (i 0).val := by
  unfold DotDims.lhsIdx
  rw [dif_neg (show ¬(0 : Fin S4000x8.rank) ∈ dot_S4000x8_S8x128_S4000x128_1_0_0_1_n_n.lhsBatch by decide), dif_pos (show (0 : Fin S4000x8.rank) ∈ dot_S4000x8_S8x128_S4000x128_1_0_0_1_n_n.lhsNonContracting by decide)]
  rfl
theorem lhs_pb_1 (i : S4000x128.Idx) (q : dot_S4000x8_S8x128_S4000x128_1_0_0_1_n_n.contr.Idx) :
    (dot_S4000x8_S8x128_S4000x128_1_0_0_1_n_n.lhsIdx i q 1).val = (q ⟨0, by decide⟩).val :=
  dot_S4000x8_S8x128_S4000x128_1_0_0_1_n_n.lhsIdx_val_of_single rfl i q
theorem rhs_pb_0 (i : S4000x128.Idx) (q : dot_S4000x8_S8x128_S4000x128_1_0_0_1_n_n.contr.Idx) :
    (dot_S4000x8_S8x128_S4000x128_1_0_0_1_n_n.rhsIdx i q 0).val = (q ⟨0, by decide⟩).val :=
  dot_S4000x8_S8x128_S4000x128_1_0_0_1_n_n.rhsIdx_val_of_single rfl i q
theorem rhs_pb_1 (i : S4000x128.Idx) (q : dot_S4000x8_S8x128_S4000x128_1_0_0_1_n_n.contr.Idx) :
    (dot_S4000x8_S8x128_S4000x128_1_0_0_1_n_n.rhsIdx i q 1).val = (i 1).val := by
  unfold DotDims.rhsIdx
  rw [dif_neg (show ¬(1 : Fin S8x128.rank) ∈ dot_S4000x8_S8x128_S4000x128_1_0_0_1_n_n.rhsBatch by decide), dif_pos (show (1 : Fin S8x128.rank) ∈ dot_S4000x8_S8x128_S4000x128_1_0_0_1_n_n.rhsNonContracting by decide)]
  rfl

/-- A weight block times PB: entry (p, j) is the sum over the 8 heads. -/
theorem mm_pb (l : FVec Ideal S4000x8 .f32) (r : FVec Ideal S8x128 .f32) (p : Fin 4000) (q : Fin 128) :
    matmul dot_S4000x8_S8x128_S4000x128_1_0_0_1_n_n (some .fp32) l r (constant (F := Ideal) S4000x128 .f32 0x00000000#32) (ix2 p q)
      = ∑ t : Fin 8, l (ix2 p t) * r (ix2 t q) := by
  show FloatOps.matmul dot_S4000x8_S8x128_S4000x128_1_0_0_1_n_n (some .fp32) l r (constant S4000x128 .f32 0x00000000#32) (ix2 p q) = _
  rw [Ideal.matmul_constant_zero_apply, ← Equiv.sum_comp (contrEquiv1 dot_S4000x8_S8x128_S4000x128_1_0_0_1_n_n 8 rfl rfl).symm]
  refine Finset.sum_congr rfl fun k _ => ?_
  have hk := contrEquiv1_symm_val dot_S4000x8_S8x128_S4000x128_1_0_0_1_n_n 8 rfl rfl k
  have el : dot_S4000x8_S8x128_S4000x128_1_0_0_1_n_n.lhsIdx (ix2 p q) ((contrEquiv1 dot_S4000x8_S8x128_S4000x128_1_0_0_1_n_n 8 rfl rfl).symm k) = ix2 p k := funext fun a => Fin.ext (by
    match a with
    | ⟨0, _⟩ => exact lhs_pb_0 _ _
    | ⟨1, _⟩ => exact (lhs_pb_1 _ _).trans hk)
  have er : dot_S4000x8_S8x128_S4000x128_1_0_0_1_n_n.rhsIdx (ix2 p q) ((contrEquiv1 dot_S4000x8_S8x128_S4000x128_1_0_0_1_n_n 8 rfl rfl).symm k) = ix2 k q := funext fun a => Fin.ext (by
    match a with
    | ⟨0, _⟩ => exact (rhs_pb_0 _ _).trans hk
    | ⟨1, _⟩ => exact rhs_pb_1 _ _)
  rw [el, er]

/-! ## The body's three stored values at an index

Over blocks kv (4000 × 256), q and e (4000 × 128) and the whole We, PR, PB. -/

/-- The projected edge features of row p, column j of a block. -/
theorem pay2_apply (e : FVec Ideal S4000x128 .f32) (w : FVec Ideal S128x128 .f32) (p : Fin 4000) (j : Fin 128) :
    k2_pay2 (F := Ideal) e w (ix2 p j) = ∑ t : Fin 128, e (ix2 p t) * w (ix2 t j) := by
  unfold k2_pay2
  exact mm_we e w p j

/-- The weight of row p of a block for head g: the 128 scores, each times PR's entry for the head, summed, clipped and
    exponentiated. -/
theorem pay3_apply (kv : FVec Ideal S4000x256 .f32) (e : FVec Ideal S4000x128 .f32) (w : FVec Ideal S128x128 .f32)
    (q : FVec Ideal S4000x128 .f32) (pr : FVec Ideal S128x8 .f32) (p : Fin 4000) (g : Fin 8) :
    k2_pay3 (F := Ideal) kv e w q pr (ix2 p g)
      = Ideal.exp (min Cert.Spec.hi (max Cert.Spec.lo (∑ t : Fin 128,
          (((kv (ix2 p (⟨t.val, by omega⟩ : Fin 256)) * q (ix2 p t)) * Cert.Spec.quarter) * (∑ s : Fin 128, e (ix2 p s) * w (ix2 s t))) * pr (ix2 t g)))) := by
  unfold k2_pay3
  show Ideal.exp (min _ (max _ (matmul dot_S4000x128_S128x8_S4000x8_1_0_0_1_n_n (some .fp32) _ pr (constant (F := Ideal) S4000x8 .f32 0x00000000#32) (ix2 p g)))) = _
  rw [mm_pr]
  refine congrArg Ideal.exp (congrArg (min _) (congrArg (max _) (Finset.sum_congr rfl fun t _ => ?_)))
  refine congrArg (· * pr (ix2 t g)) ?_
  show ((extractStridedSlice S4000x128 ![0, 0] (k2_pay1 kv) slices_S4000x256_o0_0_S4000x128 (ix2 p t) * shapeCast S4000x128 q shapeCasts_S4000x128_S4000x128 (ix2 p t)) * _) * k2_pay2 e w (ix2 p t) = _
  rw [pay2_apply, shapeCast_self]
  refine congrArg (fun x => ((x * q (ix2 p t)) * Cert.Spec.quarter) * _) ?_
  refine (extractStridedSlice_apply _ _ _ (ix2 p t) (ix2 p (⟨t.val, by omega⟩ : Fin 256)) fun a => ?_).trans ?_
  · match a with
    | ⟨0, _⟩ => show p.val = 0 + p.val; omega
    | ⟨1, _⟩ => show t.val = 0 + t.val; omega
  · unfold k2_pay1; rw [shapeCast_self]

/-- The message of row p of a block in column j: the value entry (column 128 + j of the KV block) times the row's 8
    weights spread over the columns by PB. -/
theorem pay4_apply (kv : FVec Ideal S4000x256 .f32) (e : FVec Ideal S4000x128 .f32) (w : FVec Ideal S128x128 .f32)
    (q : FVec Ideal S4000x128 .f32) (pr : FVec Ideal S128x8 .f32) (pb : FVec Ideal S8x128 .f32) (p : Fin 4000) (j : Fin 128) :
    k2_pay4 (F := Ideal) kv e w q pr pb (ix2 p j)
      = kv (ix2 p (⟨128 + j.val, by omega⟩ : Fin 256)) * ∑ g : Fin 8, k2_pay3 (F := Ideal) kv e w q pr (ix2 p g) * pb (ix2 g j) := by
  unfold k2_pay4
  show extractStridedSlice S4000x128 ![0, 128] (k2_pay1 kv) slices_S4000x256_o0_128_S4000x128 (ix2 p j)
      * matmul dot_S4000x8_S8x128_S4000x128_1_0_0_1_n_n (some .fp32) (k2_pay3 kv e w q pr) pb (constant (F := Ideal) S4000x128 .f32 0x00000000#32) (ix2 p j) = _
  rw [mm_pb]
  refine congrArg (· * _) ?_
  refine (extractStridedSlice_apply _ _ _ (ix2 p j) (ix2 p (⟨128 + j.val, by omega⟩ : Fin 256)) fun a => ?_).trans ?_
  · match a with
    | ⟨0, _⟩ => show p.val = 0 + p.val; omega
    | ⟨1, _⟩ => show 128 + j.val = 128 + j.val; rfl
  · unfold k2_pay1; rw [shapeCast_self]

/-! ## From blocks to arrays -/

theorem hz : (![0, 0] : Fin 2 → Nat) = fun _ => 0 := funext fun a => by fin_cases a <;> rfl

theorem ht200 (t : Fin cfg2.N) : t.val < 200 := lt_of_lt_of_eq t.isLt N_2

/-- The printed index maps over the grid: the row-blocked windows (KV, Q, E and the three outputs) sit at block (t, 0) at
    point t, the whole windows (We, PR, PB) at block (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0)
    ∧ (win2_8.index t (0 : Fin 2) = t.val ∧ win2_8.index t (1 : Fin 2) = 0) :=
  (by decide +kernel : ∀ t : Fin grid2.N, _)

/-- The arrays the region finds, at their literal types. -/
abbrev aKV (c : Dev nD) : FVec Ideal S800000x256 .f32 := V c main_v4
abbrev aQ (c : Dev nD) : FVec Ideal S800000x128 .f32 := V c main_v5
abbrev aE (c : Dev nD) : FVec Ideal S800000x128 .f32 := V c main_arg1
abbrev aWe (c : Dev nD) : FVec Ideal S128x128 .f32 := V c main_arg6
abbrev aPR (c : Dev nD) : FVec Ideal S128x8 .f32 := V c main_cst
abbrev aPB (c : Dev nD) : FVec Ideal S8x128 .f32 := V c main_cst_0

/-- The blocks grid point t reads, at their literal types. -/
abbrev bKV (c : Dev nD) (t : Fin cfg2.N) : FVec Ideal S4000x256 .f32 := iblk2 V c 0 t
abbrev bQ (c : Dev nD) (t : Fin cfg2.N) : FVec Ideal S4000x128 .f32 := iblk2 V c 1 t
abbrev bE (c : Dev nD) (t : Fin cfg2.N) : FVec Ideal S4000x128 .f32 := iblk2 V c 2 t
abbrev bWe (c : Dev nD) (t : Fin cfg2.N) : FVec Ideal S128x128 .f32 := iblk2 V c 3 t
abbrev bPR (c : Dev nD) (t : Fin cfg2.N) : FVec Ideal S128x8 .f32 := iblk2 V c 4 t
abbrev bPB (c : Dev nD) (t : Fin cfg2.N) : FVec Ideal S8x128 .f32 := iblk2 V c 5 t

/-- Row p of point t's edge-feature block is row 4000 t + p of E. -/
theorem bE_apply (c : Dev nD) (t : Fin cfg2.N) (p : Fin 4000) (s : Fin 128) (r : Fin 800000) (hr : r.val = 4000 * t.val + p.val) :
    bE V c t (ix2 p s) = aE V c (ix2 r s) := by
  obtain ⟨-, -, ⟨e0, e1⟩, -⟩ := idx_facts t
  show V c main_arg1 (((cfg2.win 2).blk t).view.emb (ix2 p s)) = V c main_arg1 (ix2 r s)
  refine congrArg (V c main_arg1) (funext fun a => Fin.ext ?_)
  match a with
  | ⟨0, _⟩ => show win2_2.index t (0 : Fin 2) * 4000 + 1 * p.val = r.val; rw [e0, hr]; omega
  | ⟨1, _⟩ => show win2_2.index t (1 : Fin 2) * 128 + 1 * s.val = s.val; rw [e1]; omega

/-- Every point's We block is the whole of We. -/
theorem bWe_apply (c : Dev nD) (t : Fin cfg2.N) (s j : Fin 128) : bWe V c t (ix2 s j) = aWe V c (ix2 s j) := by
  obtain ⟨-, -, -, ⟨e0, e1⟩, -⟩ := idx_facts t
  show V c main_arg6 (((cfg2.win 3).blk t).view.emb (ix2 s j)) = V c main_arg6 (ix2 s j)
  refine congrArg (V c main_arg6) (funext fun a => Fin.ext ?_)
  match a with
  | ⟨0, _⟩ => show win2_3.index t (0 : Fin 2) * 128 + 1 * s.val = s.val; rw [e0]; omega
  | ⟨1, _⟩ => show win2_3.index t (1 : Fin 2) * 128 + 1 * j.val = j.val; rw [e1]; omega

/-- Point t's block of a row-blocked output array, read at (p, j), is the array's index (4000 t + p, j). -/
theorem emb8 (t : Fin cfg2.N) (p : Fin 4000) (j : Fin 128) :
    ∃ r : Fin 800000, r.val = 4000 * t.val + p.val ∧ ((cfg2.win 8).blk t).view.emb (ix2 p j) = ix2 r j := by
  obtain ⟨-, -, -, -, -, -, -, -, ⟨e0, e1⟩⟩ := idx_facts t
  have ht := ht200 t
  refine ⟨⟨4000 * t.val + p.val, by omega⟩, rfl, funext fun a => Fin.ext ?_⟩
  match a with
  | ⟨0, _⟩ => show win2_8.index t (0 : Fin 2) * 4000 + 1 * p.val = 4000 * t.val + p.val; rw [e0]; omega
  | ⟨1, _⟩ => show win2_8.index t (1 : Fin 2) * 128 + 1 * j.val = j.val; rw [e1]; omega

/-- What point t writes back to the third output array is its block of the projected edge features. -/
theorem flushed8_eq (c : Dev nD) (t : Fin cfg2.N) :
    (dat2 (F := Ideal) V c).flushed 8 t = ((cfg2.win 8).blk t).view.read (Elt Ideal)
      (fun i => Cert.Spec.proj (V c main_arg1) (V c main_arg6) (i 0) (i 1)) := by
  show (cfg2.win 8).cut (grid2.coords t) ((dat2 V c).after 8 t) = _
  rw [after2_8]
  unfold out2_8
  rw [View.canon_unit_zero hz]
  simp only [View.ld_unit_zero (S := S4000x128) hz, View.ld_unit_zero (S := S128x128) hz]
  funext y
  obtain ⟨p, j, rfl⟩ : ∃ (p : Fin 4000) (j : Fin 128), y = ix2 p j := ⟨y 0, y 1, eq_ix2 y⟩
  obtain ⟨r, hr, hi⟩ := emb8 t p j
  show k2_pay2 (F := Ideal) (bE V c t) (bWe V c t) (ix2 p j)
    = (fun i : S800000x128.Idx => Cert.Spec.proj (aE V c) (aWe V c) (i 0) (i 1)) (((cfg2.win 8).blk t).view.emb (ix2 p j))
  rw [hi, pay2_apply]
  show _ = ∑ s : Fin 128, aE V c (ix2 r s) * aWe V c (ix2 s j)
  refine Finset.sum_congr rfl fun s _ => ?_
  rw [bE_apply V c t p s r hr, bWe_apply V c t s j]

/-- An index of the third output array is in point t's block iff each coordinate is in the block's range on its axis. -/
theorem mem_blk8 (t : Fin cfg2.N) (i : S800000x128.Idx) :
    i ∈ ((cfg2.win 8).blk t).view.set ↔ ∀ a : Fin 2, win2_8.index t a * S4000x128.size a ≤ (i a).val ∧ (i a).val < win2_8.index t a * S4000x128.size a + S4000x128.size a := by
  show i ∈ ((View.whole main_v6_2).slice (win2_8.rect t)).set ↔ _
  rw [View.set_slice_whole, Rect.mem_set_unit]
  exact Iff.rfl

/-- Row r of the third output array lies in the block of point r / 4000. -/
theorem cover8 (i : S800000x128.Idx) : ∃ t : Fin cfg2.N, (cfg2.win 8).flush t = true ∧ i ∈ ((cfg2.win 8).blk t).view.set := by
  have hi0 : (i 0).val < 800000 := (i 0).isLt
  have hi1 : (i 1).val < 128 := (i 1).isLt
  have hN : cfg2.N = 200 := N_2
  obtain ⟨t, ht⟩ : ∃ t : Fin cfg2.N, t.val = (i 0).val / 4000 := ⟨⟨(i 0).val / 4000, by rw [hN]; omega⟩, rfl⟩
  obtain ⟨-, -, -, -, -, -, -, -, ⟨e0, e1⟩⟩ := idx_facts t
  refine ⟨t, flush2_8 t, ?_⟩
  rw [mem_blk8]
  intro a
  match a with
  | ⟨0, _⟩ => show win2_8.index t (0 : Fin 2) * 4000 ≤ (i 0).val ∧ (i 0).val < win2_8.index t (0 : Fin 2) * 4000 + 4000; rw [e0, ht]; omega
  | ⟨1, _⟩ => show win2_8.index t (1 : Fin 2) * 128 ≤ (i 1).val ∧ (i 1).val < win2_8.index t (1 : Fin 2) * 128 + 128; rw [e1]; omega

/-- After the region the third output array holds the projected edge features. -/
theorem final2_8 (c : Dev nD) : (Gen.dat2 (F := Ideal) V c).arrAt 8 cfg2.N
    = fun i => Cert.Spec.proj (V c main_arg1) (V c main_arg6) (i 0) (i 1) :=
  (dat2 (F := Ideal) V c).arrAt_eq_of_cover 8 _ (fun t _ => flushed8_eq V c t) cover8

/-! ## The weights and the messages -/

/-- Row p of point t's KV block is row 4000 t + p of KV. -/
theorem bKV_apply (c : Dev nD) (t : Fin cfg2.N) (p : Fin 4000) (q : Fin 256) (r : Fin 800000) (hr : r.val = 4000 * t.val + p.val) :
    bKV V c t (ix2 p q) = aKV V c (ix2 r q) := by
  obtain ⟨⟨e0, e1⟩, -⟩ := idx_facts t
  show V c main_v4 (((cfg2.win 0).blk t).view.emb (ix2 p q)) = V c main_v4 (ix2 r q)
  refine congrArg (V c main_v4) (funext fun a => Fin.ext ?_)
  match a with
  | ⟨0, _⟩ => show win2_0.index t (0 : Fin 2) * 4000 + 1 * p.val = r.val; rw [e0, hr]; omega
  | ⟨1, _⟩ => show win2_0.index t (1 : Fin 2) * 256 + 1 * q.val = q.val; rw [e1]; omega

/-- Row p of point t's Q block is row 4000 t + p of Q. -/
theorem bQ_apply (c : Dev nD) (t : Fin cfg2.N) (p : Fin 4000) (s : Fin 128) (r : Fin 800000) (hr : r.val = 4000 * t.val + p.val) :
    bQ V c t (ix2 p s) = aQ V c (ix2 r s) := by
  obtain ⟨-, ⟨e0, e1⟩, -⟩ := idx_facts t
  show V c main_v5 (((cfg2.win 1).blk t).view.emb (ix2 p s)) = V c main_v5 (ix2 r s)
  refine congrArg (V c main_v5) (funext fun a => Fin.ext ?_)
  match a with
  | ⟨0, _⟩ => show win2_1.index t (0 : Fin 2) * 4000 + 1 * p.val = r.val; rw [e0, hr]; omega
  | ⟨1, _⟩ => show win2_1.index t (1 : Fin 2) * 128 + 1 * s.val = s.val; rw [e1]; omega

/-- Every point's PR block is the whole of PR. -/
theorem bPR_apply (c : Dev nD) (t : Fin cfg2.N) (s : Fin 128) (g : Fin 8) : bPR V c t (ix2 s g) = aPR V c (ix2 s g) := by
  obtain ⟨-, -, -, -, ⟨e0, e1⟩, -⟩ := idx_facts t
  show V c main_cst (((cfg2.win 4).blk t).view.emb (ix2 s g)) = V c main_cst (ix2 s g)
  refine congrArg (V c main_cst) (funext fun a => Fin.ext ?_)
  match a with
  | ⟨0, _⟩ => show win2_4.index t (0 : Fin 2) * 128 + 1 * s.val = s.val; rw [e0]; omega
  | ⟨1, _⟩ => show win2_4.index t (1 : Fin 2) * 8 + 1 * g.val = g.val; rw [e1]; omega

/-- Every point's PB block is the whole of PB. -/
theorem bPB_apply (c : Dev nD) (t : Fin cfg2.N) (g : Fin 8) (j : Fin 128) : bPB V c t (ix2 g j) = aPB V c (ix2 g j) := by
  obtain ⟨-, -, -, -, -, ⟨e0, e1⟩, -⟩ := idx_facts t
  show V c main_cst_0 (((cfg2.win 5).blk t).view.emb (ix2 g j)) = V c main_cst_0 (ix2 g j)
  refine congrArg (V c main_cst_0) (funext fun a => Fin.ext ?_)
  match a with
  | ⟨0, _⟩ => show win2_5.index t (0 : Fin 2) * 8 + 1 * g.val = g.val; rw [e0]; omega
  | ⟨1, _⟩ => show win2_5.index t (1 : Fin 2) * 128 + 1 * j.val = j.val; rw [e1]; omega

/-- The weight point t computes for row p of its blocks and head g is the weight of edge 4000 t + p for head g. -/
theorem pay3_blk (c : Dev nD) (t : Fin cfg2.N) (p : Fin 4000) (g : Fin 8) (r : Fin 800000) (hr : r.val = 4000 * t.val + p.val) :
    k2_pay3 (F := Ideal) (bKV V c t) (bE V c t) (bWe V c t) (bQ V c t) (bPR V c t) (ix2 p g)
      = wgt (aKV V c) (aQ V c) (aE V c) (aWe V c) (aPR V c) r g := by
  rw [pay3_apply]
  unfold wgt
  refine congrArg Ideal.exp (congrArg (min _) (congrArg (max _) (Finset.sum_congr rfl fun s _ => ?_)))
  have hp : ∑ u : Fin 128, bE V c t (ix2 p u) * bWe V c t (ix2 u s) = Cert.Spec.proj (aE V c) (aWe V c) r s := by
    unfold Cert.Spec.proj
    refine Finset.sum_congr rfl fun u _ => ?_
    rw [bE_apply V c t p u r hr, bWe_apply V c t u s]
  rw [hp, bKV_apply V c t p _ r hr, bQ_apply V c t p s r hr, bPR_apply V c t s g]

/-- Point t's block of the second output array, read at (p, g), is the array's index (4000 t + p, g). -/
theorem emb7 (t : Fin cfg2.N) (p : Fin 4000) (g : Fin 8) :
    ∃ r : Fin 800000, r.val = 4000 * t.val + p.val ∧ ((cfg2.win 7).blk t).view.emb (ix2 p g) = ix2 r g := by
  obtain ⟨-, -, -, -, -, -, -, ⟨e0, e1⟩, -⟩ := idx_facts t
  have ht := ht200 t
  refine ⟨⟨4000 * t.val + p.val, by omega⟩, rfl, funext fun a => Fin.ext ?_⟩
  match a with
  | ⟨0, _⟩ => show win2_7.index t (0 : Fin 2) * 4000 + 1 * p.val = 4000 * t.val + p.val; rw [e0]; omega
  | ⟨1, _⟩ => show win2_7.index t (1 : Fin 2) * 8 + 1 * g.val = g.val; rw [e1]; omega

/-- What point t writes back to the second output array is its block of the weights. -/
theorem flushed7_eq (c : Dev nD) (t : Fin cfg2.N) :
    (dat2 (F := Ideal) V c).flushed 7 t = ((cfg2.win 7).blk t).view.read (Elt Ideal)
      (fun i => wgt (V c main_v4) (V c main_v5) (V c main_arg1) (V c main_arg6) (V c main_cst) (i 0) (i 1)) := by
  show (cfg2.win 7).cut (grid2.coords t) ((dat2 V c).after 7 t) = _
  rw [after2_7]
  unfold out2_7
  rw [View.canon_unit_zero hz]
  simp only [View.ld_unit_zero (S := S4000x256) hz, View.ld_unit_zero (S := S4000x128) hz, View.ld_unit_zero (S := S128x128) hz, View.ld_unit_zero (S := S128x8) hz]
  funext y
  obtain ⟨p, g, rfl⟩ : ∃ (p : Fin 4000) (g : Fin 8), y = ix2 p g := ⟨y 0, y 1, eq_ix2 y⟩
  obtain ⟨r, hr, hi⟩ := emb7 t p g
  show k2_pay3 (F := Ideal) (bKV V c t) (bE V c t) (bWe V c t) (bQ V c t) (bPR V c t) (ix2 p g)
    = (fun i : S800000x8.Idx => wgt (aKV V c) (aQ V c) (aE V c) (aWe V c) (aPR V c) (i 0) (i 1)) (((cfg2.win 7).blk t).view.emb (ix2 p g))
  rw [hi]
  exact pay3_blk V c t p g r hr

theorem mem_blk7 (t : Fin cfg2.N) (i : S800000x8.Idx) :
    i ∈ ((cfg2.win 7).blk t).view.set ↔ ∀ a : Fin 2, win2_7.index t a * S4000x8.size a ≤ (i a).val ∧ (i a).val < win2_7.index t a * S4000x8.size a + S4000x8.size a := by
  show i ∈ ((View.whole main_v6_1).slice (win2_7.rect t)).set ↔ _
  rw [View.set_slice_whole, Rect.mem_set_unit]
  exact Iff.rfl

/-- Row r of the second output array lies in the block of point r / 4000. -/
theorem cover7 (i : S800000x8.Idx) : ∃ t : Fin cfg2.N, (cfg2.win 7).flush t = true ∧ i ∈ ((cfg2.win 7).blk t).view.set := by
  have hi0 : (i 0).val < 800000 := (i 0).isLt
  have hi1 : (i 1).val < 8 := (i 1).isLt
  have hN : cfg2.N = 200 := N_2
  obtain ⟨t, ht⟩ : ∃ t : Fin cfg2.N, t.val = (i 0).val / 4000 := ⟨⟨(i 0).val / 4000, by rw [hN]; omega⟩, rfl⟩
  obtain ⟨-, -, -, -, -, -, -, ⟨e0, e1⟩, -⟩ := idx_facts t
  refine ⟨t, flush2_7 t, ?_⟩
  rw [mem_blk7]
  intro a
  match a with
  | ⟨0, _⟩ => show win2_7.index t (0 : Fin 2) * 4000 ≤ (i 0).val ∧ (i 0).val < win2_7.index t (0 : Fin 2) * 4000 + 4000; rw [e0, ht]; omega
  | ⟨1, _⟩ => show win2_7.index t (1 : Fin 2) * 8 ≤ (i 1).val ∧ (i 1).val < win2_7.index t (1 : Fin 2) * 8 + 8; rw [e1]; omega

/-- After the region the second output array holds the weights. -/
theorem final2_7 (c : Dev nD) : (Gen.dat2 (F := Ideal) V c).arrAt 7 cfg2.N
    = fun i => wgt (V c main_v4) (V c main_v5) (V c main_arg1) (V c main_arg6) (V c main_cst) (i 0) (i 1) :=
  (dat2 (F := Ideal) V c).arrAt_eq_of_cover 7 _ (fun t _ => flushed7_eq V c t) cover7

/-- Point t's block of the first output array, read at (p, j), is the array's index (4000 t + p, j). -/
theorem emb6 (t : Fin cfg2.N) (p : Fin 4000) (j : Fin 128) :
    ∃ r : Fin 800000, r.val = 4000 * t.val + p.val ∧ ((cfg2.win 6).blk t).view.emb (ix2 p j) = ix2 r j := by
  obtain ⟨-, -, -, -, -, -, ⟨e0, e1⟩, -⟩ := idx_facts t
  have ht := ht200 t
  refine ⟨⟨4000 * t.val + p.val, by omega⟩, rfl, funext fun a => Fin.ext ?_⟩
  match a with
  | ⟨0, _⟩ => show win2_6.index t (0 : Fin 2) * 4000 + 1 * p.val = 4000 * t.val + p.val; rw [e0]; omega
  | ⟨1, _⟩ => show win2_6.index t (1 : Fin 2) * 128 + 1 * j.val = j.val; rw [e1]; omega

/-- What point t writes back to the first output array is its block of the messages. -/
theorem flushed6_eq (c : Dev nD) (t : Fin cfg2.N) :
    (dat2 (F := Ideal) V c).flushed 6 t = ((cfg2.win 6).blk t).view.read (Elt Ideal)
      (fun i => msg (V c main_v4) (V c main_v5) (V c main_arg1) (V c main_arg6) (V c main_cst) (V c main_cst_0) (i 0) (i 1)) := by
  show (cfg2.win 6).cut (grid2.coords t) ((dat2 V c).after 6 t) = _
  rw [after2_6]
  unfold out2_6
  rw [View.canon_unit_zero hz]
  simp only [View.ld_unit_zero (S := S4000x256) hz, View.ld_unit_zero (S := S4000x128) hz, View.ld_unit_zero (S := S128x128) hz, View.ld_unit_zero (S := S128x8) hz, View.ld_unit_zero (S := S8x128) hz]
  funext y
  obtain ⟨p, j, rfl⟩ : ∃ (p : Fin 4000) (j : Fin 128), y = ix2 p j := ⟨y 0, y 1, eq_ix2 y⟩
  obtain ⟨r, hr, hi⟩ := emb6 t p j
  show k2_pay4 (F := Ideal) (bKV V c t) (bE V c t) (bWe V c t) (bQ V c t) (bPR V c t) (bPB V c t) (ix2 p j)
    = (fun i : S800000x128.Idx => msg (aKV V c) (aQ V c) (aE V c) (aWe V c) (aPR V c) (aPB V c) (i 0) (i 1)) (((cfg2.win 6).blk t).view.emb (ix2 p j))
  rw [hi, pay4_apply]
  show _ = aKV V c (ix2 r (⟨128 + j.val, by omega⟩ : Fin 256)) * ∑ g : Fin 8, wgt (aKV V c) (aQ V c) (aE V c) (aWe V c) (aPR V c) r g * aPB V c (ix2 g j)
  rw [bKV_apply V c t p _ r hr]
  refine congrArg (_ * ·) (Finset.sum_congr rfl fun g _ => ?_)
  rw [pay3_blk V c t p g r hr, bPB_apply V c t g j]

theorem mem_blk6 (t : Fin cfg2.N) (i : S800000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v6_0).slice (win2_6.rect t)).set ↔ _
  rw [View.set_slice_whole, Rect.mem_set_unit]
  exact Iff.rfl

/-- Row r of the first output array lies in the block of point r / 4000. -/
theorem cover6 (i : S800000x128.Idx) : ∃ t : Fin cfg2.N, (cfg2.win 6).flush t = true ∧ i ∈ ((cfg2.win 6).blk t).view.set := by
  have hi0 : (i 0).val < 800000 := (i 0).isLt
  have hi1 : (i 1).val < 128 := (i 1).isLt
  have hN : cfg2.N = 200 := N_2
  obtain ⟨t, ht⟩ : ∃ t : Fin cfg2.N, t.val = (i 0).val / 4000 := ⟨⟨(i 0).val / 4000, by rw [hN]; omega⟩, rfl⟩
  obtain ⟨-, -, -, -, -, -, ⟨e0, e1⟩, -⟩ := idx_facts t
  refine ⟨t, flush2_6 t, ?_⟩
  rw [mem_blk6]
  intro a
  match a with
  | ⟨0, _⟩ => show win2_6.index t (0 : Fin 2) * 4000 ≤ (i 0).val ∧ (i 0).val < win2_6.index t (0 : Fin 2) * 4000 + 4000; rw [e0, ht]; omega
  | ⟨1, _⟩ => show win2_6.index t (1 : Fin 2) * 128 ≤ (i 1).val ∧ (i 1).val < win2_6.index t (1 : Fin 2) * 128 + 128; rw [e1]; omega

/-- After the region the first output array holds the messages. -/
theorem final2_6 (c : Dev nD) : (Gen.dat2 (F := Ideal) V c).arrAt 6 cfg2.N
    = fun i => msg (V c main_v4) (V c main_v5) (V c main_arg1) (V c main_arg6) (V c main_cst) (V c main_cst_0) (i 0) (i 1) :=
  (dat2 (F := Ideal) V c).arrAt_eq_of_cover 6 _ (fun t _ => flushed6_eq V c t) cover6

end Cert.KernelIdeal.Val2

end
-- ==== Proof.KRegion3.lean ====
import proofs.«409143_j74148315398272_3_alg».proof.Proof.Gen.KernelIdeal.Frame
import proofs.«409143_j74148315398272_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Val3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's arithmetic at one entry of a block -/

/-- The contraction of the 5000 × 8 block with the 8 × 128 matrix reads the left operand along its row … -/
theorem lhs_mm_0 (i : S5000x128.Idx) (q : dot_S5000x8_S8x128_S5000x128_1_0_0_1_n_n.contr.Idx) :
    (dot_S5000x8_S8x128_S5000x128_1_0_0_1_n_n.lhsIdx i q 0).val = (i 0).val := by
  unfold DotDims.lhsIdx
  rw [dif_neg (show ¬(0 : Fin S5000x8.rank) ∈ dot_S5000x8_S8x128_S5000x128_1_0_0_1_n_n.lhsBatch by decide), dif_pos (show (0 : Fin S5000x8.rank) ∈ dot_S5000x8_S8x128_S5000x128_1_0_0_1_n_n.lhsNonContracting by decide)]
  rfl
/-- … at the contracted head, … -/
theorem lhs_mm_1 (i : S5000x128.Idx) (q : dot_S5000x8_S8x128_S5000x128_1_0_0_1_n_n.contr.Idx) :
    (dot_S5000x8_S8x128_S5000x128_1_0_0_1_n_n.lhsIdx i q 1).val = (q ⟨0, by decide⟩).val :=
  dot_S5000x8_S8x128_S5000x128_1_0_0_1_n_n.lhsIdx_val_of_single rfl i q
/-- … and the right operand at the contracted head … -/
theorem rhs_mm_0 (i : S5000x128.Idx) (q : dot_S5000x8_S8x128_S5000x128_1_0_0_1_n_n.contr.Idx) :
    (dot_S5000x8_S8x128_S5000x128_1_0_0_1_n_n.rhsIdx i q 0).val = (q ⟨0, by decide⟩).val :=
  dot_S5000x8_S8x128_S5000x128_1_0_0_1_n_n.rhsIdx_val_of_single rfl i q
/-- … down its column. -/
theorem rhs_mm_1 (i : S5000x128.Idx) (q : dot_S5000x8_S8x128_S5000x128_1_0_0_1_n_n.contr.Idx) :
    (dot_S5000x8_S8x128_S5000x128_1_0_0_1_n_n.rhsIdx i q 1).val = (i 1).val := by
  unfold DotDims.rhsIdx
  rw [dif_neg (show ¬(1 : Fin S8x128.rank) ∈ dot_S5000x8_S8x128_S5000x128_1_0_0_1_n_n.rhsBatch by decide), dif_pos (show (1 : Fin S8x128.rank) ∈ dot_S5000x8_S8x128_S5000x128_1_0_0_1_n_n.rhsNonContracting by decide)]
  rfl

/-- The matrix product into a zero accumulator, at row `p` and column `q`: the sum over the 8 heads. -/
theorem mm_apply (x : FVec Ideal S5000x8 .f32) (y : FVec Ideal S8x128 .f32) (p : Fin 5000) (q : Fin 128) :
    matmul dot_S5000x8_S8x128_S5000x128_1_0_0_1_n_n (some .fp32) x y (constant S5000x128 .f32 0x00000000#32) (ix2 p q)
      = ∑ g : Fin 8, x (ix2 p g) * y (ix2 g q) := by
  show FloatOps.matmul dot_S5000x8_S8x128_S5000x128_1_0_0_1_n_n (some .fp32) x y (constant S5000x128 .f32 0x00000000#32) (ix2 p q) = _
  rw [Ideal.matmul_constant_zero_apply, ← Equiv.sum_comp (ValueIdx.contrEquiv1 dot_S5000x8_S8x128_S5000x128_1_0_0_1_n_n 8 rfl rfl).symm]
  refine Finset.sum_congr rfl fun k _ => ?_
  have hk := ValueIdx.contrEquiv1_symm_val dot_S5000x8_S8x128_S5000x128_1_0_0_1_n_n 8 rfl rfl k
  have el : dot_S5000x8_S8x128_S5000x128_1_0_0_1_n_n.lhsIdx (ix2 p q) ((ValueIdx.contrEquiv1 dot_S5000x8_S8x128_S5000x128_1_0_0_1_n_n 8 rfl rfl).symm k) = ix2 p k := funext fun a => Fin.ext (by
    match a with
    | ⟨0, _⟩ => exact lhs_mm_0 _ _
    | ⟨1, _⟩ => exact (lhs_mm_1 _ _).trans hk)
  have er : dot_S5000x8_S8x128_S5000x128_1_0_0_1_n_n.rhsIdx (ix2 p q) ((ValueIdx.contrEquiv1 dot_S5000x8_S8x128_S5000x128_1_0_0_1_n_n 8 rfl rfl).symm k) = ix2 k q := funext fun a => Fin.ext (by
    match a with
    | ⟨0, _⟩ => exact (rhs_mm_0 _ _).trans hk
    | ⟨1, _⟩ => exact rhs_mm_1 _ _)
  rw [el, er]

/-- The body's one stored value at row `p` and column `q` of the block: the message entry divided by the
    weights' row spread over the columns, plus the small constant. -/
theorem pay_apply (v0 : Vec Ideal S5000x8 .f32) (v2 : Vec Ideal S8x128 .f32) (v4 : Vec Ideal S5000x128 .f32)
    (p : Fin 5000) (q : Fin 128) :
    k3_pay1 v0 v2 v4 (ix2 p q)
      = Ideal.div (v4 (ix2 p q)) ((∑ g : Fin 8, v0 (ix2 p g) * v2 (ix2 g q)) + Cert.Spec.eps) := by
  unfold k3_pay1
  simp only [shapeCast_self]
  rw [divf_apply, addf_apply, broadcast_apply, mm_apply]
  rfl

/-- The same at any entry `j` of the block. -/
theorem pay_at (v0 : Vec Ideal S5000x8 .f32) (v2 : Vec Ideal S8x128 .f32) (v4 : Vec Ideal S5000x128 .f32) (j : S5000x128.Idx) :
    k3_pay1 v0 v2 v4 j
      = Ideal.div (v4 j) ((∑ g : Fin 8, v0 (ix2 (j 0) g) * v2 (ix2 g (j 1))) + Cert.Spec.eps) := by
  obtain ⟨p, q, rfl⟩ : ∃ (p : Fin 5000) (q : Fin 128), j = ix2 p q := ⟨j 0, j 1, eq_ix2 j⟩
  exact pay_apply v0 v2 v4 p q

/-- A node's summed message in one column divided by the summed weight of the column's head spread over
    the columns by the 8 × 128 head-to-column matrix, plus the small constant. -/
def epi (a : S50000x128.Idx → EReal) (z : S50000x8.Idx → EReal) (pb : S8x128.Idx → EReal) : S50000x128.Idx → EReal :=
  fun i => Ideal.div (a i) ((∑ g : Fin 8, z (ix2 (i 0) g) * pb (ix2 g (i 1))) + Cert.Spec.eps)

theorem epi_apply (a : S50000x128.Idx → EReal) (z : S50000x8.Idx → EReal) (pb : S8x128.Idx → EReal) (i : S50000x128.Idx) :
    epi a z pb i = Ideal.div (a i) ((∑ g : Fin 8, z (ix2 (i 0) g) * pb (ix2 g (i 1))) + Cert.Spec.eps) := rfl

/-! ## From the row blocks to the array -/

/-- The three arrays the region reads, at their literal shapes. -/
abbrev aV (c : Dev nD) : S50000x128.Idx → EReal := V c main_v9
abbrev zA (c : Dev nD) : S50000x8.Idx → EReal := V c main_v12
abbrev pbA (c : Dev nD) : S8x128.Idx → EReal := V c main_cst_0

theorem hz : (![0, 0] : Fin 2 → Nat) = fun _ => 0 := funext fun a => by fin_cases a <;> rfl

/-- Grid point `t` works on row block `t` of the messages, of the weights and of the output, all columns, and on the
    whole head-to-column matrix. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What grid point `t` writes back is row block `t` of `epi` of the arrays the region found. -/
theorem flushed_eq (c : Dev nD) (t : Fin cfg3.N) :
    (Gen.dat3 (F := Ideal) V c).flushed 3 t
      = ((cfg3.win 3).blk t).view.read (Elt Ideal) (epi (V c main_v9) (V c main_v12) (V c main_cst_0)) := by
  show (cfg3.win 3).cut (grid3.coords t) ((Gen.dat3 (F := Ideal) V c).after 3 t) = _
  rw [after3_3]
  unfold out3_3
  rw [View.canon_unit_zero hz]
  simp only [View.ld_unit_zero (S := S5000x8) hz, View.ld_unit_zero (S := S8x128) hz, View.ld_unit_zero (S := S5000x128) hz]
  obtain ⟨e00, e01, e10, e11, e20, e21, e30, e31⟩ := idx_facts t
  funext j
  refine (pay_at (iblk3 V c 1 t) (iblk3 V c 2 t) (iblk3 V c 0 t) j).trans ?_
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  have h1 : ∀ g : Fin 8, ((cfg3.win 1).blk t).view.emb (ix2 (j 0) g) = ix2 (((cfg3.win 3).blk t).view.emb j 0) g := by
    intro g; funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 8 + 1 * g.val = g.val; omega
  have h2 : ∀ g : Fin 8, ((cfg3.win 2).blk t).view.emb (ix2 g (j 1)) = ix2 g (((cfg3.win 3).blk t).view.emb j 1) := by
    intro g; funext a; apply Fin.ext
    match a with
    | ⟨0, _⟩ => show win3_2.index t (0 : Fin 2) * 8 + 1 * g.val = g.val; omega
    | ⟨1, _⟩ => show win3_2.index t (1 : Fin 2) * 128 + 1 * (j 1).val = win3_3.index t (1 : Fin 2) * 128 + 1 * (j 1).val; omega
  show Ideal.div (aV V c (((cfg3.win 0).blk t).view.emb j))
      ((∑ g : Fin 8, zA V c (((cfg3.win 1).blk t).view.emb (ix2 (j 0) g)) * pbA V c (((cfg3.win 2).blk t).view.emb (ix2 g (j 1)))) + Cert.Spec.eps)
    = Ideal.div (aV V c (((cfg3.win 3).blk t).view.emb j))
      ((∑ g : Fin 8, zA V c (ix2 (((cfg3.win 3).blk t).view.emb j 0) g) * pbA V c (ix2 g (((cfg3.win 3).blk t).view.emb j 1))) + Cert.Spec.eps)
  rw [h0]
  simp only [h1, h2]
  rfl

/-- An index of the output array lies in point `t`'s block iff each coordinate lies in the block's range on its axis. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v13).slice (win3_3.rect t)).set ↔ _
  rw [View.set_slice_whole, Rect.mem_set_unit]
  exact Iff.rfl

/-- Node `r`'s row lies in the block of grid point `r / 5000`. -/
theorem cover (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨e00, e01, e10, e11, e20, e21, e30, e31⟩ := idx_facts t
  have ht : t.val = (i 0).val / 5000 := rfl
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The output array after the region: `epi` of the arrays the region found. -/
theorem final3_3 (c : Dev nD) :
    (Gen.dat3 (F := Ideal) V c).arrAt 3 cfg3.N = epi (V c main_v9) (V c main_v12) (V c main_cst_0) :=
  (Gen.dat3 (F := Ideal) V c).arrAt_eq_of_cover 3 (epi (V c main_v9) (V c main_v12) (V c main_cst_0))
    (fun t _ => flushed_eq V c t) cover

end Cert.KernelIdeal.Val3

end
-- ==== Proof.LibScatterGather.lean ====
/-
  Three host operations read at one element, for any extents: a gather of whole rows of a matrix at a column of row
  numbers, and an accumulating scatter into a vector or into the rows of a matrix at a column of positions.

  A gather clamps the row number it reads (signed) into the matrix; a scatter reads the position signed and does NOT
  clamp it: an update whose position is outside the target is dropped.  At the exact (extended-real) instance the
  accumulating scatter is the target's entry plus the sum of the updates that land on it.
-/
import Idealize.ShloMosaic.PureOps.Ideal
import Idealize.ShloMosaic.PureOps.Contract
import Idealize.ShloMosaic.Lib.ValueIdx
import Idealize.ShloMosaic.Lib.StableHlo.Predicate

noncomputable section

open scoped BigOperators

namespace Cert.LibSG

open Idealize.ShloMosaic Idealize.ShloMosaic.ValueIdx Idealize.ShloMosaic.StableHlo.Predicate

/-- Rows gathered from an [N × D] matrix at an [n × 1] column of row numbers: entry (p, f) of the result is the matrix's
    entry (row p's number read signed and clamped into [0, N − 1], f). -/
theorem gather_rows {α : Type} {N D n w : ℕ} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![n, 1]⟩ w) (p : Fin n) (f : Fin D) (hN : 0 < N) :
    Host.gather d x idx (ix2 p f) = x (ix2 (⟨min (idx (ixP p)).toInt.toNat (N - 1), by omega⟩ : Fin N) f) := by
  obtain ⟨od, cd, ob, sb, sm, iv, ss, wf⟩ := d
  dsimp only at hoff hcoll hob hsb hsim hivd hss
  subst hoff hcoll hob hsb hsim hivd hss
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin 1), (GatherDims.mk (s := ⟨2, ![N, D]⟩) (si := ⟨2, ![n, 1]⟩) (t := ⟨2, ![n, D]⟩) [1] [0] [] [] [0] 1 ![1, D] wf).siIdx (ix2 p f) c = ixP p := by
      intro c
      funext b; refine Fin.ext ?_
      match b with
      | ⟨0, _⟩ => rfl
      | ⟨1, _⟩ => exact Nat.lt_one_iff.mp c.isLt
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ [0] by decide)]
    simp only [Nat.zero_add]
    rfl

/-- An update lands on operand index i exactly when, on every axis, its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · next h =>
    constructor
    · intro e a
      have e' := congrArg (fun g : s.Idx => (g a).val) (Option.some.inj e)
      simp only at e'
      have := h a
      omega
    · intro e
      congr 1
      funext a
      refine Fin.ext ?_
      have := e a
      simp only
      omega
  · next h =>
    constructor
    · intro e; cases e
    · intro e
      exfalso
      apply h
      intro a
      have := e a
      have := (i a).isLt
      omega

/-- An accumulating scatter into an [N] vector at an [n × 1] column of positions, at the exact instance: entry i is the
    target's entry plus the sum of the updates whose position, read signed, is i. -/
theorem scatterAdd_flat {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![n, 1]⟩ w) (upd : FVec Ideal ⟨1, ![n]⟩ .f32) (i : Fin N) :
    Host.scatterAdd (F := Ideal) d x idx upd (ix1 i)
      = x (ix1 i) + ∑ e ∈ Finset.univ.filter (fun e : Fin n => (idx (ixP e)).toInt = (i.val : ℤ)), upd (ix1 e) := by
  obtain ⟨uw, iw, sd, iv, wf⟩ := d
  dsimp only at huw hiw hsd hivd
  subst huw hiw hsd hivd
  have hstart : ∀ j : (⟨1, ![n]⟩ : Shape).Idx,
      (ScatterDims.mk (s := ⟨1, ![N]⟩) (si := ⟨2, ![n, 1]⟩) (u := ⟨1, ![n]⟩) [] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hwin : ∀ j : (⟨1, ![n]⟩ : Shape).Idx,
      (ScatterDims.mk (s := ⟨1, ![N]⟩) (si := ⟨2, ![n, 1]⟩) (u := ⟨1, ![n]⟩) [] [0] [0] 1 wf).window j 0 = 0 := by
    intro j
    unfold ScatterDims.window
    exact dif_neg (show (0 : Fin 1) ∉ (List.finRange 1).filter (fun a => a ∉ [(0 : Fin 1)]) by decide)
  have hiff : ∀ j : (⟨1, ![n]⟩ : Shape).Idx,
      (ScatterDims.mk (s := ⟨1, ![N]⟩) (si := ⟨2, ![n, 1]⟩) (u := ⟨1, ![n]⟩) [] [0] [0] 1 wf).resultIdx? j idx = some (ix1 i)
        ↔ (idx (ixP (j 0))).toInt = (i.val : ℤ) := by
    intro j
    rw [resultIdx?_eq_some_iff, Fin.forall_fin_one, hstart, hwin]
    simp
  show x (ix1 i) + _ = _
  congr 1
  refine Finset.sum_nbij' (fun j => j 0) (fun e => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg upd (eq_ix1 j)

/-- An accumulating scatter of [n × D] rows into the rows of an [N × D] matrix at an [n × 1] column of row positions, at
    the exact instance: entry (i, f) is the target's entry plus the sum, over the update rows whose position read signed
    is i, of their entry f. -/
theorem scatterAdd_rows {N D n w : ℕ} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : FVec Ideal ⟨2, ![N, D]⟩ .f32) (idx : IVec ⟨2, ![n, 1]⟩ w) (upd : FVec Ideal ⟨2, ![n, D]⟩ .f32) (i : Fin N) (f : Fin D) :
    Host.scatterAdd (F := Ideal) d x idx upd (ix2 i f)
      = x (ix2 i f) + ∑ e ∈ Finset.univ.filter (fun e : Fin n => (idx (ixP e)).toInt = (i.val : ℤ)), upd (ix2 e f) := by
  obtain ⟨uw, iw, sd, iv, wf⟩ := d
  dsimp only at huw hiw hsd hivd
  subst huw hiw hsd hivd
  have hstart0 : ∀ j : (⟨2, ![n, D]⟩ : Shape).Idx,
      (ScatterDims.mk (s := ⟨2, ![N, D]⟩) (si := ⟨2, ![n, 1]⟩) (u := ⟨2, ![n, D]⟩) [1] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hstart1 : ∀ j : (⟨2, ![n, D]⟩ : Shape).Idx,
      (ScatterDims.mk (s := ⟨2, ![N, D]⟩) (si := ⟨2, ![n, 1]⟩) (u := ⟨2, ![n, D]⟩) [1] [0] [0] 1 wf).start j idx 1 = 0 := by
    intro j
    unfold ScatterDims.start
    rw [dif_neg (show (1 : Fin 2) ∉ [0] by decide)]
  have hwin0 : ∀ j : (⟨2, ![n, D]⟩ : Shape).Idx,
      (ScatterDims.mk (s := ⟨2, ![N, D]⟩) (si := ⟨2, ![n, 1]⟩) (u := ⟨2, ![n, D]⟩) [1] [0] [0] 1 wf).window j 0 = 0 := by
    intro j
    unfold ScatterDims.window
    exact dif_neg (show (0 : Fin 2) ∉ (List.finRange 2).filter (fun a => a ∉ [(0 : Fin 2)]) by decide)
  have hwin1 : ∀ j : (⟨2, ![n, D]⟩ : Shape).Idx,
      (ScatterDims.mk (s := ⟨2, ![N, D]⟩) (si := ⟨2, ![n, 1]⟩) (u := ⟨2, ![n, D]⟩) [1] [0] [0] 1 wf).window j 1 = (j 1).val := by
    intro j
    unfold ScatterDims.window
    exact (dif_pos (show (1 : Fin 2) ∈ (List.finRange 2).filter (fun a => a ∉ [(0 : Fin 2)]) by decide)).trans rfl
  have hiff : ∀ j : (⟨2, ![n, D]⟩ : Shape).Idx,
      (ScatterDims.mk (s := ⟨2, ![N, D]⟩) (si := ⟨2, ![n, 1]⟩) (u := ⟨2, ![n, D]⟩) [1] [0] [0] 1 wf).resultIdx? j idx = some (ix2 i f)
        ↔ (idx (ixP (j 0))).toInt = (i.val : ℤ) ∧ j 1 = f := by
    intro j
    rw [resultIdx?_eq_some_iff, Fin.forall_fin_two, hstart0, hwin0, hstart1, hwin1]
    show (idx (ixP (j 0))).toInt + ((0 : ℕ) : ℤ) = (i.val : ℤ) ∧ (0 : ℤ) + ((j 1).val : ℤ) = (f.val : ℤ) ↔ _
    constructor
    · rintro ⟨h0, h1⟩
      exact ⟨by omega, Fin.ext (by omega)⟩
    · rintro ⟨h0, h1⟩
      subst h1
      exact ⟨by omega, by omega⟩
  show x (ix2 i f) + _ = _
  congr 1
  refine Finset.sum_nbij' (fun j => j 0) (fun e => ix2 e f) ?_ ?_ ?_ ?_ ?_
  · intro j hj
    exact Finset.mem_filter.2 ⟨Finset.mem_univ _, ((hiff j).1 (Finset.mem_filter.1 hj).2).1⟩
  · intro e he
    exact Finset.mem_filter.2 ⟨Finset.mem_univ _, (hiff (ix2 e f)).2 ⟨(Finset.mem_filter.1 he).2, rfl⟩⟩
  · intro j hj
    have h1 := ((hiff j).1 (Finset.mem_filter.1 hj).2).2
    rw [← h1]
    exact (eq_ix2 j).symm
  · intro e _
    rfl
  · intro j hj
    have h1 := ((hiff j).1 (Finset.mem_filter.1 hj).2).2
    rw [← h1]
    exact congrArg upd (eq_ix2 j)

end Cert.LibSG

end
-- ==== Proof.KHost.lean ====
/-
  The host operations the kernel program runs between its regions, each stretch read at one element of its result for
  any contents before it: the two matrices laid side by side ([Wq | Wk], [k | v]); the two constant 0/1 tables; the rows
  taken at the source and at the destination entries (for an entry in the node range the wrap, the range mask and the
  clamp are all the identity, so the row taken is the row of the node the entry names); the two accumulating scatters
  into zero arrays (entry (n, ·) is the sum over the edges whose destination is n); and the reshape that splits the 128
  columns into 8 heads of 16.
-/
import proofs.«409143_j74148315398272_3_alg».proof.Proof.Gen.KernelIdeal.Launch
import proofs.«409143_j74148315398272_3_alg».proof.Proof.Spec
import proofs.«409143_j74148315398272_3_alg».proof.Proof.LibScatterGather
import proofs.«409143_j74148315398272_3_alg».proof.Proof.PreDecode
import Idealize.ShloMosaic.Lib.StableHlo.Run
import Idealize.ShloMosaic.Lib.StableHlo.Predicate
import Idealize.ShloMosaic.Lib.ValueIdx
import Idealize.ShloMosaic.Lib.Pipeline.Value
import Idealize.ShloMosaic.PureOps.Ideal.Laws

noncomputable section

open scoped BigOperators

namespace Cert.KernelIdeal.Host

open Idealize.ShloMosaic Idealize.ShloMosaic.ValueIdx Idealize.ShloMosaic.StableHlo.Predicate
open Cert.KernelIdeal Cert.KernelIdeal.Gen

/-- Two [R × 128] matrices laid side by side: column j of the result is column j of the first below 128, and column
    j − 128 of the second from 128 on. -/
theorem concat_cols {α : Type} {R : ℕ}
    (hc : Shape.Concatenates [(⟨2, ![R, 128]⟩ : Shape), (⟨2, ![R, 128]⟩ : Shape)] ⟨2, ![R, 256]⟩ 1)
    (a b : (⟨2, ![R, 128]⟩ : Shape).Idx → α) (r : Fin R) (j : Fin 256) :
    concatenate ⟨2, ![R, 256]⟩ 1 [⟨(⟨2, ![R, 128]⟩ : Shape), a⟩, ⟨(⟨2, ![R, 128]⟩ : Shape), b⟩] hc (ix2 r j)
      = if h : j.val < 128 then a (ix2 r ⟨j.val, h⟩) else b (ix2 r ⟨j.val - 128, by have := j.isLt; omega⟩) := by
  split
  · next h =>
    refine concatenate_pair_apply_left (1 : Fin 2) a b hc (ix2 r j) rfl (ix2 r ⟨j.val, h⟩) ?_
    intro c
    match c with
    | ⟨0, _⟩ => rfl
    | ⟨1, _⟩ => rfl
  · next h =>
    refine concatenate_pair_apply_right (1 : Fin 2) a b hc (ix2 r j) rfl rfl
      (ix2 r ⟨j.val - 128, by have := j.isLt; omega⟩) ?_ ?_
    · intro c hne
      match c with
      | ⟨0, _⟩ => rfl
      | ⟨1, _⟩ => exact absurd rfl hne
    · show j.val - 128 + 128 = j.val
      omega

/-- The rank-1 index at a coordinate, in its two spellings. -/
theorem ofFin_eq_ix1 {n : ℕ} (e : Fin n) : Shape.Idx.ofFin e = ix1 e := by
  funext a
  match a with
  | ⟨0, _⟩ => rfl

/-- An accumulating scatter of [800000 × D] rows into an all-zero [50000 × D] matrix, at the column of positions made of a
    vector of destinations: entry (n, f) is the sum of entry f of the rows whose destination, read signed, is n. -/
theorem scatter_rows_zero {D : ℕ}
    (d : ScatterDims ⟨2, ![50000, D]⟩ ⟨2, ![800000, 1]⟩ ⟨2, ![800000, D]⟩)
    (huw : d.updateWindowDims = [1]) (hiw : d.insertedWindowDims = [0]) (hsd : d.scatterDimsToOperandDims = [0])
    (hivd : d.indexVectorDim = 1)
    (hb0 : (⟨0, ![]⟩ : Shape).BroadcastsInDim ⟨2, ![50000, D]⟩ ![])
    (hb1 : (⟨1, ![800000]⟩ : Shape).BroadcastsInDim ⟨2, ![800000, 1]⟩ ![0])
    (dst : IVec ⟨1, ![800000]⟩ 32) (upd : FVec Ideal ⟨2, ![800000, D]⟩ .f32) (n : Fin 50000) (f : Fin D) :
    Host.scatterAdd (F := Ideal) d
        (broadcastInDim ⟨2, ![50000, D]⟩ ![] hb0 (constant (F := Ideal) ⟨0, ![]⟩ .f32 0x00000000#32))
        (broadcastInDim ⟨2, ![800000, 1]⟩ ![0] hb1 dst) upd (ix2 n f)
      = ∑ e ∈ Cert.Spec.lands dst n, upd (ix2 e f) := by
  rw [Cert.LibSG.scatterAdd_rows d huw hiw hsd hivd, bcast_scalar hb0 (by decide), constant_apply,
    Ideal.ofBits_zero_f32, zero_add]
  refine Finset.sum_congr ?_ (fun _ _ => rfl)
  unfold Cert.Spec.lands
  refine Finset.filter_congr (fun e _ => ?_)
  rw [bcast_col1, ofFin_eq_ix1]

/-- A vector laid along the first axis of an [n × D] rectangle reads, at (p, q), the vector at p. -/
theorem bcast_along_rows {α : Type} {n D : ℕ} (h : (⟨1, ![n]⟩ : Shape).BroadcastsInDim ⟨2, ![n, D]⟩ ![0])
    (v : (⟨1, ![n]⟩ : Shape).Idx → α) (p : Fin n) (q : Fin D) :
    broadcastInDim ⟨2, ![n, D]⟩ ![0] h v (ix2 p q) = v (ix1 p) := by
  refine broadcastInDim_apply _ h v (ix2 p q) (ix1 p) ?_
  intro a
  match a with
  | ⟨0, _⟩ =>
    split
    · next h1 => change n = 1 at h1; have := p.isLt; show p.val = 0; omega
    · rfl

/-- Contents moved to a typed reference's buffer type and back are unchanged. -/
theorem ofBuf_toBuf {σ : RefSig} {Val : EltTy → Type} {T : BufTy} (x : StableHlo.TRef σ T) (v : T.Contents Val) :
    x.ofBuf (x.toBuf v) = v := by
  obtain ⟨r, h, _, _⟩ := x
  subst h
  rfl

/-- Rows taken from a [50000 × D] matrix at a vector of row numbers that lie in [0, 50000): the wrap of a negative
    number is the identity, the out-of-range mask is one, the clamp is the identity, so entry (e, j) of the result is
    the matrix's entry (the node entry e names, j). -/
theorem take_rows {D : ℕ}
    (dG : GatherDims ⟨2, ![50000, D]⟩ ⟨2, ![800000, 1]⟩ ⟨2, ![800000, D]⟩)
    (hoff : dG.offsetDims = [1]) (hcoll : dG.collapsedSliceDims = [0]) (hob : dG.operandBatchingDims = [])
    (hsb : dG.startIndicesBatchingDims = []) (hsim : dG.startIndexMap = [0]) (hivd : dG.indexVectorDim = 1)
    (hss : dG.sliceSizes = ![1, D])
    (hbS : (⟨0, ![]⟩ : Shape).BroadcastsInDim ⟨1, ![800000]⟩ ![])
    (hbC : (⟨1, ![800000]⟩ : Shape).BroadcastsInDim ⟨2, ![800000, 1]⟩ ![0])
    (hb1 : (⟨0, ![]⟩ : Shape).BroadcastsInDim ⟨2, ![800000, 1]⟩ ![])
    (hb2 : (⟨1, ![1]⟩ : Shape).BroadcastsInDim ⟨2, ![1, 1]⟩ ![1])
    (hb3 : (⟨2, ![1, 1]⟩ : Shape).BroadcastsInDim ⟨2, ![800000, 1]⟩ ![0, 1])
    (hred : (⟨2, ![800000, 1]⟩ : Shape).ReducesTo [1] ⟨1, ![800000]⟩) (hpos : 0 < (⟨0, ![]⟩ : Shape).numel)
    (hbM : (⟨1, ![800000]⟩ : Shape).BroadcastsInDim ⟨2, ![800000, D]⟩ ![0])
    (hbN : (⟨0, ![]⟩ : Shape).BroadcastsInDim ⟨2, ![800000, D]⟩ ![])
    (x : FVec Ideal ⟨2, ![50000, D]⟩ .f32) (s : IVec ⟨1, ![800000]⟩ 32) (e : Fin 800000) (j : Fin D)
    (h0 : 0 ≤ (s (ix1 e)).toInt) (h1 : (s (ix1 e)).toInt < 50000) :
    select
        (broadcastInDim ⟨2, ![800000, D]⟩ ![0] hbM
          (Host.reduce IntOp.andi
            (andi
              (cmpi .sge
                (broadcastInDim ⟨2, ![800000, 1]⟩ ![0] hbC
                  (select (cmpi .slt s (broadcastInDim ⟨1, ![800000]⟩ ![] hbS (constantI ⟨0, ![]⟩ 32 0#32)))
                    (addi s (broadcastInDim ⟨1, ![800000]⟩ ![] hbS (constantI ⟨0, ![]⟩ 32 50000#32))) s))
                (broadcastInDim ⟨2, ![800000, 1]⟩ ![] hb1 (constantI ⟨0, ![]⟩ 32 0#32)))
              (cmpi .sle
                (broadcastInDim ⟨2, ![800000, 1]⟩ ![0] hbC
                  (select (cmpi .slt s (broadcastInDim ⟨1, ![800000]⟩ ![] hbS (constantI ⟨0, ![]⟩ 32 0#32)))
                    (addi s (broadcastInDim ⟨1, ![800000]⟩ ![] hbS (constantI ⟨0, ![]⟩ 32 50000#32))) s))
                (broadcastInDim ⟨2, ![800000, 1]⟩ ![0, 1] hb3
                  (broadcastInDim ⟨2, ![1, 1]⟩ ![1] hb2 (constantI ⟨1, ![1]⟩ 32 49999#32)))))
            (constantI ⟨0, ![]⟩ 1 1#1) hred hpos))
        (Host.gather dG x
          (broadcastInDim ⟨2, ![800000, 1]⟩ ![0] hbC
            (select (cmpi .slt s (broadcastInDim ⟨1, ![800000]⟩ ![] hbS (constantI ⟨0, ![]⟩ 32 0#32)))
              (addi s (broadcastInDim ⟨1, ![800000]⟩ ![] hbS (constantI ⟨0, ![]⟩ 32 50000#32))) s)))
        (broadcastInDim ⟨2, ![800000, D]⟩ ![] hbN (constant (F := Ideal) ⟨0, ![]⟩ .f32 0x7FC00000#32)) (ix2 e j)
      = x (ix2 (Cert.Spec.node s e) j) := by
  -- the column of start indices at (e, 0) is the entry itself
  have hcol : broadcastInDim ⟨2, ![800000, 1]⟩ ![0] hbC
      (select (cmpi .slt s (broadcastInDim ⟨1, ![800000]⟩ ![] hbS (constantI ⟨0, ![]⟩ 32 0#32)))
        (addi s (broadcastInDim ⟨1, ![800000]⟩ ![] hbS (constantI ⟨0, ![]⟩ 32 50000#32))) s) (ixP e) = s (ix1 e) := by
    rw [bcast_col1, ofFin_eq_ix1, Cert.PreDecode.wrap_apply hbS s e h0]
  rw [select_apply, bcast_along_rows,
    Cert.PreDecode.mask_apply hb1 hb2 hb3 hred hpos _ e (by rw [hcol]; exact h0) (by rw [hcol]; exact h1),
    select_one, Cert.LibSG.gather_rows dG hoff hcoll hob hsb hsim hivd hss x _ e j (by decide)]
  refine congrArg (fun r => x (ix2 r j)) (Fin.ext ?_)
  show min _ (50000 - 1) = min (s (ix1 e)).toInt.toNat 49999
  rw [hcol]

/-- The reshape [50000 × 128] → [50000 × 8 × 16]: entry (n, g, d) is entry (n, 16 g + d). -/
theorem reshape_out (W : Valuation τ sig (Elt Ideal)) (n : Fin 50000) (g : Fin 8) (d : Fin 16) :
    (StableHlo.after (hostOps4 (F := Ideal)) W (Proc.devRef .tc main_v14) : FVec Ideal S50000x8x16 .f32) (ix3 n g d)
      = (W (Proc.devRef .tc main_v13) : FVec Ideal S50000x128 .f32) (ix2 n (Cert.Spec.col g d)) := by
  dsimp only [hostOps4]
  after_results
  show shapeCast S50000x8x16 (W (Proc.devRef .tc main_v13) : FVec Ideal S50000x128 .f32)
      shapeCasts_S50000x128_S50000x8x16 (ix3 n g d) = _
  refine shapeCast_apply _ _ _ (ix2 n (Cert.Spec.col g d)) ?_
  rw [Shape.rowMajor_val_two, Shape.rowMajor_val_three]
  show n.val * 128 + (16 * g.val + d.val) = (n.val * 8 + g.val) * 16 + d.val
  omega

/-- [k | v]: column j of row n is k's below 128 and v's column j − 128 from 128 on. -/
theorem concat_kv (W : Valuation τ sig (Elt Ideal)) (n : Fin 50000) (j : Fin 256) :
    (StableHlo.after (hostOps2 (F := Ideal)) W (Proc.devRef .tc main_v3) : FVec Ideal S50000x256 .f32) (ix2 n j)
      = if h : j.val < 128 then (W (Proc.devRef .tc main_v1_1) : FVec Ideal S50000x128 .f32) (ix2 n ⟨j.val, h⟩)
        else (W (Proc.devRef .tc main_v2) : FVec Ideal S50000x128 .f32) (ix2 n ⟨j.val - 128, by have := j.isLt; omega⟩) := by
  dsimp only [hostOps2]
  after_results
  exact concat_cols _ _ _ n j

/-- [Wq | Wk]: column j of row t is Wq's below 128 and Wk's column j − 128 from 128 on. -/
theorem concat_wqk (W : Valuation τ sig (Elt Ideal)) (t : Fin 128) (j : Fin 256) :
    (StableHlo.after (hostOps0 (F := Ideal)) W (Proc.devRef .tc main_v0) : FVec Ideal S128x256 .f32) (ix2 t j)
      = if h : j.val < 128 then (W (Proc.devRef .tc main_arg3) : FVec Ideal S128x128 .f32) (ix2 t ⟨j.val, h⟩)
        else (W (Proc.devRef .tc main_arg4) : FVec Ideal S128x128 .f32) (ix2 t ⟨j.val - 128, by have := j.isLt; omega⟩) := by
  dsimp only [hostOps0]
  after_results
  exact concat_cols _ _ _ t j

/-- The first constant table, entry by entry: the literal's row-major element. -/
theorem table_pr (W : Valuation τ sig (Elt Ideal)) (t : Fin 128) (g : Fin 8) :
    (StableHlo.after (hostOps0 (F := Ideal)) W (Proc.devRef .tc main_cst) : FVec Ideal S128x8 .f32) (ix2 t g)
      = FloatOps.ofBits (F := Ideal) .f32 (lit0 (S128x8.rowMajor (ix2 t g))) := by
  dsimp only [hostOps0]
  after_results

/-- The second constant table, entry by entry: the literal's row-major element. -/
theorem table_pb (W : Valuation τ sig (Elt Ideal)) (g : Fin 8) (t : Fin 128) :
    (StableHlo.after (hostOps0 (F := Ideal)) W (Proc.devRef .tc main_cst_0) : FVec Ideal S8x128 .f32) (ix2 g t)
      = FloatOps.ofBits (F := Ideal) .f32 (lit1 (S8x128.rowMajor (ix2 g t))) := by
  dsimp only [hostOps0]
  after_results

/-- The scattered messages: entry (n, j) is the sum of entry (e, j) over the edges e whose destination is n. -/
theorem scatter_msg (W : Valuation τ sig (Elt Ideal)) (n : Fin 50000) (j : Fin 128) :
    (StableHlo.after (hostOps3 (F := Ideal)) W (Proc.devRef .tc main_v9) : FVec Ideal S50000x128 .f32) (ix2 n j)
      = (∑ e ∈ Cert.Spec.lands (W (Proc.devRef .tc main_arg8) : IVec S800000 32) n,
          (W (Proc.devRef .tc main_v6_0) : FVec Ideal S800000x128 .f32) (ix2 e j) : EReal) := by
  dsimp only [hostOps3]
  after_results
  exact scatter_rows_zero _ rfl rfl rfl rfl _ _ _ _ n j

/-- The scattered weights: entry (n, g) is the sum of entry (e, g) over the edges e whose destination is n. -/
theorem scatter_wgt (W : Valuation τ sig (Elt Ideal)) (n : Fin 50000) (g : Fin 8) :
    (StableHlo.after (hostOps3 (F := Ideal)) W (Proc.devRef .tc main_v12) : FVec Ideal S50000x8 .f32) (ix2 n g)
      = (∑ e ∈ Cert.Spec.lands (W (Proc.devRef .tc main_arg8) : IVec S800000 32) n,
          (W (Proc.devRef .tc main_v6_1) : FVec Ideal S800000x8 .f32) (ix2 e g) : EReal) := by
  dsimp only [hostOps3]
  after_results
  exact scatter_rows_zero _ rfl rfl rfl rfl _ _ _ _ n g

/-- The rows of [k | v] taken at the source entries: for an entry in the node range, row e is the row of the node the
    entry names. -/
theorem take_src (W : Valuation τ sig (Elt Ideal)) (e : Fin 800000) (j : Fin 256)
    (h0 : 0 ≤ ((W (Proc.devRef .tc main_arg7) : IVec S800000 32) (ix1 e)).toInt)
    (h1 : ((W (Proc.devRef .tc main_arg7) : IVec S800000 32) (ix1 e)).toInt < 50000) :
    (StableHlo.after (hostOps2_1 (F := Ideal)) W (Proc.devRef .tc main_v4) : FVec Ideal S800000x256 .f32) (ix2 e j)
      = (W (Proc.devRef .tc main_v3) : FVec Ideal S50000x256 .f32)
          (ix2 (Cert.Spec.node (W (Proc.devRef .tc main_arg7) : IVec S800000 32) e) j) := by
  have hA : (StableHlo.TRef.of main_arg7 : StableHlo.TRef sig ⟨S800000, .i32⟩).ofBuf (Val := Elt Ideal)
      (W (Proc.devRef .tc main_arg7)) = (W (Proc.devRef .tc main_arg7) : IVec S800000 32) := rfl
  have hX : (StableHlo.TRef.of main_v3 : StableHlo.TRef sig ⟨S50000x256, .f32⟩).ofBuf (Val := Elt Ideal)
      (W (Proc.devRef .tc main_v3)) = (W (Proc.devRef .tc main_v3) : FVec Ideal S50000x256 .f32) := rfl
  have key := take_rows gather_S50000x256_S800000x1_S800000x256_1_0_n_n_0_1_1256 rfl rfl rfl rfl rfl rfl rfl
    bcast_S_S800000 bcast_S800000_S800000x1_0 bcast_S_S800000x1 bcast_S1_S1x1_1 bcast_S1x1_S800000x1_0_1
    reducesTo_S800000x1_S800000_d1 h_S_ bcast_S800000_S800000x256_0 bcast_S_S800000x256
    (W (Proc.devRef .tc main_v3)) (W (Proc.devRef .tc main_arg7)) e j h0 h1
  show (StableHlo.TRef.of main_v4 : StableHlo.TRef sig ⟨S800000x256, .f32⟩).ofBuf (Val := Elt Ideal)
      (StableHlo.after (hostOps2_1 (F := Ideal)) W (Proc.devRef .tc main_v4)) (ix2 e j) = _
  dsimp only [hostOps2_1]
  after_results_simp
  simp only [ofBuf_toBuf]
  rw [hA, hX]
  exact key

/-- The rows of q taken at the destination entries: for an entry in the node range, row e is the row of the node the
    entry names. -/
theorem take_dst (W : Valuation τ sig (Elt Ideal)) (e : Fin 800000) (j : Fin 128)
    (h0 : 0 ≤ ((W (Proc.devRef .tc main_arg8) : IVec S800000 32) (ix1 e)).toInt)
    (h1 : ((W (Proc.devRef .tc main_arg8) : IVec S800000 32) (ix1 e)).toInt < 50000) :
    (StableHlo.after (hostOps2_2 (F := Ideal)) W (Proc.devRef .tc main_v5) : FVec Ideal S800000x128 .f32) (ix2 e j)
      = (W (Proc.devRef .tc main_v1_0) : FVec Ideal S50000x128 .f32)
          (ix2 (Cert.Spec.node (W (Proc.devRef .tc main_arg8) : IVec S800000 32) e) j) := by
  have hA : (StableHlo.TRef.of main_arg8 : StableHlo.TRef sig ⟨S800000, .i32⟩).ofBuf (Val := Elt Ideal)
      (W (Proc.devRef .tc main_arg8)) = (W (Proc.devRef .tc main_arg8) : IVec S800000 32) := rfl
  have hX : (StableHlo.TRef.of main_v1_0 : StableHlo.TRef sig ⟨S50000x128, .f32⟩).ofBuf (Val := Elt Ideal)
      (W (Proc.devRef .tc main_v1_0)) = (W (Proc.devRef .tc main_v1_0) : FVec Ideal S50000x128 .f32) := rfl
  have key := take_rows gather_S50000x128_S800000x1_S800000x128_1_0_n_n_0_1_1128 rfl rfl rfl rfl rfl rfl rfl
    bcast_S_S800000 bcast_S800000_S800000x1_0 bcast_S_S800000x1 bcast_S1_S1x1_1 bcast_S1x1_S800000x1_0_1
    reducesTo_S800000x1_S800000_d1 h_S_ bcast_S800000_S800000x128_0 bcast_S_S800000x128
    (W (Proc.devRef .tc main_v1_0)) (W (Proc.devRef .tc main_arg8)) e j h0 h1
  show (StableHlo.TRef.of main_v5 : StableHlo.TRef sig ⟨S800000x128, .f32⟩).ofBuf (Val := Elt Ideal)
      (StableHlo.after (hostOps2_2 (F := Ideal)) W (Proc.devRef .tc main_v5)) (ix2 e j) = _
  dsimp only [hostOps2_2]
  after_results_simp
  simp only [ofBuf_toBuf]
  rw [hA, hX]
  exact key

end Cert.KernelIdeal.Host

end
-- ==== Proof.Selectors.lean ====
/-
  The two constant selector tables of the kernel program.  Entry (t, g) of the 128 × 8 table is 1 when column t lies in
  head g (t / 16 = g) and 0 otherwise; the 8 × 128 table is its transpose.  A sum against the first adds up the 16
  columns of one head; a sum against the second picks the value of a column's head.
-/
import proofs.«409143_j74148315398272_3_alg».proof.KernelIdeal
import proofs.«409143_j74148315398272_3_alg».proof.Proof.Spec
import Idealize.ShloMosaic.PureOps.Ideal
import Idealize.ShloMosaic.Lib.ValueIdx

noncomputable section

open scoped BigOperators

namespace Cert.Selectors

open Idealize.ShloMosaic Idealize.ShloMosaic.ValueIdx

/-! ## The words of the tables -/

/-- The word at flat position 8·t + g of the 128 × 8 table: the word of 1.0 when t / 16 = g, the zero word otherwise. -/
theorem lit0t_word : ∀ (t : Fin 128) (g : Fin 8),
    Cert.KernelIdeal.lit0t (t.val * 8 + g.val) = if t.val / 16 = g.val then 0x3F800000#32 else 0x00000000#32 := by
  decide +kernel

/-- The word at flat position 128·g + t of the 8 × 128 table: the word of 1.0 when t / 16 = g, the zero word otherwise. -/
theorem lit1t_word : ∀ (g : Fin 8) (t : Fin 128),
    Cert.KernelIdeal.lit1t (g.val * 128 + t.val) = if t.val / 16 = g.val then 0x3F800000#32 else 0x00000000#32 := by
  decide +kernel

/-- The word 0x3F800000 is the number 1. -/
theorem ofBits_one_f32 : Ideal.ofBits .f32 0x3F800000#32 = 1 := by
  simp [Ideal.ofBits, Ideal.ieee, -EReal.coe_mul]; norm_num

/-- The zero word is the number 0. -/
theorem ofBits_zero_word : Ideal.ofBits .f32 0x00000000#32 = 0 := by
  simp [Ideal.ofBits, Ideal.ieee]

/-- Either word read as a number: 1 when the condition holds, 0 otherwise. -/
theorem ofBits_word (c : Prop) [Decidable c] :
    Ideal.ofBits .f32 (if c then 0x3F800000#32 else 0x00000000#32) = if c then (1 : EReal) else 0 := by
  by_cases h : c
  · rw [if_pos h, if_pos h, ofBits_one_f32]
  · rw [if_neg h, if_neg h, ofBits_zero_word]

/-- A column lies in head g exactly when its number divided by 16 is g. -/
theorem head_eq_iff (t : Fin 128) (g : Fin 8) : Cert.Spec.head t = g ↔ t.val / 16 = g.val := by
  constructor
  · intro h; exact congrArg Fin.val h
  · intro h; exact Fin.ext h

/-! ## The tables' entries -/

theorem pr_apply (t : Fin 128) (g : Fin 8) :
    (FloatOps.ofBits (F := Ideal) .f32 (Cert.KernelIdeal.lit0 (Cert.KernelIdeal.S128x8.rowMajor (ix2 t g))) : EReal)
      = if Cert.Spec.head t = g then 1 else 0 := by
  have hpos : (Cert.KernelIdeal.S128x8.rowMajor (ix2 t g) : Fin 1024) = (⟨t.val * 8 + g.val, by omega⟩ : Fin 1024) :=
    Fin.ext (by rw [Shape.rowMajor_val_two]; rfl)
  rw [hpos]
  show Ideal.ofBits .f32 (Cert.KernelIdeal.lit0t (t.val * 8 + g.val)) = _
  rw [lit0t_word, ofBits_word]
  exact if_congr (head_eq_iff t g).symm rfl rfl

theorem pb_apply (g : Fin 8) (t : Fin 128) :
    (FloatOps.ofBits (F := Ideal) .f32 (Cert.KernelIdeal.lit1 (Cert.KernelIdeal.S8x128.rowMajor (ix2 g t))) : EReal)
      = if Cert.Spec.head t = g then 1 else 0 := by
  have hpos : (Cert.KernelIdeal.S8x128.rowMajor (ix2 g t) : Fin 1024) = (⟨g.val * 128 + t.val, by omega⟩ : Fin 1024) :=
    Fin.ext (by rw [Shape.rowMajor_val_two]; rfl)
  rw [hpos]
  show Ideal.ofBits .f32 (Cert.KernelIdeal.lit1t (g.val * 128 + t.val)) = _
  rw [lit1t_word, ofBits_word]
  exact if_congr (head_eq_iff t g).symm rfl rfl

/-! ## Sums against the tables -/

/-- A sum against a column of the 128 × 8 table adds up the 16 columns of the head. -/
theorem sum_mul_pr (f : Fin 128 → EReal) (g : Fin 8) :
    ∑ t : Fin 128, f t * (if Cert.Spec.head t = g then (1 : EReal) else 0) = ∑ d : Fin 16, f (Cert.Spec.col g d) := by
  simp only [mul_ite, mul_one, mul_zero]
  rw [← Finset.sum_filter]
  symm
  refine Finset.sum_nbij' (fun d => Cert.Spec.col g d) (fun t => (⟨t.val % 16, Nat.mod_lt _ (by norm_num)⟩ : Fin 16))
    ?_ ?_ ?_ ?_ ?_
  · intro d _
    exact Finset.mem_filter.2 ⟨Finset.mem_univ _, Cert.Spec.head_col g d⟩
  · intro t _
    exact Finset.mem_univ _
  · intro d _
    apply Fin.ext
    show (16 * g.val + d.val) % 16 = d.val
    omega
  · intro t ht
    have h : t.val / 16 = g.val := (head_eq_iff t g).1 (Finset.mem_filter.1 ht).2
    apply Fin.ext
    show 16 * g.val + t.val % 16 = t.val
    omega
  · intro d _
    rfl

/-- A sum against a column of the 8 × 128 table picks the value at the column's head. -/
theorem sum_mul_pb (w : Fin 8 → EReal) (t : Fin 128) :
    ∑ g : Fin 8, w g * (if Cert.Spec.head t = g then (1 : EReal) else 0) = w (Cert.Spec.head t) := by
  simp only [mul_ite, mul_one, mul_zero]
  rw [Finset.sum_ite_eq]
  exact if_pos (Finset.mem_univ _)

end Cert.Selectors

end
-- ==== Proof.KChain.lean ====
/-
  What the kernel program's two result arrays hold when it ends, as the specification's functions of the nine argument
  arrays.  The contents are followed segment by segment: the first two regions leave the three node projections
  q = h·Wq, k = h·Wk and v = h_in·Wv; the stretches before the third region pair k and v side by side and read the
  pair at each edge's source node and q at its destination node; the third region leaves the projected edge features,
  the edges' weights and their messages; the next stretch sums messages and weights over the edges that share a
  destination; the fourth region divides; the last stretch lays the quotient out by head.
-/
import proofs.«409143_j74148315398272_3_alg».proof.Proof.Gen.KernelIdeal.Frame
import proofs.«409143_j74148315398272_3_alg».proof.Proof.Spec
import proofs.«409143_j74148315398272_3_alg».proof.Proof.KCarry
import proofs.«409143_j74148315398272_3_alg».proof.Proof.KRegion01
import proofs.«409143_j74148315398272_3_alg».proof.Proof.KRegion2
import proofs.«409143_j74148315398272_3_alg».proof.Proof.KRegion3
import proofs.«409143_j74148315398272_3_alg».proof.Proof.KHost
import proofs.«409143_j74148315398272_3_alg».proof.Proof.Selectors

set_option maxRecDepth 16384

noncomputable section

open scoped BigOperators

namespace Cert.KernelIdeal.Chain

open Idealize.ShloMosaic Idealize.ShloMosaic.TcCoe Idealize.ShloMosaic.ValueIdx Idealize.SL.Sem
open Cert.KernelIdeal Cert.KernelIdeal.Gen Cert.KernelIdeal.Carry

variable (m : (ℓ : Loc nD τ sig) → Buf (Elt Ideal) ℓ) (ρ : Dev nD → PrngReg) (c : Dev nD)

/-- The nine argument arrays as launched. -/
abbrev aH : FVec Ideal S50000x128 .f32 := m ((c.tc : Thread nD τ).loc main_arg0)
abbrev aE : FVec Ideal S800000x128 .f32 := m ((c.tc : Thread nD τ).loc main_arg1)
abbrev aHin : FVec Ideal S50000x128 .f32 := m ((c.tc : Thread nD τ).loc main_arg2)
abbrev aWq : FVec Ideal S128x128 .f32 := m ((c.tc : Thread nD τ).loc main_arg3)
abbrev aWk : FVec Ideal S128x128 .f32 := m ((c.tc : Thread nD τ).loc main_arg4)
abbrev aWv : FVec Ideal S128x128 .f32 := m ((c.tc : Thread nD τ).loc main_arg5)
abbrev aWe : FVec Ideal S128x128 .f32 := m ((c.tc : Thread nD τ).loc main_arg6)
abbrev aSrc : IVec S800000 32 := m ((c.tc : Thread nD τ).loc main_arg7)
abbrev aDst : IVec S800000 32 := m ((c.tc : Thread nD τ).loc main_arg8)

/-! ## The node projections -/

/-- The side-by-side pair [Wq | Wk] the first region finds, read in its left half: Wq. -/
theorem wqk_left (t j : Fin 128) :
    (W1 m ρ c (Proc.devRef .tc main_v0) : FVec Ideal S128x256 .f32) (ix2 t (⟨j.val, by omega⟩ : Fin 256)) = aWq m c (ix2 t j) :=
  (Host.concat_wqk (W0 m ρ c) t ⟨j.val, by omega⟩).trans (dif_pos j.isLt)

/-- … and in its right half: Wk. -/
theorem wqk_right (t j : Fin 128) :
    (W1 m ρ c (Proc.devRef .tc main_v0) : FVec Ideal S128x256 .f32) (ix2 t (⟨128 + j.val, by omega⟩ : Fin 256)) = aWk m c (ix2 t j) := by
  refine (Host.concat_wqk (W0 m ρ c) t ⟨128 + j.val, by omega⟩).trans ?_
  rw [dif_neg (show ¬ (128 + j.val < 128) by omega)]
  exact congrArg (fun q : Fin 128 => aWk m c (ix2 t q)) (Fin.ext (show 128 + j.val - 128 = j.val by omega))

/-- After the first region its first output holds q = h·Wq. -/
theorem q_eq (n : Fin 50000) (j : Fin 128) :
    (W2 m ρ c (Proc.devRef .tc main_v1_0) : FVec Ideal S50000x128 .f32) (ix2 n j) = Cert.Spec.proj (aH m c) (aWq m c) n j := by
  refine (congrFun ((W2_arr m ρ c 2).trans (Val01.final0_2 (V1 m ρ) c)) (ix2 n j)).trans ?_
  show Val01.projLeft (W1 m ρ c (Proc.devRef .tc main_arg0)) (W1 m ρ c (Proc.devRef .tc main_v0)) n j = _
  unfold Val01.projLeft Cert.Spec.proj
  refine Finset.sum_congr rfl fun t _ => ?_
  rw [wqk_left m ρ c t j, W1_arg0 m ρ c]

/-- … and its second output k = h·Wk. -/
theorem k_eq (n : Fin 50000) (j : Fin 128) :
    (W2 m ρ c (Proc.devRef .tc main_v1_1) : FVec Ideal S50000x128 .f32) (ix2 n j) = Cert.Spec.proj (aH m c) (aWk m c) n j := by
  refine (congrFun ((W2_arr m ρ c 3).trans (Val01.final0_3 (V1 m ρ) c)) (ix2 n j)).trans ?_
  show Val01.projRight (W1 m ρ c (Proc.devRef .tc main_arg0)) (W1 m ρ c (Proc.devRef .tc main_v0)) n j = _
  unfold Val01.projRight Cert.Spec.proj
  refine Finset.sum_congr rfl fun t _ => ?_
  rw [wqk_right m ρ c t j, W1_arg0 m ρ c]

/-- After the second region its output holds v = h_in·Wv. -/
theorem v_eq (n : Fin 50000) (j : Fin 128) :
    (W3 m ρ c (Proc.devRef .tc main_v2) : FVec Ideal S50000x128 .f32) (ix2 n j) = Cert.Spec.proj (aHin m c) (aWv m c) n j := by
  refine (congrFun ((W3_arr m ρ c 2).trans (Val01.final1_2 (V2 m ρ) c)) (ix2 n j)).trans ?_
  show Cert.Spec.proj (W2 m ρ c (Proc.devRef .tc main_arg2)) (W2 m ρ c (Proc.devRef .tc main_arg5)) n j = _
  rw [W2_arg2 m ρ c, W2_arg5 m ρ c]

/-! ## What the third region finds -/

/-- The paired rows [k | v], read in the left half: k. -/
theorem kv_left (n : Fin 50000) (j : Fin 128) :
    (W4 m ρ c (Proc.devRef .tc main_v3) : FVec Ideal S50000x256 .f32) (ix2 n (⟨j.val, by omega⟩ : Fin 256))
      = Cert.Spec.proj (aH m c) (aWk m c) n j := by
  refine (Host.concat_kv (W3 m ρ c) n ⟨j.val, by omega⟩).trans ?_
  rw [dif_pos j.isLt]
  exact (congrFun (W3_v1_1 m ρ c) (ix2 n j)).trans (k_eq m ρ c n j)

/-- … and in the right half: v. -/
theorem kv_right (n : Fin 50000) (j : Fin 128) :
    (W4 m ρ c (Proc.devRef .tc main_v3) : FVec Ideal S50000x256 .f32) (ix2 n (⟨128 + j.val, by omega⟩ : Fin 256))
      = Cert.Spec.proj (aHin m c) (aWv m c) n j := by
  refine (Host.concat_kv (W3 m ρ c) n ⟨128 + j.val, by omega⟩).trans ?_
  rw [dif_neg (show ¬ (128 + j.val < 128) by omega)]
  refine Eq.trans ?_ (v_eq m ρ c n j)
  exact congrArg (fun q : Fin 128 => (W3 m ρ c (Proc.devRef .tc main_v2) : FVec Ideal S50000x128 .f32) (ix2 n q))
    (Fin.ext (show 128 + j.val - 128 = j.val by omega))

variable (hs : ∀ e : Fin 800000, 0 ≤ ((aSrc m c) (ix1 e)).toInt ∧ ((aSrc m c) (ix1 e)).toInt < 50000)
  (hd : ∀ e : Fin 800000, 0 ≤ ((aDst m c) (ix1 e)).toInt ∧ ((aDst m c) (ix1 e)).toInt < 50000)

include hs in
/-- The pair's rows read at each edge's source node: the left half is k at the source. -/
theorem kvsrc_left (e : Fin 800000) (j : Fin 128) :
    (W6 m ρ c (Proc.devRef .tc main_v4) : FVec Ideal S800000x256 .f32) (ix2 e (⟨j.val, by omega⟩ : Fin 256))
      = Cert.Spec.proj (aH m c) (aWk m c) (Cert.Spec.node (aSrc m c) e) j := by
  refine (congrFun (W6_v4 m ρ c) _).trans ?_
  refine (Host.take_src (W4 m ρ c) e ⟨j.val, by omega⟩ ?_ ?_).trans ?_
  · rw [W4_arg7 m ρ c]; exact (hs e).1
  · rw [W4_arg7 m ρ c]; exact (hs e).2
  · rw [W4_arg7 m ρ c]; exact kv_left m ρ c _ j

include hs in
/-- … and the right half is v at the source. -/
theorem kvsrc_right (e : Fin 800000) (j : Fin 128) :
    (W6 m ρ c (Proc.devRef .tc main_v4) : FVec Ideal S800000x256 .f32) (ix2 e (⟨128 + j.val, by omega⟩ : Fin 256))
      = Cert.Spec.proj (aHin m c) (aWv m c) (Cert.Spec.node (aSrc m c) e) j := by
  refine (congrFun (W6_v4 m ρ c) _).trans ?_
  refine (Host.take_src (W4 m ρ c) e ⟨128 + j.val, by omega⟩ ?_ ?_).trans ?_
  · rw [W4_arg7 m ρ c]; exact (hs e).1
  · rw [W4_arg7 m ρ c]; exact (hs e).2
  · rw [W4_arg7 m ρ c]; exact kv_right m ρ c _ j

include hd in
/-- q read at each edge's destination node. -/
theorem qdst_eq (e : Fin 800000) (j : Fin 128) :
    (W6 m ρ c (Proc.devRef .tc main_v5) : FVec Ideal S800000x128 .f32) (ix2 e j)
      = Cert.Spec.proj (aH m c) (aWq m c) (Cert.Spec.node (aDst m c) e) j := by
  refine (Host.take_dst (W5 m ρ c) e j ?_ ?_).trans ?_
  · rw [W5_arg8 m ρ c]; exact (hd e).1
  · rw [W5_arg8 m ρ c]; exact (hd e).2
  · rw [W5_arg8 m ρ c]; exact (congrFun (W5_v1_0 m ρ c) _).trans (q_eq m ρ c _ j)

/-- The first selector table where the third region finds it: 1 where the column lies in the head, else 0. -/
theorem pr_eq (t : Fin 128) (g : Fin 8) :
    (W6 m ρ c (Proc.devRef .tc main_cst) : FVec Ideal S128x8 .f32) (ix2 t g) = (if Cert.Spec.head t = g then (1 : EReal) else 0) :=
  (congrFun (W6_cst m ρ c) (ix2 t g)).trans ((Host.table_pr (W0 m ρ c) t g).trans (Cert.Selectors.pr_apply t g))

/-- The second selector table where the third region finds it, and where the fourth does. -/
theorem pb_eq6 (g : Fin 8) (t : Fin 128) :
    (W6 m ρ c (Proc.devRef .tc main_cst_0) : FVec Ideal S8x128 .f32) (ix2 g t) = (if Cert.Spec.head t = g then (1 : EReal) else 0) :=
  (congrFun (W6_cst_0 m ρ c) (ix2 g t)).trans ((Host.table_pb (W0 m ρ c) g t).trans (Cert.Selectors.pb_apply g t))
theorem pb_eq8 (g : Fin 8) (t : Fin 128) :
    (W8 m ρ c (Proc.devRef .tc main_cst_0) : FVec Ideal S8x128 .f32) (ix2 g t) = (if Cert.Spec.head t = g then (1 : EReal) else 0) :=
  (congrFun (W8_cst_0 m ρ c) (ix2 g t)).trans ((Host.table_pb (W0 m ρ c) g t).trans (Cert.Selectors.pb_apply g t))

/-! ## What the third region leaves -/

include hs hd in
/-- The region's weight of an edge for a head is the specification's: the product with the first selector table sums
    the head's sixteen scores. -/
theorem wgt_core (e : Fin 800000) (g : Fin 8) :
    Val2.wgt (W6 m ρ c (Proc.devRef .tc main_v4)) (W6 m ρ c (Proc.devRef .tc main_v5)) (W6 m ρ c (Proc.devRef .tc main_arg1))
        (W6 m ρ c (Proc.devRef .tc main_arg6)) (W6 m ρ c (Proc.devRef .tc main_cst)) e g
      = Cert.Spec.weight (aH m c) (aE m c) (aWq m c) (aWk m c) (aWe m c) (aSrc m c) (aDst m c) e g := by
  unfold Val2.wgt Cert.Spec.weight
  refine congrArg Ideal.exp (congrArg (min Cert.Spec.hi) (congrArg (max Cert.Spec.lo) ?_))
  rw [← Cert.Selectors.sum_mul_pr (fun t => Cert.Spec.score (aH m c) (aE m c) (aWq m c) (aWk m c) (aWe m c) (aSrc m c) (aDst m c) e t) g]
  refine Finset.sum_congr rfl fun t _ => ?_
  rw [pr_eq m ρ c t g, kvsrc_left m ρ c hs e t, qdst_eq m ρ c hd e t, W6_arg1 m ρ c, W6_arg6 m ρ c]
  rfl

include hs hd in
theorem wgt_eq (e : Fin 800000) (g : Fin 8) :
    (W7 m ρ c (Proc.devRef .tc main_v6_1) : FVec Ideal S800000x8 .f32) (ix2 e g)
      = Cert.Spec.weight (aH m c) (aE m c) (aWq m c) (aWk m c) (aWe m c) (aSrc m c) (aDst m c) e g :=
  (congrFun ((W7_arr m ρ c 7).trans (Val2.final2_7 (V6 m ρ) c)) (ix2 e g)).trans (wgt_core m ρ c hs hd e g)

include hs hd in
/-- The region's message of an edge in a column is the specification's: the product with the second selector table
    picks the weight of the column's head. -/
theorem msg_eq (e : Fin 800000) (j : Fin 128) :
    (W7 m ρ c (Proc.devRef .tc main_v6_0) : FVec Ideal S800000x128 .f32) (ix2 e j)
      = Cert.Spec.msg (aH m c) (aHin m c) (aE m c) (aWq m c) (aWk m c) (aWv m c) (aWe m c) (aSrc m c) (aDst m c) e j := by
  refine (congrFun ((W7_arr m ρ c 6).trans (Val2.final2_6 (V6 m ρ) c)) (ix2 e j)).trans ?_
  show Val2.msg (W6 m ρ c (Proc.devRef .tc main_v4)) (W6 m ρ c (Proc.devRef .tc main_v5)) (W6 m ρ c (Proc.devRef .tc main_arg1))
      (W6 m ρ c (Proc.devRef .tc main_arg6)) (W6 m ρ c (Proc.devRef .tc main_cst)) (W6 m ρ c (Proc.devRef .tc main_cst_0)) e j = _
  unfold Val2.msg Cert.Spec.msg
  rw [kvsrc_right m ρ c hs e j]
  refine congrArg (Cert.Spec.proj (aHin m c) (aWv m c) (Cert.Spec.node (aSrc m c) e) j * ·) ?_
  rw [← Cert.Selectors.sum_mul_pb (fun g => Cert.Spec.weight (aH m c) (aE m c) (aWq m c) (aWk m c) (aWe m c) (aSrc m c) (aDst m c) e g) j]
  refine Finset.sum_congr rfl fun g _ => ?_
  rw [pb_eq6 m ρ c g j, wgt_core m ρ c hs hd e g]

/-- The second result is the third region's third output, which nothing later writes: the projected edge features. -/
theorem eOut_eq :
    W10 (F := Ideal) m ρ c (Proc.devRef .tc main_v6_2) = Cert.Spec.eOut (aE m c) (aWe m c) := by
  refine (W10_v6_2 m ρ c).trans (((W7_arr m ρ c 8).trans (Val2.final2_8 (V6 m ρ) c)).trans ?_)
  funext i
  exact congrArg₂ (fun (x : FVec Ideal S800000x128 .f32) (w : FVec Ideal S128x128 .f32) => Cert.Spec.proj x w (i 0) (i 1))
    (W6_arg1 m ρ c) (W6_arg6 m ρ c)

/-! ## The sums over the edges of a destination, the quotient, the result -/

/-- Two sums over one set of edges with equal terms. -/
theorem sum_edges_congr (S : Finset (Fin 800000)) (f g : Fin 800000 → EReal) (h : ∀ e, f e = g e) :
    ∑ e ∈ S, f e = ∑ e ∈ S, g e := Finset.sum_congr rfl fun e _ => h e

/-- The quotient a node's row of the fourth region holds in one column, once the region's three inputs are known there:
    the product with the second selector table picks the summed weight of the column's head. -/
theorem epi_at (a : S50000x128.Idx → EReal) (z : S50000x8.Idx → EReal) (pb : S8x128.Idx → EReal) (n : Fin 50000) (j : Fin 128)
    (A : EReal) (Z : Fin 8 → EReal) (ha : a (ix2 n j) = A) (hz : ∀ g, z (ix2 n g) = Z g)
    (hpb : ∀ g, pb (ix2 g j) = (if Cert.Spec.head j = g then (1 : EReal) else 0)) :
    Val3.epi a z pb (ix2 n j) = Ideal.div A (Z (Cert.Spec.head j) + Cert.Spec.eps) := by
  rw [Val3.epi_apply, ha]
  show Ideal.div A ((∑ g : Fin 8, z (ix2 n g) * pb (ix2 g j)) + Cert.Spec.eps) = _
  rw [← Cert.Selectors.sum_mul_pb Z j]
  refine congrArg (fun x => Ideal.div A (x + Cert.Spec.eps)) (Finset.sum_congr rfl fun g _ => ?_)
  rw [hz g, hpb g]

include hs hd in
theorem aggMsg_eq (n : Fin 50000) (j : Fin 128) :
    (W8 m ρ c (Proc.devRef .tc main_v9) : FVec Ideal S50000x128 .f32) (ix2 n j)
      = Cert.Spec.aggMsg (aH m c) (aHin m c) (aE m c) (aWq m c) (aWk m c) (aWv m c) (aWe m c) (aSrc m c) (aDst m c) n j := by
  refine (Host.scatter_msg (W7 m ρ c) n j).trans ?_
  unfold Cert.Spec.aggMsg
  rw [W7_arg8 m ρ c]
  exact sum_edges_congr _ _ _ fun e => msg_eq m ρ c hs hd e j

include hs hd in
theorem aggWeight_eq (n : Fin 50000) (g : Fin 8) :
    (W8 m ρ c (Proc.devRef .tc main_v12) : FVec Ideal S50000x8 .f32) (ix2 n g)
      = Cert.Spec.aggWeight (aH m c) (aE m c) (aWq m c) (aWk m c) (aWe m c) (aSrc m c) (aDst m c) n g := by
  refine (Host.scatter_wgt (W7 m ρ c) n g).trans ?_
  unfold Cert.Spec.aggWeight
  rw [W7_arg8 m ρ c]
  exact sum_edges_congr _ _ _ fun e => wgt_eq m ρ c hs hd e g

include hs hd in
/-- After the fourth region: a node's summed message in a column over its summed weight for the column's head plus the
    small constant. -/
theorem quot_eq (n : Fin 50000) (j : Fin 128) :
    (W9 m ρ c (Proc.devRef .tc main_v13) : FVec Ideal S50000x128 .f32) (ix2 n j)
      = Ideal.div (Cert.Spec.aggMsg (aH m c) (aHin m c) (aE m c) (aWq m c) (aWk m c) (aWv m c) (aWe m c) (aSrc m c) (aDst m c) n j)
          (Cert.Spec.aggWeight (aH m c) (aE m c) (aWq m c) (aWk m c) (aWe m c) (aSrc m c) (aDst m c) n (Cert.Spec.head j) + Cert.Spec.eps) := by
  refine (congrFun ((W9_arr m ρ c 3).trans (Val3.final3_3 (V8 m ρ) c)) (ix2 n j)).trans ?_
  exact epi_at _ _ _ n j _
    (fun g => Cert.Spec.aggWeight (aH m c) (aE m c) (aWq m c) (aWk m c) (aWe m c) (aSrc m c) (aDst m c) n g)
    (aggMsg_eq m ρ c hs hd n j) (fun g => aggWeight_eq m ρ c hs hd n g) (fun g => pb_eq8 m ρ c g j)

include hs hd in
/-- The first result: the quotient laid out by node, head and column of the head. -/
theorem hOut_eq :
    W10 (F := Ideal) m ρ c (Proc.devRef .tc main_v14)
      = Cert.Spec.hOut (aH m c) (aHin m c) (aE m c) (aWq m c) (aWk m c) (aWv m c) (aWe m c) (aSrc m c) (aDst m c) := by
  show (W10 (F := Ideal) m ρ c (Proc.devRef .tc main_v14) : FVec Ideal S50000x8x16 .f32) = _
  funext i
  obtain ⟨n, g, d, rfl⟩ : ∃ (n : Fin 50000) (g : Fin 8) (d : Fin 16), i = ix3 n g d := ⟨i 0, i 1, i 2, eq_ix3 i⟩
  refine (Host.reshape_out (W9 m ρ c) n g d).trans ?_
  rw [quot_eq m ρ c hs hd n (Cert.Spec.col g d), Cert.Spec.head_col]
  rfl

end Cert.KernelIdeal.Chain

end
-- ==== Proof.LibScatterGather3.lean ====
/-
  Two host operations on an [N × A × B] array read at one element, for any extents: a gather of whole [A × B] slabs at an
  [n × 1] column of slab numbers, and an accumulating scatter of [n × A × B] slabs into the array's slabs at an [n × 1]
  column of slab positions.

  The gather clamps the slab number it reads (signed) into [0, N − 1]; the scatter reads the position signed and does NOT
  clamp it: a slab whose position is outside the target is dropped.  At the exact (extended-real) instance the
  accumulating scatter is the target's entry plus the sum of the entries of the slabs that land on its slab.
-/
import Idealize.ShloMosaic.PureOps.Ideal
import Idealize.ShloMosaic.PureOps.Contract
import Idealize.ShloMosaic.Lib.ValueIdx
import Idealize.ShloMosaic.Lib.StableHlo.Predicate
import proofs.«409143_j74148315398272_3_alg».proof.Proof.LibScatterGather

noncomputable section

open scoped BigOperators

namespace Cert.LibSG3

open Idealize.ShloMosaic Idealize.ShloMosaic.ValueIdx Idealize.ShloMosaic.StableHlo.Predicate

/-- Slabs gathered from an [N × A × B] array at an [n × 1] column of slab numbers: entry (p, a, b) of the result is the
    array's entry (slab p's number read signed and clamped into [0, N − 1], a, b). -/
theorem gather_slabs {α : Type} {N A B n w : ℕ} (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (hsb : d.startIndicesBatchingDims = []) (hsim : d.startIndexMap = [0]) (hivd : d.indexVectorDim = 1)
    (hss : d.sliceSizes = ![1, A, B])
    (x : (⟨3, ![N, A, B]⟩ : Shape).Idx → α) (idx : IVec ⟨2, ![n, 1]⟩ w) (p : Fin n) (a : Fin A) (b : Fin B) (hN : 0 < N) :
    Host.gather d x idx (ix3 p a b)
      = x (ix3 (⟨min (idx (ixP p)).toInt.toNat (N - 1), by omega⟩ : Fin N) a b) := by
  obtain ⟨od, cd, ob, sb, sm, iv, ss, wf⟩ := d
  dsimp only at hoff hcoll hob hsb hsim hivd hss
  subst hoff hcoll hob hsb hsim hivd hss
  unfold Host.gather
  congr 1
  funext c
  refine Fin.ext ?_
  match c with
  | ⟨0, _⟩ =>
    -- the slab axis: the clamped start, no batching coordinate, no offset (the axis is collapsed)
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin 1), (GatherDims.mk (s := ⟨3, ![N, A, B]⟩) (si := ⟨2, ![n, 1]⟩) (t := ⟨3, ![n, A, B]⟩) [1, 2] [0] [] [] [0] 1 ![1, A, B] wf).siIdx (ix3 p a b) c = ixP p := by
      intro c
      funext k; refine Fin.ext ?_
      match k with
      | ⟨0, _⟩ => rfl
      | ⟨1, _⟩ => exact Nat.lt_one_iff.mp c.isLt
    rw [hsi]
    rfl
  | ⟨1, _⟩ =>
    -- the first window axis: start 0, no batching coordinate, the result's own coordinate as offset
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 3) ∉ [0] by decide)]
    simp only [Nat.zero_add]
    rfl
  | ⟨2, _⟩ =>
    -- the second window axis, likewise
    show GatherDims.start _ _ idx 2 + GatherDims.batchCoord _ _ 2 + GatherDims.offCoord _ _ 2 = _
    rw [GatherDims.batchCoord_eq_zero _ _ _ List.not_mem_nil]
    unfold GatherDims.start
    rw [dif_neg (show (2 : Fin 3) ∉ [0] by decide)]
    simp only [Nat.zero_add]
    rfl

/-- An accumulating scatter of [n × A × B] slabs into the slabs of an [N × A × B] array at an [n × 1] column of slab
    positions, at the exact instance: entry (i, a, b) is the target's entry plus the sum, over the update slabs whose
    position read signed is i, of their entry (a, b). -/
theorem scatterAdd_slabs {N A B n w : ℕ} (d : ScatterDims ⟨3, ![N, A, B]⟩ ⟨2, ![n, 1]⟩ ⟨3, ![n, A, B]⟩)
    (huw : d.updateWindowDims = [1, 2]) (hiw : d.insertedWindowDims = [0]) (hsd : d.scatterDimsToOperandDims = [0])
    (hivd : d.indexVectorDim = 1)
    (x : FVec Ideal ⟨3, ![N, A, B]⟩ .f32) (idx : IVec ⟨2, ![n, 1]⟩ w) (upd : FVec Ideal ⟨3, ![n, A, B]⟩ .f32)
    (i : Fin N) (a : Fin A) (b : Fin B) :
    Host.scatterAdd (F := Ideal) d x idx upd (ix3 i a b)
      = x (ix3 i a b) + ∑ e ∈ Finset.univ.filter (fun e : Fin n => (idx (ixP e)).toInt = (i.val : ℤ)), upd (ix3 e a b) := by
  obtain ⟨uw, iw, sd, iv, wf⟩ := d
  dsimp only at huw hiw hsd hivd
  subst huw hiw hsd hivd
  -- the start of an update's window: its slab position on the slab axis, 0 on the two window axes
  have hstart0 : ∀ j : (⟨3, ![n, A, B]⟩ : Shape).Idx,
      (ScatterDims.mk (s := ⟨3, ![N, A, B]⟩) (si := ⟨2, ![n, 1]⟩) (u := ⟨3, ![n, A, B]⟩) [1, 2] [0] [0] 1 wf).start j idx 0 = (idx (ixP (j 0))).toInt := by
    intro j
    unfold ScatterDims.start
    rw [dif_pos (List.mem_singleton.mpr rfl)]
    congr 2
    funext k; refine Fin.ext ?_
    match k with
    | ⟨0, _⟩ => rfl
    | ⟨1, _⟩ => rfl
  have hstart1 : ∀ j : (⟨3, ![n, A, B]⟩ : Shape).Idx,
      (ScatterDims.mk (s := ⟨3, ![N, A, B]⟩) (si := ⟨2, ![n, 1]⟩) (u := ⟨3, ![n, A, B]⟩) [1, 2] [0] [0] 1 wf).start j idx 1 = 0 := by
    intro j
    unfold ScatterDims.start
    rw [dif_neg (show (1 : Fin 3) ∉ [0] by decide)]
  have hstart2 : ∀ j : (⟨3, ![n, A, B]⟩ : Shape).Idx,
      (ScatterDims.mk (s := ⟨3, ![N, A, B]⟩) (si := ⟨2, ![n, 1]⟩) (u := ⟨3, ![n, A, B]⟩) [1, 2] [0] [0] 1 wf).start j idx 2 = 0 := by
    intro j
    unfold ScatterDims.start
    rw [dif_neg (show (2 : Fin 3) ∉ [0] by decide)]
  -- the window coordinate: 0 on the (inserted) slab axis, the update's own coordinate on the two window axes
  have hwin0 : ∀ j : (⟨3, ![n, A, B]⟩ : Shape).Idx,
      (ScatterDims.mk (s := ⟨3, ![N, A, B]⟩) (si := ⟨2, ![n, 1]⟩) (u := ⟨3, ![n, A, B]⟩) [1, 2] [0] [0] 1 wf).window j 0 = 0 := by
    intro j
    unfold ScatterDims.window
    exact dif_neg (show (0 : Fin 3) ∉ (List.finRange 3).filter (fun c => c ∉ [(0 : Fin 3)]) by decide)
  have hwin1 : ∀ j : (⟨3, ![n, A, B]⟩ : Shape).Idx,
      (ScatterDims.mk (s := ⟨3, ![N, A, B]⟩) (si := ⟨2, ![n, 1]⟩) (u := ⟨3, ![n, A, B]⟩) [1, 2] [0] [0] 1 wf).window j 1 = (j 1).val := by
    intro j
    unfold ScatterDims.window
    exact (dif_pos (show (1 : Fin 3) ∈ (List.finRange 3).filter (fun c => c ∉ [(0 : Fin 3)]) by decide)).trans rfl
  have hwin2 : ∀ j : (⟨3, ![n, A, B]⟩ : Shape).Idx,
      (ScatterDims.mk (s := ⟨3, ![N, A, B]⟩) (si := ⟨2, ![n, 1]⟩) (u := ⟨3, ![n, A, B]⟩) [1, 2] [0] [0] 1 wf).window j 2 = (j 2).val := by
    intro j
    unfold ScatterDims.window
    exact (dif_pos (show (2 : Fin 3) ∈ (List.finRange 3).filter (fun c => c ∉ [(0 : Fin 3)]) by decide)).trans rfl
  -- an update lands on (i, a, b) exactly when its slab position is i and its window coordinates are (a, b)
  have hiff : ∀ j : (⟨3, ![n, A, B]⟩ : Shape).Idx,
      (ScatterDims.mk (s := ⟨3, ![N, A, B]⟩) (si := ⟨2, ![n, 1]⟩) (u := ⟨3, ![n, A, B]⟩) [1, 2] [0] [0] 1 wf).resultIdx? j idx = some (ix3 i a b)
        ↔ (idx (ixP (j 0))).toInt = (i.val : ℤ) ∧ j 1 = a ∧ j 2 = b := by
    intro j
    rw [Cert.LibSG.resultIdx?_eq_some_iff]
    constructor
    · intro h
      have h0 := h 0
      have h1 := h 1
      have h2 := h 2
      rw [hstart0, hwin0] at h0
      rw [hstart1, hwin1] at h1
      rw [hstart2, hwin2] at h2
      change (idx (ixP (j 0))).toInt + ((0 : ℕ) : ℤ) = (i.val : ℤ) at h0
      change (0 : ℤ) + ((j 1).val : ℤ) = (a.val : ℤ) at h1
      change (0 : ℤ) + ((j 2).val : ℤ) = (b.val : ℤ) at h2
      exact ⟨by omega, Fin.ext (by omega), Fin.ext (by omega)⟩
    · rintro ⟨h0, h1, h2⟩ c
      subst h1 h2
      match c with
      | ⟨0, _⟩ =>
        show (ScatterDims.mk (s := ⟨3, ![N, A, B]⟩) (si := ⟨2, ![n, 1]⟩) (u := ⟨3, ![n, A, B]⟩) [1, 2] [0] [0] 1 wf).start j idx 0 + (((ScatterDims.mk (s := ⟨3, ![N, A, B]⟩) (si := ⟨2, ![n, 1]⟩) (u := ⟨3, ![n, A, B]⟩) [1, 2] [0] [0] 1 wf).window j 0 : ℕ) : ℤ) = _
        rw [hstart0, hwin0]
        show (idx (ixP (j 0))).toInt + ((0 : ℕ) : ℤ) = (i.val : ℤ)
        omega
      | ⟨1, _⟩ =>
        show (ScatterDims.mk (s := ⟨3, ![N, A, B]⟩) (si := ⟨2, ![n, 1]⟩) (u := ⟨3, ![n, A, B]⟩) [1, 2] [0] [0] 1 wf).start j idx 1 + (((ScatterDims.mk (s := ⟨3, ![N, A, B]⟩) (si := ⟨2, ![n, 1]⟩) (u := ⟨3, ![n, A, B]⟩) [1, 2] [0] [0] 1 wf).window j 1 : ℕ) : ℤ) = _
        rw [hstart1, hwin1]
        show (0 : ℤ) + ((j 1).val : ℤ) = ((j 1).val : ℤ)
        omega
      | ⟨2, _⟩ =>
        show (ScatterDims.mk (s := ⟨3, ![N, A, B]⟩) (si := ⟨2, ![n, 1]⟩) (u := ⟨3, ![n, A, B]⟩) [1, 2] [0] [0] 1 wf).start j idx 2 + (((ScatterDims.mk (s := ⟨3, ![N, A, B]⟩) (si := ⟨2, ![n, 1]⟩) (u := ⟨3, ![n, A, B]⟩) [1, 2] [0] [0] 1 wf).window j 2 : ℕ) : ℤ) = _
        rw [hstart2, hwin2]
        show (0 : ℤ) + ((j 2).val : ℤ) = ((j 2).val : ℤ)
        omega
  show x (ix3 i a b) + _ = _
  congr 1
  refine Finset.sum_nbij' (fun j => j 0) (fun e => ix3 e a b) ?_ ?_ ?_ ?_ ?_
  · intro j hj
    exact Finset.mem_filter.2 ⟨Finset.mem_univ _, ((hiff j).1 (Finset.mem_filter.1 hj).2).1⟩
  · intro e he
    exact Finset.mem_filter.2 ⟨Finset.mem_univ _, (hiff (ix3 e a b)).2 ⟨(Finset.mem_filter.1 he).2, rfl, rfl⟩⟩
  · intro j hj
    have h := (hiff j).1 (Finset.mem_filter.1 hj).2
    rw [← h.2.1, ← h.2.2]
    exact (eq_ix3 j).symm
  · intro e _
    rfl
  · intro j hj
    have h := (hiff j).1 (Finset.mem_filter.1 hj).2
    rw [← h.2.1, ← h.2.2]
    exact congrArg upd (eq_ix3 j)

end Cert.LibSG3

end
-- ==== Proof.RefValue.lean ====
/-
  The reference program's two results are the specification's, given that every source and destination entry names a
  node.

  The reference projects the node and edge features (q = h·Wq, k = h·Wk, v = h_in·Wv, p = e·We, each entry a sum of 128
  products) and views each 128-column row as 8 heads of 16: column 16·g + d is (g, d).  It reads k and v at an edge's
  source and q at its destination through a gather whose index column is the index vector with negative entries wrapped
  (an entry in range is not negative, so the wrap keeps it) and clamped into the node range, as the specification's
  node does.  Per edge and column the score is ((k · q) · 1/4) · p; a head's sixteen scores are summed from zero, the
  sum is bounded below by -5 and then above by 5 and exponentiated; the message is v times that weight, which is
  constant on a head's columns.  Messages and weights are scattered additively into zero arrays at the destination
  read signed, so a node receives exactly the edges that land on it; the first result divides the summed message by the
  summed weight plus the small constant.  The second result reshapes p to heads and back, which is p.
-/
import proofs.«409143_j74148315398272_3_alg».proof.Proof.Gen.ReferenceIdeal.Read
import proofs.«409143_j74148315398272_3_alg».proof.Proof.Spec
import proofs.«409143_j74148315398272_3_alg».proof.Proof.LibScatterGather3
import proofs.«409143_j74148315398272_3_alg».proof.Proof.PreDecode
import Idealize.ShloMosaic.Lib.StableHlo.Predicate
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo.Predicate

/-! ## The four projections and their per-head views

A projection read at (r, j) is the sum over t of x[r, t] · w[t, j]; the reshape to heads reads it at column 16·g + d. -/

theorem q_at (x : FVec Ideal ⟨2, ![50000, 128]⟩ .f32) (w : FVec Ideal ⟨2, ![128, 128]⟩ .f32) (r : Fin 50000) (j : Fin 128) :
    val_main_v0 (F := Ideal) x w (ix2 r j) = Spec.proj x w r j := by
  rw [val_main_v0_apply]
  unfold Spec.proj
  refine Finset.sum_congr rfl fun k _ => ?_
  have el : lidx_main_v0 (ix2 r j) k = ix2 r k := funext fun a => by match a with | ⟨0, _⟩ => rfl | ⟨1, _⟩ => rfl
  have er : ridx_main_v0 (ix2 r j) k = ix2 k j := funext fun a => by match a with | ⟨0, _⟩ => rfl | ⟨1, _⟩ => rfl
  rw [el, er]

theorem k_at (x : FVec Ideal ⟨2, ![50000, 128]⟩ .f32) (w : FVec Ideal ⟨2, ![128, 128]⟩ .f32) (r : Fin 50000) (j : Fin 128) :
    val_main_v2 (F := Ideal) x w (ix2 r j) = Spec.proj x w r j := by
  rw [val_main_v2_apply]
  unfold Spec.proj
  refine Finset.sum_congr rfl fun k _ => ?_
  have el : lidx_main_v2 (ix2 r j) k = ix2 r k := funext fun a => by match a with | ⟨0, _⟩ => rfl | ⟨1, _⟩ => rfl
  have er : ridx_main_v2 (ix2 r j) k = ix2 k j := funext fun a => by match a with | ⟨0, _⟩ => rfl | ⟨1, _⟩ => rfl
  rw [el, er]

theorem v_at (x : FVec Ideal ⟨2, ![50000, 128]⟩ .f32) (w : FVec Ideal ⟨2, ![128, 128]⟩ .f32) (r : Fin 50000) (j : Fin 128) :
    val_main_v4 (F := Ideal) x w (ix2 r j) = Spec.proj x w r j := by
  rw [val_main_v4_apply]
  unfold Spec.proj
  refine Finset.sum_congr rfl fun k _ => ?_
  have el : lidx_main_v4 (ix2 r j) k = ix2 r k := funext fun a => by match a with | ⟨0, _⟩ => rfl | ⟨1, _⟩ => rfl
  have er : ridx_main_v4 (ix2 r j) k = ix2 k j := funext fun a => by match a with | ⟨0, _⟩ => rfl | ⟨1, _⟩ => rfl
  rw [el, er]

theorem p_at (x : FVec Ideal ⟨2, ![800000, 128]⟩ .f32) (w : FVec Ideal ⟨2, ![128, 128]⟩ .f32) (r : Fin 800000) (j : Fin 128) :
    val_main_v6 (F := Ideal) x w (ix2 r j) = Spec.proj x w r j := by
  rw [val_main_v6_apply]
  unfold Spec.proj
  refine Finset.sum_congr rfl fun k _ => ?_
  have el : lidx_main_v6 (ix2 r j) k = ix2 r k := funext fun a => by match a with | ⟨0, _⟩ => rfl | ⟨1, _⟩ => rfl
  have er : ridx_main_v6 (ix2 r j) k = ix2 k j := funext fun a => by match a with | ⟨0, _⟩ => rfl | ⟨1, _⟩ => rfl
  rw [el, er]

theorem qHead_at (x : FVec Ideal ⟨2, ![50000, 128]⟩ .f32) (w : FVec Ideal ⟨2, ![128, 128]⟩ .f32) (n : Fin 50000) (g : Fin 8) (d : Fin 16) :
    val_main_v1 (F := Ideal) x w (ix3 n g d) = Spec.proj x w n (Spec.col g d) := by
  rw [val_main_v1_apply]
  have e : idx_main_v1 (ix3 n g d) = ix2 n (Spec.col g d) := funext fun a => Fin.ext (by
    have hn := n.isLt; have hg := g.isLt; have hd := d.isLt
    match a with
    | ⟨0, _⟩ => show ((n.val * 8 + g.val) * 16 + d.val) / 128 = n.val; omega
    | ⟨1, _⟩ => show ((n.val * 8 + g.val) * 16 + d.val) % 128 = 16 * g.val + d.val; omega)
  rw [e, q_at]

theorem kHead_at (x : FVec Ideal ⟨2, ![50000, 128]⟩ .f32) (w : FVec Ideal ⟨2, ![128, 128]⟩ .f32) (n : Fin 50000) (g : Fin 8) (d : Fin 16) :
    val_main_v3 (F := Ideal) x w (ix3 n g d) = Spec.proj x w n (Spec.col g d) := by
  rw [val_main_v3_apply]
  have e : idx_main_v3 (ix3 n g d) = ix2 n (Spec.col g d) := funext fun a => Fin.ext (by
    have hn := n.isLt; have hg := g.isLt; have hd := d.isLt
    match a with
    | ⟨0, _⟩ => show ((n.val * 8 + g.val) * 16 + d.val) / 128 = n.val; omega
    | ⟨1, _⟩ => show ((n.val * 8 + g.val) * 16 + d.val) % 128 = 16 * g.val + d.val; omega)
  rw [e, k_at]

theorem vHead_at (x : FVec Ideal ⟨2, ![50000, 128]⟩ .f32) (w : FVec Ideal ⟨2, ![128, 128]⟩ .f32) (n : Fin 50000) (g : Fin 8) (d : Fin 16) :
    val_main_v5 (F := Ideal) x w (ix3 n g d) = Spec.proj x w n (Spec.col g d) := by
  rw [val_main_v5_apply]
  have e : idx_main_v5 (ix3 n g d) = ix2 n (Spec.col g d) := funext fun a => Fin.ext (by
    have hn := n.isLt; have hg := g.isLt; have hd := d.isLt
    match a with
    | ⟨0, _⟩ => show ((n.val * 8 + g.val) * 16 + d.val) / 128 = n.val; omega
    | ⟨1, _⟩ => show ((n.val * 8 + g.val) * 16 + d.val) % 128 = 16 * g.val + d.val; omega)
  rw [e, v_at]

theorem pHead_at (x : FVec Ideal ⟨2, ![800000, 128]⟩ .f32) (w : FVec Ideal ⟨2, ![128, 128]⟩ .f32) (n : Fin 800000) (g : Fin 8) (d : Fin 16) :
    val_main_v7 (F := Ideal) x w (ix3 n g d) = Spec.proj x w n (Spec.col g d) := by
  rw [val_main_v7_apply]
  have e : idx_main_v7 (ix3 n g d) = ix2 n (Spec.col g d) := funext fun a => Fin.ext (by
    have hn := n.isLt; have hg := g.isLt; have hd := d.isLt
    match a with
    | ⟨0, _⟩ => show ((n.val * 8 + g.val) * 16 + d.val) / 128 = n.val; omega
    | ⟨1, _⟩ => show ((n.val * 8 + g.val) * 16 + d.val) % 128 = 16 * g.val + d.val; omega)
  rw [e, p_at]

/-! ## The index columns: a non-negative entry is kept by the wrap -/

theorem srcColK_at (s : IVec ⟨1, ![800000]⟩ 32) (e : Fin 800000) (h0 : 0 ≤ (s (ix1 e)).toInt) :
    val_main_v13 (F := Ideal) s (ixP e) = s (ix1 e) := by
  rw [val_main_v13_apply]
  have e1 : idx_main_v13 (ixP e) = ix1 e := funext fun a => by match a with | ⟨0, _⟩ => rfl
  rw [e1]
  exact Cert.PreDecode.wrap_apply bcast_S_S800000 s e h0

theorem dstColQ_at (s : IVec ⟨1, ![800000]⟩ 32) (e : Fin 800000) (h0 : 0 ≤ (s (ix1 e)).toInt) :
    val_main_v20 (F := Ideal) s (ixP e) = s (ix1 e) := by
  rw [val_main_v20_apply]
  have e1 : idx_main_v20 (ixP e) = ix1 e := funext fun a => by match a with | ⟨0, _⟩ => rfl
  rw [e1]
  exact Cert.PreDecode.wrap_apply bcast_S_S800000 s e h0

theorem srcColV_at (s : IVec ⟨1, ![800000]⟩ 32) (e : Fin 800000) (h0 : 0 ≤ (s (ix1 e)).toInt) :
    val_main_v35 (F := Ideal) s (ixP e) = s (ix1 e) := by
  rw [val_main_v35_apply]
  have e1 : idx_main_v35 (ixP e) = ix1 e := funext fun a => by match a with | ⟨0, _⟩ => rfl
  rw [e1]
  exact Cert.PreDecode.wrap_apply bcast_S_S800000 s e h0

/-! ## The three gathers: a node's row of k, q and v

The gather reads the slab whose number is the column's entry read signed and clamped into [0, 49999]: the node the
entry names. -/

theorem kSrc_at (x : FVec Ideal ⟨2, ![50000, 128]⟩ .f32) (w : FVec Ideal ⟨2, ![128, 128]⟩ .f32) (s : IVec ⟨1, ![800000]⟩ 32) (e : Fin 800000) (g : Fin 8) (d : Fin 16)
    (h0 : 0 ≤ (s (ix1 e)).toInt) :
    val_main_v14 (F := Ideal) x w s (ix3 e g d) = Spec.proj x w (Spec.node s e) (Spec.col g d) := by
  unfold val_main_v14
  refine (Cert.LibSG3.gather_slabs gather_S50000x8x16_S800000x1_S800000x8x16_12_0_n_n_0_1_1816 rfl rfl rfl rfl rfl rfl rfl
    (val_main_v3 (F := Ideal) x w) (val_main_v13 (F := Ideal) s) e g d (by decide)).trans ?_
  refine Eq.trans (congrArg (fun n : Fin 50000 => val_main_v3 (F := Ideal) x w (ix3 n g d)) (Fin.ext ?_))
    (kHead_at x w (Spec.node s e) g d)
  show min (val_main_v13 (F := Ideal) s (ixP e)).toInt.toNat (50000 - 1) = min (s (ix1 e)).toInt.toNat 49999
  rw [srcColK_at s e h0]

theorem qDst_at (x : FVec Ideal ⟨2, ![50000, 128]⟩ .f32) (w : FVec Ideal ⟨2, ![128, 128]⟩ .f32) (s : IVec ⟨1, ![800000]⟩ 32) (e : Fin 800000) (g : Fin 8) (d : Fin 16)
    (h0 : 0 ≤ (s (ix1 e)).toInt) :
    val_main_v21 (F := Ideal) x w s (ix3 e g d) = Spec.proj x w (Spec.node s e) (Spec.col g d) := by
  unfold val_main_v21
  refine (Cert.LibSG3.gather_slabs gather_S50000x8x16_S800000x1_S800000x8x16_12_0_n_n_0_1_1816 rfl rfl rfl rfl rfl rfl rfl
    (val_main_v1 (F := Ideal) x w) (val_main_v20 (F := Ideal) s) e g d (by decide)).trans ?_
  refine Eq.trans (congrArg (fun n : Fin 50000 => val_main_v1 (F := Ideal) x w (ix3 n g d)) (Fin.ext ?_))
    (qHead_at x w (Spec.node s e) g d)
  show min (val_main_v20 (F := Ideal) s (ixP e)).toInt.toNat (50000 - 1) = min (s (ix1 e)).toInt.toNat 49999
  rw [dstColQ_at s e h0]

theorem vSrc_at (x : FVec Ideal ⟨2, ![50000, 128]⟩ .f32) (w : FVec Ideal ⟨2, ![128, 128]⟩ .f32) (s : IVec ⟨1, ![800000]⟩ 32) (e : Fin 800000) (g : Fin 8) (d : Fin 16)
    (h0 : 0 ≤ (s (ix1 e)).toInt) :
    val_main_v36 (F := Ideal) x w s (ix3 e g d) = Spec.proj x w (Spec.node s e) (Spec.col g d) := by
  unfold val_main_v36
  refine (Cert.LibSG3.gather_slabs gather_S50000x8x16_S800000x1_S800000x8x16_12_0_n_n_0_1_1816 rfl rfl rfl rfl rfl rfl rfl
    (val_main_v5 (F := Ideal) x w) (val_main_v35 (F := Ideal) s) e g d (by decide)).trans ?_
  refine Eq.trans (congrArg (fun n : Fin 50000 => val_main_v5 (F := Ideal) x w (ix3 n g d)) (Fin.ext ?_))
    (vHead_at x w (Spec.node s e) g d)
  show min (val_main_v35 (F := Ideal) s (ixP e)).toInt.toNat (50000 - 1) = min (s (ix1 e)).toInt.toNat 49999
  rw [srcColV_at s e h0]

/-! ## Scores, weights and messages of an edge -/

/-- An edge's score in column 16·g + d: k at its source times q at its destination, a quarter of it, times p. -/
theorem score_at (A0 : FVec Ideal ⟨2, ![50000, 128]⟩ .f32) (A1 : FVec Ideal ⟨2, ![800000, 128]⟩ .f32) (A3 A4 A6 : FVec Ideal ⟨2, ![128, 128]⟩ .f32) (src dst : IVec ⟨1, ![800000]⟩ 32) (e : Fin 800000) (g : Fin 8) (d : Fin 16)
    (hs0 : 0 ≤ (src (ix1 e)).toInt) (hd0 : 0 ≤ (dst (ix1 e)).toInt) :
    val_main_v25 (F := Ideal) A0 A1 A3 A4 A6 src dst (ix3 e g d)
      = Spec.score A0 A1 A3 A4 A6 src dst e (Spec.col g d) := by
  rw [val_main_v25_apply, val_main_v24_apply, val_main_v22_apply, kSrc_at A0 A4 src e g d hs0, qDst_at A0 A3 dst e g d hd0,
    val_main_v23_apply, val_main_cst_apply, pHead_at A1 A6 e g d]
  rfl

/-- The sum of a head's sixteen scores: the reduction starts from zero. -/
theorem headSum_at (A0 : FVec Ideal ⟨2, ![50000, 128]⟩ .f32) (A1 : FVec Ideal ⟨2, ![800000, 128]⟩ .f32) (A3 A4 A6 : FVec Ideal ⟨2, ![128, 128]⟩ .f32) (src dst : IVec ⟨1, ![800000]⟩ 32) (e : Fin 800000) (g : Fin 8)
    (hs0 : 0 ≤ (src (ix1 e)).toInt) (hd0 : 0 ≤ (dst (ix1 e)).toInt) :
    val_main_v26 (F := Ideal) A0 A1 A3 A4 A6 src dst (ix2 e g)
      = ∑ d : Fin 16, Spec.score A0 A1 A3 A4 A6 src dst e (Spec.col g d) := by
  rw [val_main_v26_apply, val_main_cst_3_apply, Ideal.ofBits_def, Ideal.ofBits_zero_f32, zero_add]
  refine Finset.sum_congr rfl fun d _ => ?_
  have e1 : idx_main_v26 (ix2 e g) d = ix3 e g d := funext fun a => by match a with | ⟨0, _⟩ => rfl | ⟨1, _⟩ => rfl | ⟨2, _⟩ => rfl
  rw [e1, score_at A0 A1 A3 A4 A6 src dst e g d hs0 hd0]

/-- An edge's weight for head g: the head's summed score clipped to [-5, 5] (first from below, then from above) and
    exponentiated. -/
theorem weight_at (A0 : FVec Ideal ⟨2, ![50000, 128]⟩ .f32) (A1 : FVec Ideal ⟨2, ![800000, 128]⟩ .f32) (A3 A4 A6 : FVec Ideal ⟨2, ![128, 128]⟩ .f32) (src dst : IVec ⟨1, ![800000]⟩ 32) (e : Fin 800000) (g : Fin 8) (z : Fin 1)
    (hs0 : 0 ≤ (src (ix1 e)).toInt) (hd0 : 0 ≤ (dst (ix1 e)).toInt) :
    val_main_v29 (F := Ideal) A0 A1 A3 A4 A6 src dst (ix3 e g z) = Spec.weight A0 A1 A3 A4 A6 src dst e g := by
  have e1 : idx_main_v27 (ix3 e g z) = ix2 e g := funext fun a => by match a with | ⟨0, _⟩ => rfl | ⟨1, _⟩ => rfl
  rw [val_main_v29_apply, val_main_v28_apply, val_main_call0_v4_apply, val_main_call0_v3_apply, val_main_cst_5_apply,
    val_main_call0_v2_apply, val_main_call0_v1_apply, val_main_call0_v0_apply, val_main_cst_4_apply, val_main_v27_apply, e1,
    headSum_at A0 A1 A3 A4 A6 src dst e g hs0 hd0]
  rfl

/-- An edge's message in column 16·g + d: v at its source times its weight for head g, the head of that column. -/
theorem msg_at (A0 : FVec Ideal ⟨2, ![50000, 128]⟩ .f32) (A1 : FVec Ideal ⟨2, ![800000, 128]⟩ .f32) (A2 : FVec Ideal ⟨2, ![50000, 128]⟩ .f32) (A3 A4 A5 A6 : FVec Ideal ⟨2, ![128, 128]⟩ .f32) (src dst : IVec ⟨1, ![800000]⟩ 32) (e : Fin 800000) (g : Fin 8) (d : Fin 16)
    (hs0 : 0 ≤ (src (ix1 e)).toInt) (hd0 : 0 ≤ (dst (ix1 e)).toInt) :
    val_main_v38 (F := Ideal) A0 A1 A2 A3 A4 A5 A6 src dst (ix3 e g d)
      = Spec.msg A0 A2 A1 A3 A4 A5 A6 src dst e (Spec.col g d) := by
  have e1 : idx_main_v37 (ix3 e g d) = ix3 e g (0 : Fin 1) := funext fun a => by match a with | ⟨0, _⟩ => rfl | ⟨1, _⟩ => rfl | ⟨2, _⟩ => rfl
  rw [val_main_v38_apply, vSrc_at A2 A5 src e g d hs0, val_main_v37_apply, e1, weight_at A0 A1 A3 A4 A6 src dst e g 0 hs0 hd0]
  unfold Spec.msg
  rw [Spec.head_col]
  rfl

/-! ## The sums over the edges that land on a node -/

/-- The destination column the scatters read is the destination vector itself. -/
theorem dstColMsg_at (s : IVec ⟨1, ![800000]⟩ 32) (e : Fin 800000) : val_main_v40 (F := Ideal) s (ixP e) = s (ix1 e) := by
  rw [val_main_v40_apply]
  exact congrArg s (funext fun a => by match a with | ⟨0, _⟩ => rfl)

theorem dstColWeight_at (s : IVec ⟨1, ![800000]⟩ 32) (e : Fin 800000) : val_main_v43 (F := Ideal) s (ixP e) = s (ix1 e) := by
  rw [val_main_v43_apply]
  exact congrArg s (funext fun a => by match a with | ⟨0, _⟩ => rfl)

/-- A node's summed message: the scatter into a zero array adds the messages of the edges whose destination is the node. -/
theorem aggMsg_at (A0 : FVec Ideal ⟨2, ![50000, 128]⟩ .f32) (A1 : FVec Ideal ⟨2, ![800000, 128]⟩ .f32) (A2 : FVec Ideal ⟨2, ![50000, 128]⟩ .f32) (A3 A4 A5 A6 : FVec Ideal ⟨2, ![128, 128]⟩ .f32) (src dst : IVec ⟨1, ![800000]⟩ 32)
    (hs : ∀ e : Fin 800000, 0 ≤ (src (ix1 e)).toInt ∧ (src (ix1 e)).toInt < 50000)
    (hd : ∀ e : Fin 800000, 0 ≤ (dst (ix1 e)).toInt ∧ (dst (ix1 e)).toInt < 50000)
    (n : Fin 50000) (g : Fin 8) (d : Fin 16) :
    val_main_v41 (F := Ideal) A0 A1 A2 A3 A4 A5 A6 src dst (ix3 n g d)
      = Spec.aggMsg A0 A2 A1 A3 A4 A5 A6 src dst n (Spec.col g d) := by
  unfold val_main_v41
  refine (Cert.LibSG3.scatterAdd_slabs scatter_S50000x8x16_S800000x1_S800000x8x16_12_0_0_1 rfl rfl rfl rfl
    (val_main_v39 (F := Ideal)) (val_main_v40 (F := Ideal) dst) (val_main_v38 (F := Ideal) A0 A1 A2 A3 A4 A5 A6 src dst) n g d).trans ?_
  rw [val_main_v39_apply, val_main_cst_8_apply, Ideal.ofBits_def, Ideal.ofBits_zero_f32, zero_add]
  unfold Spec.aggMsg Spec.lands
  simp only [dstColMsg_at]
  exact Finset.sum_congr rfl fun e _ => msg_at A0 A1 A2 A3 A4 A5 A6 src dst e g d (hs e).1 (hd e).1

/-- A node's summed weight for head g. -/
theorem aggWeight_at (A0 : FVec Ideal ⟨2, ![50000, 128]⟩ .f32) (A1 : FVec Ideal ⟨2, ![800000, 128]⟩ .f32) (A3 A4 A6 : FVec Ideal ⟨2, ![128, 128]⟩ .f32) (src dst : IVec ⟨1, ![800000]⟩ 32)
    (hs : ∀ e : Fin 800000, 0 ≤ (src (ix1 e)).toInt ∧ (src (ix1 e)).toInt < 50000)
    (hd : ∀ e : Fin 800000, 0 ≤ (dst (ix1 e)).toInt ∧ (dst (ix1 e)).toInt < 50000)
    (n : Fin 50000) (g : Fin 8) (z : Fin 1) :
    val_main_v44 (F := Ideal) A0 A1 A3 A4 A6 src dst (ix3 n g z) = Spec.aggWeight A0 A1 A3 A4 A6 src dst n g := by
  unfold val_main_v44
  refine (Cert.LibSG3.scatterAdd_slabs scatter_S50000x8x1_S800000x1_S800000x8x1_12_0_0_1 rfl rfl rfl rfl
    (val_main_v42 (F := Ideal)) (val_main_v43 (F := Ideal) dst) (val_main_v29 (F := Ideal) A0 A1 A3 A4 A6 src dst) n g z).trans ?_
  rw [val_main_v42_apply, val_main_cst_9_apply, Ideal.ofBits_def, Ideal.ofBits_zero_f32, zero_add]
  unfold Spec.aggWeight Spec.lands
  simp only [dstColWeight_at]
  exact Finset.sum_congr rfl fun e _ => weight_at A0 A1 A3 A4 A6 src dst e g z (hs e).1 (hd e).1

/-! ## The two results -/

/-- The second result of the reference is the edge features projected: the two reshapes undo each other. -/
theorem eOut_eq (A1 : FVec Ideal ⟨2, ![800000, 128]⟩ .f32) (A6 : FVec Ideal ⟨2, ![128, 128]⟩ .f32) :
    val_main_v49 (F := Ideal) A1 A6 = Cert.Spec.eOut A1 A6 := by
  funext i
  obtain ⟨r, j, rfl⟩ : ∃ (r : Fin 800000) (j : Fin 128), i = ix2 r j := ⟨i 0, i 1, eq_ix2 i⟩
  have e1 : idx_main_v7 (idx_main_v49 (ix2 r j)) = ix2 r j := funext fun a => Fin.ext (by
    have hr := r.isLt; have hj := j.isLt
    match a with
    | ⟨0, _⟩ =>
      show (((r.val * 128 + j.val) / 128 * 8 + (r.val * 128 + j.val) / 16 % 8) * 16 + (r.val * 128 + j.val) % 16) / 128 = r.val
      omega
    | ⟨1, _⟩ =>
      show (((r.val * 128 + j.val) / 128 * 8 + (r.val * 128 + j.val) / 16 % 8) * 16 + (r.val * 128 + j.val) % 16) % 128 = j.val
      omega)
  rw [val_main_v49_apply, val_main_v7_apply, e1, p_at A1 A6 r j]
  rfl

/-- The first result of the reference is the attention aggregation, when every source and destination entry names a node. -/
theorem hOut_eq (A0 : FVec Ideal ⟨2, ![50000, 128]⟩ .f32) (A1 : FVec Ideal ⟨2, ![800000, 128]⟩ .f32) (A2 : FVec Ideal ⟨2, ![50000, 128]⟩ .f32) (A3 A4 A5 A6 : FVec Ideal ⟨2, ![128, 128]⟩ .f32) (src dst : IVec ⟨1, ![800000]⟩ 32)
    (hs : ∀ e : Fin 800000, 0 ≤ (src (ix1 e)).toInt ∧ (src (ix1 e)).toInt < 50000)
    (hd : ∀ e : Fin 800000, 0 ≤ (dst (ix1 e)).toInt ∧ (dst (ix1 e)).toInt < 50000) :
    val_main_v48 (F := Ideal) A0 A1 A2 A3 A4 A5 A6 src dst = Cert.Spec.hOut A0 A2 A1 A3 A4 A5 A6 src dst := by
  funext i
  obtain ⟨n, g, d, rfl⟩ : ∃ (n : Fin 50000) (g : Fin 8) (d : Fin 16), i = ix3 n g d := ⟨i 0, i 1, i 2, eq_ix3 i⟩
  have e1 : idx_main_v47 (ix3 n g d) = ix3 n g (0 : Fin 1) := funext fun a => by match a with | ⟨0, _⟩ => rfl | ⟨1, _⟩ => rfl | ⟨2, _⟩ => rfl
  rw [val_main_v48_apply, aggMsg_at A0 A1 A2 A3 A4 A5 A6 src dst hs hd n g d, val_main_v47_apply, e1, val_main_v46_apply,
    aggWeight_at A0 A1 A3 A4 A6 src dst hs hd n g 0, val_main_v45_apply, val_main_cst_10_apply]
  rfl

end Cert.ReferenceIdeal.RefValue

end
-- ==== Proof.lean ====
/-
  The five claims of the certificate.

  Both programs compute one attention aggregation over a graph (the specification module states it as a function of the
  nine argument arrays over the extended reals): three node projections and one edge projection, each entry a sum of 128
  products; per edge and column a score, a product of four factors; per edge and head a weight, the exponential of the
  clipped sum of the head's sixteen scores; per edge and column a message, the source node's value times the weight of
  the column's head; sums of messages and of weights over the edges that share a destination node; and the quotient of
  a node's summed message by its summed weight plus a small constant.  The second result is the edge projection.

  The two programs differ in how they reach it.  The kernel program projects in row blocks, pairs k with v and Wq with Wk
  side by side and cuts them apart again, sums a head's scores and spreads a head's weight over its columns by products
  with two constant 0/1 tables, and keeps every array at width 128 or 8; the reference reshapes every array to
  node × head × column and sums, broadcasts and divides along the last axis.  Over the extended reals a product with a
  0/1 table is the sum or the single entry it selects (x · 1 = x and x · 0 = 0 for every x, the infinities included),
  and sums may be regrouped freely, so no finiteness of the inputs is used.

  What IS used is that every entry of the two index vectors names a node, 0 ≤ · < 50000: where an index is out of range
  the kernel program's row reads fill the row with a not-a-number pattern while the reference's clamp the index, and the
  two results differ.  In range both read the named row.
-/
import proofs.«409143_j74148315398272_3_alg».proof.Defs
import proofs.«409143_j74148315398272_3_alg».proof.Proof.Gen.Kernel
import proofs.«409143_j74148315398272_3_alg».proof.Proof.Gen.Kernel.Frame
import proofs.«409143_j74148315398272_3_alg».proof.Proof.Gen.KernelIdeal
import proofs.«409143_j74148315398272_3_alg».proof.Proof.Gen.KernelIdeal.Frame
import proofs.«409143_j74148315398272_3_alg».proof.Proof.Gen.ReferenceIdeal
import proofs.«409143_j74148315398272_3_alg».proof.Proof.Gen.Pre_finite_inputs
import proofs.«409143_j74148315398272_3_alg».proof.Proof.Gen.ReferenceIdeal.Run
import proofs.«409143_j74148315398272_3_alg».proof.Proof.Gen.ReferenceIdeal.Read
import proofs.«409143_j74148315398272_3_alg».proof.Proof.Spec
import proofs.«409143_j74148315398272_3_alg».proof.Proof.PreDecode
import proofs.«409143_j74148315398272_3_alg».proof.Proof.KRun
import proofs.«409143_j74148315398272_3_alg».proof.Proof.KChain
import proofs.«409143_j74148315398272_3_alg».proof.Proof.RefValue
import Idealize.ShloMosaic.Adequacy
import Idealize.ShloMosaic.Init

noncomputable section

namespace Cert.Proof

open Idealize.ShloMosaic Idealize.SL.Sem

/-- The word-level kernel program runs and leaves its arguments alone. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference runs and leaves its arguments alone: its run, with the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- Reading the kernel program over the extended reals rewrote none of its operations. -/
theorem preserves : Cert.preserves_Kernel_KernelIdeal := trivial

/-- From memories that agree on the nine arguments, with both index vectors in range, the two programs end with the
    specification's two arrays as their results. -/
theorem algebraic : Cert.algebraic_KernelIdeal_ReferenceIdeal := by
  intro m ρ m' ρ' hpre hagree
  have hr := fun c : Dev Cert.KernelIdeal.nD => Cert.PreDecode.ranges_of_pre _ _ _ _ _ _ _ _ _ (hpre c)
  refine ⟨fun c => Cert.Spec.hOut (Cert.KernelIdeal.Chain.aH m c) (Cert.KernelIdeal.Chain.aHin m c) (Cert.KernelIdeal.Chain.aE m c)
      (Cert.KernelIdeal.Chain.aWq m c) (Cert.KernelIdeal.Chain.aWk m c) (Cert.KernelIdeal.Chain.aWv m c) (Cert.KernelIdeal.Chain.aWe m c)
      (Cert.KernelIdeal.Chain.aSrc m c) (Cert.KernelIdeal.Chain.aDst m c),
    fun c => Cert.Spec.eOut (Cert.KernelIdeal.Chain.aE m c) (Cert.KernelIdeal.Chain.aWe m c), ?_, ?_⟩
  · exact (θ_run (Cert.KernelIdeal.defs (F := Ideal)) _ _).mono
      (fun r h c => ⟨(h c).1.trans (Cert.KernelIdeal.Chain.hOut_eq m ρ c (hr c).1 (hr c).2),
        (h c).2.1.trans (Cert.KernelIdeal.Chain.eOut_eq m ρ c), (h c).2.2⟩)
      (Cert.KernelIdeal.GenRun.run (F := Ideal) m ρ)
  · refine (θ_run (Cert.ReferenceIdeal.defs (F := Ideal)) _ _).mono (fun r h c => ?_)
      (Cert.ReferenceIdeal.Value.run (F := Ideal) m' ρ')
    obtain ⟨h0, h1, h2, h3, h4, h5, h6, h7, h8⟩ := hagree c
    refine ⟨(h c).1.trans ?_, (h c).2.1.trans ?_, (h c).2.2⟩
    · rw [Cert.ReferenceIdeal.Read.val_main_v48_eq m' c, h0, h1, h2, h3, h4, h5, h6, h7, h8]
      exact Cert.ReferenceIdeal.RefValue.hOut_eq _ _ _ _ _ _ _ _ _ (hr c).1 (hr c).2
    · rw [h1, h6]
      exact (Cert.ReferenceIdeal.Read.val_main_v49_eq _ _).trans (Cert.ReferenceIdeal.RefValue.eOut_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
